-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v2_0)) (v2 : (c : Dev Cert.KernelIdeal.nD) → Buf (Elt Ideal) ((c.tc : Thread Cert.KernelIdeal.nD Cert.KernelIdeal.τ).loc Cert.KernelIdeal.main_v18)) (v3 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_v32) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_v56) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x257x131072 : Shape := ⟨3, ![4, 257, 131072]⟩
abbrev S4 : Shape := ⟨1, ![4]⟩
abbrev S4x257 : Shape := ⟨2, ![4, 257]⟩
abbrev S_ : Shape := ⟨0, ![]⟩
abbrev S4x256 : Shape := ⟨2, ![4, 256]⟩

class Facts : Prop where
  bcast_S_S4x257x131072 : S_.BroadcastsInDim S4x257x131072 (![] : Fin 0 → Fin S4x257x131072.rank)
  reducesTo_S4x257x131072_S_d0_1_2 : S4x257x131072.ReducesTo [0, 1, 2] S_
  h_S_ : 0 < S_.numel
  bcast_S_S4 : S_.BroadcastsInDim S4 (![] : Fin 0 → Fin S4.rank)
  reducesTo_S4_S_d0 : S4.ReducesTo [0] S_
  slices_S4x257_S4x256_0_1 : S4x257.Slices ![0, 1] S4x256
  bcast_S_S4x256 : S_.BroadcastsInDim S4x256 (![] : Fin 0 → Fin S4x256.rank)
  reducesTo_S4x256_S_d0_1 : S4x256.ReducesTo [0, 1] S_

variable [Facts]

def fn_part1 {F : FTy → Type} [FloatOps F] (main_v13 : IVec S_ 1) (main_v16 : IVec S4x256 1) : IVec S_ 1 :=
  let main_c_5 : IVec S_ 1 := constantI S_ 1 1#1
  let main_v17 : IVec S_ 1 := (fun x v => Host.reduce IntOp.andi x v reducesTo_S4x256_S_d0_1 h_S_) main_v16 main_c_5
  let main_v18 : IVec S_ 1 := andi main_v13 main_v17
  main_v18

def fn {F : FTy → Type} [FloatOps F] (main_arg0 : FVec F S4x257x131072 .f32) (main_arg1 : FVec F S4 .f32) (main_arg2 : IVec S4x257 32) (main_arg3 : IVec S4x257 32) : IVec S_ 1 :=
  let main_v0 : FVec F S4x257x131072 .f32 := Host.absf main_arg0
  let main_cst : FVec F S_ .f32 := constant S_ .f32 0x7F800000#32
  let main_v1 : FVec F S4x257x131072 .f32 := broadcastInDim S4x257x131072 ![] bcast_S_S4x257x131072 main_cst
  let main_v2 : IVec S4x257x131072 1 := cmpf .olt main_v0 main_v1
  let main_c : IVec S_ 1 := constantI S_ 1 1#1
  let main_v3 : IVec S_ 1 := (fun x v => Host.reduce IntOp.andi x v reducesTo_S4x257x131072_S_d0_1_2 h_S_) main_v2 main_c
  let main_v4 : FVec F S4 .f32 := Host.absf main_arg1
  let main_cst_0 : FVec F S_ .f32 := constant S_ .f32 0x7F800000#32
  let main_v5 : FVec F S4 .f32 := broadcastInDim S4 ![] bcast_S_S4 main_cst_0
  let main_v6 : IVec S4 1 := cmpf .olt main_v4 main_v5
  let main_c_1 : IVec S_ 1 := constantI S_ 1 1#1
  let main_v7 : IVec S_ 1 := (fun x v => Host.reduce IntOp.andi x v reducesTo_S4_S_d0 h_S_) main_v6 main_c_1
  let main_v8 : IVec S_ 1 := andi main_v3 main_v7
  let main_v9 : IVec S4x256 32 := (extractStridedSlice S4x256 ![0, 1] · slices_S4x257_S4x256_0_1) main_arg2
  let main_c_2 : IVec S_ 32 := constantI S_ 32 0#32
  let main_v10 : IVec S4x256 32 := broadcastInDim S4x256 ![] bcast_S_S4x256 main_c_2
  let main_v11 : IVec S4x256 1 := cmpi .sge main_v9 main_v10
  let main_c_3 : IVec S_ 1 := constantI S_ 1 1#1
  let main_v12 : IVec S_ 1 := (fun x v => Host.reduce IntOp.andi x v reducesTo_S4x256_S_d0_1 h_S_) main_v11 main_c_3
  let main_v13 : IVec S_ 1 := andi main_v8 main_v12
  let main_v14 : IVec S4x256 32 := (extractStridedSlice S4x256 ![0, 1] · slices_S4x257_S4x256_0_1) main_arg2
  let main_c_4 : IVec S_ 32 := constantI S_ 32 131072#32
  let main_v15 : IVec S4x256 32 := broadcastInDim S4x256 ![] bcast_S_S4x256 main_c_4
  let main_v16 : IVec S4x256 1 := cmpi .slt main_v14 main_v15
  fn_part1 (F := F) main_v13 main_v16
-- ==== Kernel.lean ====
abbrev S4x257x131072 : Shape := ⟨3, ![4, 257, 131072]⟩
abbrev S4 : Shape := ⟨1, ![4]⟩
abbrev S4x257 : Shape := ⟨2, ![4, 257]⟩
abbrev S4x256 : Shape := ⟨2, ![4, 256]⟩
abbrev S4x256x1024 : Shape := ⟨3, ![4, 256, 1024]⟩
abbrev S4x256x1 : Shape := ⟨3, ![4, 256, 1]⟩
abbrev S_ : Shape := ⟨0, ![]⟩
abbrev S4x1 : Shape := ⟨2, ![4, 1]⟩

abbrev nBuf : Space → Nat
  | .hbm => 62
  | .vmem => 14
  | .smem => 0
  | _ => 0

abbrev bufTy : (tb : Table) → Fin (tcTables nBuf tb) → BufTy
  | .hbm, ⟨0, _⟩ => ⟨S4x257x131072, .f32⟩
  | .hbm, ⟨1, _⟩ => ⟨S4, .f32⟩
  | .hbm, ⟨2, _⟩ => ⟨S4x257, .i32⟩
  | .hbm, ⟨3, _⟩ => ⟨S4x257, .i32⟩
  | .hbm, ⟨4, _⟩ => ⟨S4x256, .i32⟩
  | .hbm, ⟨5, _⟩ => ⟨S4x256, .i32⟩
  | .hbm, ⟨6, _⟩ => ⟨S4x256, .f32⟩
  | .hbm, ⟨7, _⟩ => ⟨S4x256, .f32⟩
  | .hbm, ⟨8, _⟩ => ⟨S4x256, .f32⟩
  | .hbm, ⟨9, _⟩ => ⟨S4x256, .f32⟩
  | .hbm, ⟨10, _⟩ => ⟨S4x256, .f32⟩
  | .hbm, ⟨11, _⟩ => ⟨S4x256, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S4x256, .f32⟩
  | .hbm, ⟨16, _⟩ => ⟨S4x256, .f32⟩
  | .hbm, ⟨17, _⟩ => ⟨S_, .f32⟩
  | .hbm, ⟨18, _⟩ => ⟨S4x256, .f32⟩
  | .hbm, ⟨19, _⟩ => ⟨S4x256, .f32⟩
  | .hbm, ⟨20, _⟩ => ⟨S4x1, .f32⟩
  | .hbm, ⟨21, _⟩ => ⟨S4x256, .f32⟩
  | .hbm, ⟨22, _⟩ => ⟨S4x256, .f32⟩
  | .hbm, ⟨23, _⟩ => ⟨S4x256, .f32⟩
  | .hbm, ⟨24, _⟩ => ⟨S4x256, .f32⟩
  | .hbm, ⟨25, _⟩ => ⟨S4x256, .f32⟩
  | .hbm, ⟨26, _⟩ => ⟨S4x256, .f32⟩
  | .hbm, ⟨27, _⟩ => ⟨S4x256, .f32⟩
  | .hbm, ⟨28, _⟩ => ⟨S4x256, .f32⟩
  | .hbm, ⟨29, _⟩ => ⟨S_, .f32⟩
  | .hbm, ⟨30, _⟩ => ⟨S4, .f32⟩
  | .hbm, ⟨31, _⟩ => ⟨S_, .f32⟩
  | .hbm, ⟨32, _⟩ => ⟨S4, .f32⟩
  | .hbm, ⟨33, _⟩ => ⟨S4, .f32⟩
  | .hbm, ⟨34, _⟩ => ⟨S_, .i32⟩
  | .hbm, ⟨35, _⟩ => ⟨S4x256, .i32⟩
  | .hbm, ⟨36, _⟩ => ⟨S4x256, .i1⟩
  | .hbm, ⟨37, _⟩ => ⟨S4x256, .i32⟩
  | .hbm, ⟨38, _⟩ => ⟨S_, .i32⟩
  | .hbm, ⟨39, _⟩ => ⟨S_, .i32⟩
  | .hbm, ⟨40, _⟩ => ⟨S4x256, .i32⟩
  | .hbm, ⟨41, _⟩ => ⟨S_, .i32⟩
  | .hbm, ⟨42, _⟩ => ⟨S4x256, .i32⟩
  | .hbm, ⟨43, _⟩ => ⟨S4x256, .i1⟩
  | .hbm, ⟨44, _⟩ => ⟨S4x256, .i1⟩
  | .hbm, ⟨45, _⟩ => ⟨S_, .i32⟩
  | .hbm, ⟨46, _⟩ => ⟨S4x256, .i32⟩
  | .hbm, ⟨47, _⟩ => ⟨S4x256, .i1⟩
  | .hbm, ⟨48, _⟩ => ⟨S4x256, .i1⟩
  | .hbm, ⟨49, _⟩ => ⟨S4x256, .f32⟩
  | .hbm, ⟨50, _⟩ => ⟨S4x256, .f32⟩
  | .hbm, ⟨51, _⟩ => ⟨S_, .f32⟩
  | .hbm, ⟨52, _⟩ => ⟨S4, .f32⟩
  | .hbm, ⟨53, _⟩ => ⟨S_, .f32⟩
  | .hbm, ⟨54, _⟩ => ⟨S4, .f32⟩
  | .hbm, ⟨55, _⟩ => ⟨S4, .f32⟩
  | .hbm, ⟨56, _⟩ => ⟨S_, .f32⟩
  | .hbm, ⟨57, _⟩ => ⟨S_, .f32⟩
  | .hbm, ⟨58, _⟩ => ⟨S4x256, .f32⟩
  | .hbm, ⟨59, _⟩ => ⟨S_, .f32⟩
  | .hbm, ⟨60, _⟩ => ⟨S_, .f32⟩
  | .hbm, ⟨61, _⟩ => ⟨S_, .f32⟩
  | .local _ .vmem, ⟨0, _⟩ => ⟨S4x256x1024, .f32⟩
  | .local _ .vmem, ⟨1, _⟩ => ⟨S4x256x1024, .f32⟩
  | .local _ .vmem, ⟨2, _⟩ => ⟨S4x256, .i32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | .local _ .vmem, ⟨7, _⟩ => ⟨S4x256, .f32⟩
  | .local _ .vmem, ⟨8, _⟩ => ⟨S4x256, .f32⟩
  | .local _ .vmem, ⟨9, _⟩ => ⟨S4x256x1024, .f32⟩
  | .local _ .vmem, ⟨10, _⟩ => ⟨S4x256x1024, .f32⟩
  | .local _ .vmem, ⟨11, _⟩ => ⟨S4x256, .f32⟩
  | .local _ .vmem, ⟨12, _⟩ => ⟨S4x256, .f32⟩
  | .local _ .vmem, ⟨13, _⟩ => ⟨S4x256, .f32⟩
  | _, _ => ⟨S4x257x131072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_call1_v0 : Ref sig .tc := ⟨.hbm, 37, rfl⟩
abbrev main_call1_call0_c : Ref sig .tc := ⟨.hbm, 38, rfl⟩
abbrev main_call1_call0_v0 : Ref sig .tc := ⟨.hbm, 39, rfl⟩
abbrev main_v21 : Ref sig .tc := ⟨.hbm, 40, rfl⟩
abbrev main_c_3 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_cst_6 : Ref sig .tc := ⟨.hbm, 53, rfl⟩
abbrev main_v31 : Ref sig .tc := ⟨.hbm, 54, rfl⟩
abbrev main_v32 : Ref sig .tc := ⟨.hbm, 55, rfl⟩
abbrev main_cst_7 : Ref sig .tc := ⟨.hbm, 56, rfl⟩
abbrev main_v33 : Ref sig .tc := ⟨.hbm, 57, rfl⟩
abbrev main_v34 : Ref sig .tc := ⟨.hbm, 58, rfl⟩
abbrev main_cst_8 : Ref sig .tc := ⟨.hbm, 59, rfl⟩
abbrev main_v35 : Ref sig .tc := ⟨.hbm, 60, rfl⟩
abbrev main_v36 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v40 : BitVec 1 := Scalar.cmpi .eq arg0 c127_i32
  let v41 : BitVec 32 := Scalar.extui v40
  let c0_i32_20 : BitVec 32 := 0#32
  let v42 : BitVec 1 := Scalar.cmpi .ne v41 c0_i32_20
  v42

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![128], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  slices_S4x257_S4x256_0_1 : S4x257.Slices ![0, 1] S4x256
  inb_S4x256_S4x256_0_0 : ∀ a, (![0, 0] : Fin 2 → Nat) a + S4x256.size a ≤ S4x256.size a
  h_S4x256 : 0 < S4x256.numel
  shapeCasts_S4x256_S4x256 : S4x256.ShapeCasts S4x256
  inb_S4x256x1024_S4x256x1024_0_0_0 : ∀ a, (![0, 0, 0] : Fin 3 → Nat) a + S4x256x1024.size a ≤ S4x256x1024.size a
  h_S4x256x1024 : 0 < S4x256x1024.numel
  reduces_S4x256x1024_S4x256 : S4x256x1024.Reduces [2] S4x256
  shapeCasts_S4x256_S4x256x1 : S4x256.ShapeCasts S4x256x1
  broadcasts_S4x256x1_S4x256x1024 : S4x256x1.Broadcasts S4x256x1024
  iota_S4x256x1024_d2_w32 : S4x256x1024.Iotas .tc 32 [2]
  bcast_S_S4x256 : S_.BroadcastsInDim S4x256 (![] : Fin 0 → Fin S4x256.rank)
  bcast_S4_S4x1_0 : S4.BroadcastsInDim S4x1 (![0] : Fin 1 → Fin S4x1.rank)
  bcast_S4x1_S4x256_0_1 : S4x1.BroadcastsInDim S4x256 (![0, 1] : Fin 2 → Fin S4x256.rank)
  reducesTo_S4x256_S4_d1 : S4x256.ReducesTo [1] S4
  h_S_ : 0 < S_.numel
  natLt_1_32 : 1 < 32
  bcast_S_S_ : S_.BroadcastsInDim S_ (![] : Fin 0 → Fin S_.rank)
  reduceWindows_S4x256_S4x256_w1s1p0_0_w256s1p255_0 : S4x256.ReduceWindows (![1, 256] : Fin 2 → Nat) ![1, 1] ![0, 255] ![0, 0] S4x256
  reducesTo_S4x256_S_d0_1 : S4x256.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4x256x1024.size a < S4x257x131072.size a
  hwx0_0 : ∀ i : grid0.Coords, EltTy.bits .f32 = 32 ∨ (Rect.unit (s := S4x257x131072) (fun a => cc0_transform_0 i a * S4x256x1024.size a) (fun a => (Pipeline.Clip.of (cc0_transform_0 i a) (S4x256x1024.size a) (S4x257x131072.size a)).extent (S4x256x1024.size a)) fun a => Pipeline.Clip.inb (Pipeline.Clip.ok_of (hstart0_0 i a))).WholeWords (EltTy.packing .f32)
  hwxs0_0 : ∀ i : grid0.Coords, EltTy.bits .f32 = 32 ∨ (Rect.unit (s := S4x256x1024) (fun _ => 0) (fun a => (Pipeline.Clip.of (cc0_transform_0 i a) (S4x256x1024.size a) (S4x257x131072.size a)).extent (S4x256x1024.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x256.size a ≤ S4x256.size a
  hwx0_1 : ∀ i : grid0.Coords, EltTy.bits .i32 = 32 ∨ (Rect.block (s := S4x256) S4x256.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x256.size a ≤ S4x256.size a
  hwx0_2 : ∀ i : grid0.Coords, EltTy.bits .f32 = 32 ∨ (Rect.block (s := S4x256) S4x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x256.size a ≤ S4x256.size a
  hwx0_3 : ∀ i : grid0.Coords, EltTy.bits .f32 = 32 ∨ (Rect.block (s := S4x256) S4x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x256.size a ≤ S4x256.size a
  hwx0_4 : ∀ i : grid0.Coords, EltTy.bits .f32 = 32 ∨ (Rect.block (s := S4x256) S4x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S4x256x1024.size a < S4x257x131072.size a
  hwx1_0 : ∀ i : grid1.Coords, EltTy.bits .f32 = 32 ∨ (Rect.unit (s := S4x257x131072) (fun a => cc1_transform_0 i a * S4x256x1024.size a) (fun a => (Pipeline.Clip.of (cc1_transform_0 i a) (S4x256x1024.size a) (S4x257x131072.size a)).extent (S4x256x1024.size a)) fun a => Pipeline.Clip.inb (Pipeline.Clip.ok_of (hstart1_0 i a))).WholeWords (EltTy.packing .f32)
  hwxs1_0 : ∀ i : grid1.Coords, EltTy.bits .f32 = 32 ∨ (Rect.unit (s := S4x256x1024) (fun _ => 0) (fun a => (Pipeline.Clip.of (cc1_transform_0 i a) (S4x256x1024.size a) (S4x257x131072.size a)).extent (S4x256x1024.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x256.size a ≤ S4x256.size a
  hwx1_1 : ∀ i : grid1.Coords, EltTy.bits .f32 = 32 ∨ (Rect.block (s := S4x256) S4x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x256.size a ≤ S4x256.size a
  hwx1_2 : ∀ i : grid1.Coords, EltTy.bits .f32 = 32 ∨ (Rect.block (s := S4x256) S4x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x256.size a ≤ S4x256.size a
  hwx1_3 : ∀ i : grid1.Coords, EltTy.bits .f32 = 32 ∨ (Rect.block (s := S4x256) S4x256.size (cc1_transform_3 i) (hinb1_3 i)).WholeWords (EltTy.packing .f32)

variable [Facts₀]

abbrev win0_0 : Pipeline.Window sig grid0 :=
  Pipeline.Window.ofSpecClip (Memref.whole main_arg0) S4x256x1024.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S4x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S4x256.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S4x256.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S4x256.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond2 i == 1#1) | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpecClip (Memref.whole main_arg0) S4x256x1024.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_v2_1) S4x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2_2) S4x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S4x256.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x257x131072 : Shape := ⟨3, ![4, 257, 131072]⟩
abbrev S4 : Shape := ⟨1, ![4]⟩
abbrev S4x257 : Shape := ⟨2, ![4, 257]⟩
abbrev S4x256 : Shape := ⟨2, ![4, 256]⟩
abbrev S4x256x131072 : Shape := ⟨3, ![4, 256, 131072]⟩
abbrev S_ : Shape := ⟨0, ![]⟩
abbrev S4x256x1 : Shape := ⟨3, ![4, 256, 1]⟩
abbrev S4x256x1x1 : Shape := ⟨4, ![4, 256, 1, 1]⟩
abbrev S1 : Shape := ⟨1, ![1]⟩
abbrev S1x1x1x1 : Shape := ⟨4, ![1, 1, 1, 1]⟩
abbrev S4x1 : Shape := ⟨2, ![4, 1]⟩

abbrev nBuf : Space → Nat
  | .hbm => 126
  | .vmem => 0
  | .smem => 0
  | _ => 0

abbrev bufTy : (tb : Table) → Fin (tcTables nBuf tb) → BufTy
  | .hbm, ⟨0, _⟩ => ⟨S4x257x131072, .f32⟩
  | .hbm, ⟨1, _⟩ => ⟨S4, .f32⟩
  | .hbm, ⟨2, _⟩ => ⟨S4x257, .i32⟩
  | .hbm, ⟨3, _⟩ => ⟨S4x257, .i32⟩
  | .hbm, ⟨4, _⟩ => ⟨S4x256, .i32⟩
  | .hbm, ⟨5, _⟩ => ⟨S4x256, .i32⟩
  | .hbm, ⟨6, _⟩ => ⟨S4x256x131072, .f32⟩
  | .hbm, ⟨7, _⟩ => ⟨S_, .f32⟩
  | .hbm, ⟨8, _⟩ => ⟨S4x256, .f32⟩
  | .hbm, ⟨9, _⟩ => ⟨S_, .f32⟩
  | .hbm, ⟨10, _⟩ => ⟨S4x256, .f32⟩
  | .hbm, ⟨11, _⟩ => ⟨S4x256, .f32⟩
  | .hbm, ⟨12, _⟩ => ⟨S4x256x1, .f32⟩
  | .hbm, ⟨13, _⟩ => ⟨S4x256x131072, .f32⟩
  | .hbm, ⟨14, _⟩ => ⟨S4x256x131072, .f32⟩
  | .hbm, ⟨15, _⟩ => ⟨S4x256x131072, .f32⟩
  | .hbm, ⟨16, _⟩ => ⟨S_, .f32⟩
  | .hbm, ⟨17, _⟩ => ⟨S4x256, .f32⟩
  | .hbm, ⟨18, _⟩ => ⟨S4x256x1, .f32⟩
  | .hbm, ⟨19, _⟩ => ⟨S4x256x1, .f32⟩
  | .hbm, ⟨20, _⟩ => ⟨S4x256x131072, .f32⟩
  | .hbm, ⟨21, _⟩ => ⟨S4x256x131072, .f32⟩
  | .hbm, ⟨22, _⟩ => ⟨S4x256x1, .i32⟩
  | .hbm, ⟨23, _⟩ => ⟨S_, .i32⟩
  | .hbm, ⟨24, _⟩ => ⟨S4x256x1, .i32⟩
  | .hbm, ⟨25, _⟩ => ⟨S4x256x1, .i1⟩
  | .hbm, ⟨26, _⟩ => ⟨S_, .i32⟩
  | .hbm, ⟨27, _⟩ => ⟨S4x256x1, .i32⟩
  | .hbm, ⟨28, _⟩ => ⟨S4x256x1, .i32⟩
  | .hbm, ⟨29, _⟩ => ⟨S4x256x1, .i32⟩
  | .hbm, ⟨30, _⟩ => ⟨S4x256x1x1, .i32⟩
  | .hbm, ⟨31, _⟩ => ⟨S1, .i32⟩
  | .hbm, ⟨32, _⟩ => ⟨S_, .i32⟩
  | .hbm, ⟨33, _⟩ => ⟨S4x256x1x1, .i32⟩
  | .hbm, ⟨34, _⟩ => ⟨S4x256x1x1, .i1⟩
  | .hbm, ⟨35, _⟩ => ⟨S1x1x1x1, .i32⟩
  | .hbm, ⟨36, _⟩ => ⟨S4x256x1x1, .i32⟩
  | .hbm, ⟨37, _⟩ => ⟨S4x256x1x1, .i1⟩
  | .hbm, ⟨38, _⟩ => ⟨S4x256x1x1, .i1⟩
  | .hbm, ⟨39, _⟩ => ⟨S_, .i1⟩
  | .hbm, ⟨40, _⟩ => ⟨S4x256x1, .i1⟩
  | .hbm, ⟨41, _⟩ => ⟨S4x256x1, .f32⟩
  | .hbm, ⟨42, _⟩ => ⟨S_, .f32⟩
  | .hbm, ⟨43, _⟩ => ⟨S4x256x1, .f32⟩
  | .hbm, ⟨44, _⟩ => ⟨S4x256x1, .f32⟩
  | .hbm, ⟨45, _⟩ => ⟨S4x256, .f32⟩
  | .hbm, ⟨46, _⟩ => ⟨S_, .f32⟩
  | .hbm, ⟨47, _⟩ => ⟨S4x256, .f32⟩
  | .hbm, ⟨48, _⟩ => ⟨S4x256, .f32⟩
  | .hbm, ⟨49, _⟩ => ⟨S4x256, .f32⟩
  | .hbm, ⟨50, _⟩ => ⟨S4x256, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S4x256, .f32⟩
  | .hbm, ⟨55, _⟩ => ⟨S4x256, .f32⟩
  | .hbm, ⟨56, _⟩ => ⟨S_, .f32⟩
  | .hbm, ⟨57, _⟩ => ⟨S4x256, .f32⟩
  | .hbm, ⟨58, _⟩ => ⟨S4x256, .f32⟩
  | .hbm, ⟨59, _⟩ => ⟨S4x1, .f32⟩
  | .hbm, ⟨60, _⟩ => ⟨S4x256, .f32⟩
  | .hbm, ⟨61, _⟩ => ⟨S4x256, .f32⟩
  | .hbm, ⟨62, _⟩ => ⟨S4x256, .f32⟩
  | .hbm, ⟨63, _⟩ => ⟨S4x256, .f32⟩
  | .hbm, ⟨64, _⟩ => ⟨S4x256, .f32⟩
  | .hbm, ⟨65, _⟩ => ⟨S4x256, .f32⟩
  | .hbm, ⟨66, _⟩ => ⟨S_, .f32⟩
  | .hbm, ⟨67, _⟩ => ⟨S4x256x131072, .f32⟩
  | .hbm, ⟨68, _⟩ => ⟨S4x256x131072, .f32⟩
  | .hbm, ⟨69, _⟩ => ⟨S_, .f32⟩
  | .hbm, ⟨70, _⟩ => ⟨S4x256, .f32⟩
  | .hbm, ⟨71, _⟩ => ⟨S_, .f32⟩
  | .hbm, ⟨72, _⟩ => ⟨S4x256, .f32⟩
  | .hbm, ⟨73, _⟩ => ⟨S4x256, .f32⟩
  | .hbm, ⟨74, _⟩ => ⟨S4x256x1, .f32⟩
  | .hbm, ⟨75, _⟩ => ⟨S4x256x131072, .f32⟩
  | .hbm, ⟨76, _⟩ => ⟨S4x256x131072, .f32⟩
  | .hbm, ⟨77, _⟩ => ⟨S4x256x131072, .f32⟩
  | .hbm, ⟨78, _⟩ => ⟨S_, .f32⟩
  | .hbm, ⟨79, _⟩ => ⟨S4x256, .f32⟩
  | .hbm, ⟨80, _⟩ => ⟨S4x256x1, .f32⟩
  | .hbm, ⟨81, _⟩ => ⟨S4x256x131072, .f32⟩
  | .hbm, ⟨82, _⟩ => ⟨S4x256x131072, .f32⟩
  | .hbm, ⟨83, _⟩ => ⟨S_, .f32⟩
  | .hbm, ⟨84, _⟩ => ⟨S4x256x131072, .f32⟩
  | .hbm, ⟨85, _⟩ => ⟨S4x256x131072, .f32⟩
  | .hbm, ⟨86, _⟩ => ⟨S4x256x131072, .f32⟩
  | .hbm, ⟨87, _⟩ => ⟨S4x256x131072, .f32⟩
  | .hbm, ⟨88, _⟩ => ⟨S_, .f32⟩
  | .hbm, ⟨89, _⟩ => ⟨S4x256, .f32⟩
  | .hbm, ⟨90, _⟩ => ⟨S4x256, .f32⟩
  | .hbm, ⟨91, _⟩ => ⟨S4x256, .f32⟩
  | .hbm, ⟨92, _⟩ => ⟨S4x256, .f32⟩
  | .hbm, ⟨93, _⟩ => ⟨S_, .f32⟩
  | .hbm, ⟨94, _⟩ => ⟨S4, .f32⟩
  | .hbm, ⟨95, _⟩ => ⟨S_, .f32⟩
  | .hbm, ⟨96, _⟩ => ⟨S4, .f32⟩
  | .hbm, ⟨97, _⟩ => ⟨S4, .f32⟩
  | .hbm, ⟨98, _⟩ => ⟨S_, .i32⟩
  | .hbm, ⟨99, _⟩ => ⟨S4x256, .i32⟩
  | .hbm, ⟨100, _⟩ => ⟨S4x256, .i1⟩
  | .hbm, ⟨101, _⟩ => ⟨S4x256, .i32⟩
  | .hbm, ⟨102, _⟩ => ⟨S_, .i32⟩
  | .hbm, ⟨103, _⟩ => ⟨S_, .i32⟩
  | .hbm, ⟨104, _⟩ => ⟨S4x256, .i32⟩
  | .hbm, ⟨105, _⟩ => ⟨S_, .i32⟩
  | .hbm, ⟨106, _⟩ => ⟨S4x256, .i32⟩
  | .hbm, ⟨107, _⟩ => ⟨S4x256, .i1⟩
  | .hbm, ⟨108, _⟩ => ⟨S4x256, .i1⟩
  | .hbm, ⟨109, _⟩ => ⟨S_, .i32⟩
  | .hbm, ⟨110, _⟩ => ⟨S4x256, .i32⟩
  | .hbm, ⟨111, _⟩ => ⟨S4x256, .i1⟩
  | .hbm, ⟨112, _⟩ => ⟨S4x256, .i1⟩
  | .hbm, ⟨113, _⟩ => ⟨S4x256, .f32⟩
  | .hbm, ⟨114, _⟩ => ⟨S4x256, .f32⟩
  | .hbm, ⟨115, _⟩ => ⟨S_, .f32⟩
  | .hbm, ⟨116, _⟩ => ⟨S4, .f32⟩
  | .hbm, ⟨117, _⟩ => ⟨S_, .f32⟩
  | .hbm, ⟨118, _⟩ => ⟨S4, .f32⟩
  | .hbm, ⟨119, _⟩ => ⟨S4, .f32⟩
  | .hbm, ⟨120, _⟩ => ⟨S_, .f32⟩
  | .hbm, ⟨121, _⟩ => ⟨S_, .f32⟩
  | .hbm, ⟨122, _⟩ => ⟨S4x256, .f32⟩
  | .hbm, ⟨123, _⟩ => ⟨S_, .f32⟩
  | .hbm, ⟨124, _⟩ => ⟨S_, .f32⟩
  | .hbm, ⟨125, _⟩ => ⟨S_, .f32⟩
  | _, _ => ⟨S4x257x131072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_call0_cst_0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_cst_1 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_v3 : Ref sig .tc := ⟨.hbm, 21, rfl⟩
abbrev main_v4 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_c_1 : Ref sig .tc := ⟨.hbm, 31, rfl⟩
abbrev main_call1_c_2 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_3 : Ref sig .tc := ⟨.hbm, 39, rfl⟩
abbrev main_call1_v12 : Ref sig .tc := ⟨.hbm, 40, rfl⟩
abbrev main_call1_v13 : Ref sig .tc := ⟨.hbm, 41, rfl⟩
abbrev main_call1_cst : Ref sig .tc := ⟨.hbm, 42, rfl⟩
abbrev main_call1_v14 : Ref sig .tc := ⟨.hbm, 43, rfl⟩
abbrev main_v5 : Ref sig .tc := ⟨.hbm, 44, rfl⟩
abbrev main_v6 : Ref sig .tc := ⟨.hbm, 45, rfl⟩
abbrev main_cst : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_cst_0 : Ref sig .tc := ⟨.hbm, 51, rfl⟩
abbrev main_cst_1 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_cst_2 : Ref sig .tc := ⟨.hbm, 66, rfl⟩
abbrev main_v19 : Ref sig .tc := ⟨.hbm, 67, rfl⟩
abbrev main_v20 : Ref sig .tc := ⟨.hbm, 68, rfl⟩
abbrev main_cst_3 : Ref sig .tc := ⟨.hbm, 69, rfl⟩
abbrev main_v21 : Ref sig .tc := ⟨.hbm, 70, rfl⟩
abbrev main_cst_4 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_cst_5 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_cst_6 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_cst_7 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_cst_8 : Ref sig .tc := ⟨.hbm, 93, rfl⟩
abbrev main_v40 : Ref sig .tc := ⟨.hbm, 94, rfl⟩
abbrev main_cst_9 : Ref sig .tc := ⟨.hbm, 95, rfl⟩
abbrev main_v41 : Ref sig .tc := ⟨.hbm, 96, rfl⟩
abbrev main_v42 : Ref sig .tc := ⟨.hbm, 97, rfl⟩
abbrev main_c : Ref sig .tc := ⟨.hbm, 98, rfl⟩
abbrev main_v43 : Ref sig .tc := ⟨.hbm, 99, rfl⟩
abbrev main_v44 : Ref sig .tc := ⟨.hbm, 100, rfl⟩
abbrev main_call3_v0 : Ref sig .tc := ⟨.hbm, 101, rfl⟩
abbrev main_call3_call0_c : Ref sig .tc := ⟨.hbm, 102, rfl⟩
abbrev main_call3_call0_v0 : Ref sig .tc := ⟨.hbm, 103, rfl⟩
abbrev main_v45 : Ref sig .tc := ⟨.hbm, 104, rfl⟩
abbrev main_c_10 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_c_11 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_cst_12 : Ref sig .tc := ⟨.hbm, 115, rfl⟩
abbrev main_v54 : Ref sig .tc := ⟨.hbm, 116, rfl⟩
abbrev main_cst_13 : Ref sig .tc := ⟨.hbm, 117, rfl⟩
abbrev main_v55 : Ref sig .tc := ⟨.hbm, 118, rfl⟩
abbrev main_v56 : Ref sig .tc := ⟨.hbm, 119, rfl⟩
abbrev main_cst_14 : Ref sig .tc := ⟨.hbm, 120, rfl⟩
abbrev main_v57 : Ref sig .tc := ⟨.hbm, 121, rfl⟩
abbrev main_v58 : Ref sig .tc := ⟨.hbm, 122, rfl⟩
abbrev main_cst_15 : Ref sig .tc := ⟨.hbm, 123, rfl⟩
abbrev main_v59 : Ref sig .tc := ⟨.hbm, 124, rfl⟩
abbrev main_v60 : Ref sig .tc := ⟨.hbm, 125, rfl⟩

abbrev nD : Nat := 1
abbrev τ : Topo := Topo.v7x

variable {F : FTy → Type} [FloatOps F]

class Facts₀ : Prop where
  slices_S4x257_S4x256_0_1 : S4x257.Slices ![0, 1] S4x256
  slices_S4x257x131072_S4x256x131072_0_0_0 : S4x257x131072.Slices ![0, 0, 0] S4x256x131072
  reducesTo_S4x256x131072_S4x256_d2 : S4x256x131072.ReducesTo [2] S4x256
  h_S_ : 0 < S_.numel
  bcast_S_S4x256 : S_.BroadcastsInDim S4x256 (![] : Fin 0 → Fin S4x256.rank)
  bcast_S4x256_S4x256x1_0_1 : S4x256.BroadcastsInDim S4x256x1 (![0, 1] : Fin 2 → Fin S4x256x1.rank)
  bcast_S4x256x1_S4x256x131072_0_1_2 : S4x256x1.BroadcastsInDim S4x256x131072 (![0, 1, 2] : Fin 3 → Fin S4x256x131072.rank)
  bcast_S_S4x256x1 : S_.BroadcastsInDim S4x256x1 (![] : Fin 0 → Fin S4x256x1.rank)
  shapeCasts_S4x256x1_S4x256x1x1 : S4x256x1.ShapeCasts S4x256x1x1
  bcast_S_S4x256x1x1 : S_.BroadcastsInDim S4x256x1x1 (![] : Fin 0 → Fin S4x256x1x1.rank)
  bcast_S1_S1x1x1x1_3 : S1.BroadcastsInDim S1x1x1x1 (![3] : Fin 1 → Fin S1x1x1x1.rank)
  bcast_S1x1x1x1_S4x256x1x1_0_1_2_3 : S1x1x1x1.BroadcastsInDim S4x256x1x1 (![0, 1, 2, 3] : Fin 4 → Fin S4x256x1x1.rank)
  reducesTo_S4x256x1x1_S4x256x1_d3 : S4x256x1x1.ReducesTo [3] S4x256x1
  shapeCasts_S4x256x1_S4x256 : S4x256x1.ShapeCasts S4x256
  bcast_S4_S4x1_0 : S4.BroadcastsInDim S4x1 (![0] : Fin 1 → Fin S4x1.rank)
  bcast_S4x1_S4x256_0_1 : S4x1.BroadcastsInDim S4x256 (![0, 1] : Fin 2 → Fin S4x256.rank)
  bcast_S_S4x256x131072 : S_.BroadcastsInDim S4x256x131072 (![] : Fin 0 → Fin S4x256x131072.rank)
  reducesTo_S4x256_S4_d1 : S4x256.ReducesTo [1] S4
  natLt_1_32 : 1 < 32
  bcast_S_S_ : S_.BroadcastsInDim S_ (![] : Fin 0 → Fin S_.rank)
  reduceWindows_S4x256_S4x256_w1s1p0_0_w256s1p255_0 : S4x256.ReduceWindows (![1, 256] : Fin 2 → Nat) ![1, 1] ![0, 255] ![0, 0] S4x256
  reducesTo_S4x256_S_d0_1 : S4x256.ReducesTo [0, 1] S_
  gather_S4x256x131072_S4x256x1x1_S4x256x1_n_2_01_01_2_3_111_wf : GatherDims.WF S4x256x131072 S4x256x1x1 S4x256x1 [] [2] [0, 1] [2] [0, 1] 3 ![1, 1, 1]

variable [Facts₀]

def gather_S4x256x131072_S4x256x1x1_S4x256x1_n_2_01_01_2_3_111 : GatherDims S4x256x131072 S4x256x1x1 S4x256x1 where
  offsetDims := []
  collapsedSliceDims := [2]
  operandBatchingDims := [0, 1]
  startIndicesBatchingDims := [0, 1]
  startIndexMap := [2]
  indexVectorDim := 3
  sliceSizes := ![1, 1, 1]
  wf := gather_S4x256x131072_S4x256x1x1_S4x256x1_n_2_01_01_2_3_111_wf

class Facts : Prop extends Facts₀ where

variable [Facts]
-- ==== Proof.K.Steps.lean ====
/-
  The proof data of the two kernel regions, stated once for any float instance F and any contents V the
  TensorCore's buffers hold when a region is entered.

  Region 0 streams the logits over the vocabulary axis in 128 blocks of 1024 columns and carries three row-wise
  quantities in scratch from one block to the next: the running maximum, the running sum of exponentials taken
  relative to that maximum, and the running sum of the entries whose column is the chosen token's. After n
  blocks they are sc0 n: from (-inf, 0, 0), each block maps (m, s, k) to
  (max m (rowmax x), exp (m - m') * s + sum (exp (x - m')), k + sum (x where the column is the chosen one)).
  Only the last block writes the three results: the log-probability (k - m - log s) / 1, the maximum, and log s.

  Region 1 streams the logits once more against the now fixed maximum and log-sum, and accumulates in its result
  block, from 0, the negated row sums of p * log (p + eps) with p = exp (x - m - log s): ent1 n after n blocks.

  An input block the body only reads is what the last fetch at or before the point brought (Pipeline.heldIn):
  the logits' block moves with the point; the other inputs are fetched once.
-/
import proofs.«419102_j73229192397434_1_alg».proof.Proof.Gen.Kernel.Skeleton
import proofs.«419102_j73229192397434_1_alg».proof.Proof.Gen.Kernel.Launch
import proofs.«419102_j73229192397434_1_alg».proof.Proof.Gen.Kernel.Points
import Idealize.ShloMosaic.Lib.Pipeline.Frame
import Idealize.ShloMosaic.Lib.Pipeline.FrameBody

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- Region 0's windowed arrays as the region finds them. -/
abbrev A0 (c : Dev nD) (w : Fin cfg0.W) : Buf (Elt F) ((cfg0.win w).arr.view.loc (c.tc : Thread nD τ)) :=
  V c (Pipeline.arrRef spec0 w)

/-- The logits' block the body reads at point n. -/
abbrev xin0 (c : Dev nD) (n : ℕ) (h : n < cfg0.N) : Vec F S4x256x1024 .f32 := Pipeline.heldIn cfg0 (A0 V c) 0 n h
/-- The chosen-token ids the body reads at point n (one block, fetched once). -/
abbrev ids0 (c : Dev nD) (n : ℕ) (h : n < cfg0.N) : Vec F S4x256 .i32 := Pipeline.heldIn cfg0 (A0 V c) 1 n h

/-- The carried triple (running maximum, running sum of exponentials, running chosen entry) after n points. -/
def sc0 (c : Dev nD) : (n : ℕ) → n ≤ cfg0.N → Vec F S4x256 .f32 × Vec F S4x256 .f32 × Vec F S4x256 .f32
  | 0, _ => (k0_pay4, k0_pay5, k0_pay6)
  | n + 1, h =>
    let p := sc0 c n (Nat.le_of_succ_le h)
    (k0_pay9 (xin0 V c n h) p.1,
     k0_pay8 (xin0 V c n h) p.1 p.2.1,
     k0_pay1 (k0_pay10 (grid0.coords ⟨n, h⟩) (xin0 V c n h) (ids0 V c n h)) p.2.2)

theorem sc0_zero (c : Dev nD) (h : 0 ≤ cfg0.N) : sc0 V c 0 h = (k0_pay4, k0_pay5, k0_pay6) := rfl

theorem sc0_succ (c : Dev nD) (n : ℕ) (h : n + 1 ≤ cfg0.N) :
    sc0 V c (n + 1) h =
      (k0_pay9 (xin0 V c n h) (sc0 V c n (Nat.le_of_succ_le h)).1,
       k0_pay8 (xin0 V c n h) (sc0 V c n (Nat.le_of_succ_le h)).1 (sc0 V c n (Nat.le_of_succ_le h)).2.1,
       k0_pay1 (k0_pay10 (grid0.coords ⟨n, h⟩) (xin0 V c n h) (ids0 V c n h)) (sc0 V c n (Nat.le_of_succ_le h)).2.2) := rfl

/-- What the last point stores into the three result blocks: the log-probability, the maximum, the log-sum. -/
def fin0 (c : Dev nD) : Vec F S4x256 .f32 × Vec F S4x256 .f32 × Vec F S4x256 .f32 :=
  let p := sc0 V c cfg0.N (Nat.le_refl _)
  (k0_pay3 p.2.1 p.2.2 p.1, p.1, k0_pay2 p.2.1)

/-- The three scratch buffers as whole memrefs. -/
abbrev scM0 : Memref sig .tc .vmem S4x256 .f32 := Memref.whole cc0_scratch0
abbrev scM1 : Memref sig .tc .vmem S4x256 .f32 := Memref.whole cc0_scratch1
abbrev scM2 : Memref sig .tc .vmem S4x256 .f32 := Memref.whole cc0_scratch2

/-- The scoped buffers of the core that region 0 neither stages nor uses as scratch, each whole at some contents. -/
def other0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f))

/-- Region 0's invariant before point n: before the first point what the launch hands a region (every scoped
    buffer no window stages at some contents, the generator register at some state); afterwards the three scratch
    buffers at the carried triple, the other scoped buffers and the register as before. -/
def Phi0 (c : Dev nD) : (n : ℕ) → n ≤ cfg0.N → sProp 𝕄
  | 0, _ => Pipeline.ΦA spec0 c
  | n + 1, h =>
    iprop(owns (c : Thread nD τ) scM0 fullShare (sc0 V c (n + 1) h).1
      ∗ owns (c : Thread nD τ) scM1 fullShare (sc0 V c (n + 1) h).2.1
      ∗ owns (c : Thread nD τ) scM2 fullShare (sc0 V c (n + 1) h).2.2
      ∗ other0 c ∗ (∃ r, prngReg c r))

/-- The proof data of region 0 on core c. The result windows' after is the last point's store at every
    point: at the others the windows are idle and nothing consults it. -/
def dat0 (c : Dev nD) : Dat τ (Elt F) Unit ℕ (UR sig nD τ) ℕ cfg0 c where
  A w := V c (Pipeline.arrRef spec0 w)
  after w t := match w with
    | ⟨0, _⟩ => xin0 V c t.val t.isLt
    | ⟨1, _⟩ => ids0 V c t.val t.isLt
    | ⟨2, _⟩ => (fin0 V c).1
    | ⟨3, _⟩ => (fin0 V c).2.1
    | ⟨4, _⟩ => (fin0 V c).2.2
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = xin0 V c t.val t.isLt := by dsimp only [dat0]
theorem after0_1 (c : Dev nD) (t : Fin cfg0.N) : (dat0 V c).after 1 t = ids0 V c t.val t.isLt := by dsimp only [dat0]
theorem after0_2 (c : Dev nD) (t : Fin cfg0.N) : (dat0 V c).after 2 t = (fin0 V c).1 := by dsimp only [dat0]
theorem after0_3 (c : Dev nD) (t : Fin cfg0.N) : (dat0 V c).after 3 t = (fin0 V c).2.1 := by dsimp only [dat0]
theorem after0_4 (c : Dev nD) (t : Fin cfg0.N) : (dat0 V c).after 4 t = (fin0 V c).2.2 := by dsimp only [dat0]

/-! ## Region 1 -/

/-- Region 1's windowed arrays as the region finds them. -/
abbrev A1 (c : Dev nD) (w : Fin cfg1.W) : Buf (Elt F) ((cfg1.win w).arr.view.loc (c.tc : Thread nD τ)) :=
  V c (Pipeline.arrRef spec1 w)

/-- The logits' block, the maxima and the log-sums the body reads at point n. -/
abbrev xin1 (c : Dev nD) (n : ℕ) (h : n < cfg1.N) : Vec F S4x256x1024 .f32 := Pipeline.heldIn cfg1 (A1 V c) 0 n h
abbrev mm1 (c : Dev nD) (n : ℕ) (h : n < cfg1.N) : Vec F S4x256 .f32 := Pipeline.heldIn cfg1 (A1 V c) 1 n h
abbrev lz1 (c : Dev nD) (n : ℕ) (h : n < cfg1.N) : Vec F S4x256 .f32 := Pipeline.heldIn cfg1 (A1 V c) 2 n h

/-- The entropy accumulator after n points. -/
def ent1 (c : Dev nD) : (n : ℕ) → n ≤ cfg1.N → Vec F S4x256 .f32
  | 0, _ => k1_pay1
  | n + 1, h => k1_pay2 (xin1 V c n h) (mm1 V c n h) (lz1 V c n h) (ent1 c n (Nat.le_of_succ_le h))

theorem ent1_zero (c : Dev nD) (h : 0 ≤ cfg1.N) : ent1 V c 0 h = k1_pay1 := rfl
theorem ent1_succ (c : Dev nD) (n : ℕ) (h : n + 1 ≤ cfg1.N) :
    ent1 V c (n + 1) h = k1_pay2 (xin1 V c n h) (mm1 V c n h) (lz1 V c n h) (ent1 V c n (Nat.le_of_succ_le h)) := rfl

/-- The proof data of region 1 on core c: the result block holds the accumulator after each point. -/
def dat1 (c : Dev nD) : Dat τ (Elt F) Unit ℕ (UR sig nD τ) ℕ cfg1 c where
  A w := V c (Pipeline.arrRef spec1 w)
  after w t := match w with
    | ⟨0, _⟩ => xin1 V c t.val t.isLt
    | ⟨1, _⟩ => mm1 V c t.val t.isLt
    | ⟨2, _⟩ => lz1 V c t.val t.isLt
    | ⟨3, _⟩ => ent1 V c (t.val + 1) t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = xin1 V c t.val t.isLt := by dsimp only [dat1]
theorem after1_1 (c : Dev nD) (t : Fin cfg1.N) : (dat1 V c).after 1 t = mm1 V c t.val t.isLt := by dsimp only [dat1]
theorem after1_2 (c : Dev nD) (t : Fin cfg1.N) : (dat1 V c).after 2 t = lz1 V c t.val t.isLt := by dsimp only [dat1]
theorem after1_3 (c : Dev nD) (t : Fin cfg1.N) : (dat1 V c).after 3 t = ent1 V c (t.val + 1) t.isLt := by dsimp only [dat1]

end Cert.Kernel.Hand

end
-- ==== Proof.K.Vals.lean ====
/-
  The contents of the TensorCore's unscoped buffers at each boundary between two items of @main, as a fold from the
  launch memory: a stretch of host operations applies its operations; a kernel region leaves each of its windowed
  arrays at what the write-backs of its proof data leave (an input array as entered, a result array at the last
  point's block) and every other buffer as entered.
  Items: the two slices (chosen ids, mask); region 0 (statistics); region 1 (entropy); then five stretches of host
  operations computing the loss and the two entropy averages.
-/
import proofs.«419102_j73229192397434_1_alg».proof.Proof.K.Steps
import Idealize.ShloMosaic.Lib.Pipeline.Regions
import Idealize.ShloMosaic.Lib.Pipeline.RegionsLoop
import Idealize.ShloMosaic.Lib.Pipeline.FrameSuffix

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core c's buffers at launch. -/
abbrev W0 : Dev nD → Valuation τ sig (Elt F) := fun c b => m (c, b)
/-- After the two slices (region 0's entry). -/
abbrev W1 : Dev nD → Valuation τ sig (Elt F) := fun c => StableHlo.after hostOps0 (W0 m c)
/-- The same read at the TensorCore's references (what region 0's proof data take). -/
abbrev V1 : (c : Dev nD) → (b : Ref sig .tc) → Buf (Elt F) ((c : Thread nD τ).loc b) := fun c b => W1 m c b
/-- At region 0's exit. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- At region 1's exit. -/
def W3 (c : Dev nD) : Valuation τ sig (Elt F) :=
  Pipeline.withArrays spec1 c (W2 m c) fun w => (dat1 (V2 m) c).arrAt w cfg1.N
abbrev V3 : (c : Dev nD) → (b : Ref sig .tc) → Buf (Elt F) ((c : Thread nD τ).loc b) := fun c b => W3 m c b
/-- After each of the five closing stretches of host operations. -/
abbrev W4 : Dev nD → Valuation τ sig (Elt F) := fun c => StableHlo.after hostOps2 (W3 m c)
abbrev W5 : Dev nD → Valuation τ sig (Elt F) := fun c => StableHlo.after hostOps2_1 (W4 m c)
abbrev W6 : Dev nD → Valuation τ sig (Elt F) := fun c => StableHlo.after hostOps2_2 (W5 m c)
abbrev W7 : Dev nD → Valuation τ sig (Elt F) := fun c => StableHlo.after hostOps2_3 (W6 m c)
abbrev W8 : Dev nD → Valuation τ sig (Elt F) := fun c => StableHlo.after hostOps2_4 (W7 m c)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

/-- At a region's exit each of its arrays holds what the pipeline leaves and every other buffer what it held at entry. -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

end Cert.Kernel.Hand

end
-- ==== Proof.K.Body0.lean ====
/-
  The statistics kernel's body at one grid point, on whole staging and scratch memrefs, one statement per control case.
  The body reads the logits' block x and the chosen ids, and maps the scratch triple (m, s, k) to
  (max m (rowmax x), exp (m - m') * s + sum exp (x - m'), k + the chosen entry of this block):
  at the first point from the reset triple (-inf, 0, 0); at the last point it also stores the three results
  (k' - m' - log s') / 1, m' and log s'. The result buffers are untouched at every other point.
-/
import proofs.«419102_j73229192397434_1_alg».proof.Proof.Gen.Kernel.Skeleton
import proofs.«419102_j73229192397434_1_alg».proof.Proof.Gen.Kernel.Launch
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangle's offsets are zero, in either rank. -/
private theorem hz2 : (![0, 0] : Fin 2 → Nat) = fun _ => 0 := funext fun a => by fin_cases a <;> rfl
private theorem hz3 : (![0, 0, 0] : Fin 3 → Nat) = fun _ => 0 := funext fun a => by fin_cases a <;> rfl

/-- A buffer whose last store went through the whole-buffer rectangle reads as that store's payload,
    whatever was stored before and whatever it held before. -/
private theorem read_whole_store {e : EltTy} (v : View sig .tc .vmem S4x256 e) (f : v.ty.Contents (Elt F))
    (w : Vec F S4x256 e) (L : List (View.Piece (Elt F) S4x256 e)) :
    v.read (Elt F) (v.writes (Elt F) f (⟨Rect.unit (s := S4x256) ![0, 0] S4x256.size inb_S4x256_S4x256_0_0, w⟩ :: L)) = w := by
  rw [View.read_writes_eq_canon _ _ _ (fun y => ⟨_, List.mem_cons_self, View.mem_set_unit_zero hz2 inb_S4x256_S4x256_0_0 y⟩),
    View.canon_cons_unit_zero hz2]

/-- A load through the whole-buffer rectangle reads the buffer's contents. -/
private theorem readAt_whole2 {e : EltTy} (v : View sig .tc .vmem S4x256 e) (f : v.ty.Contents (Elt F)) :
    View.readAt (Elt F) v (Rect.unit (s := S4x256) ![0, 0] S4x256.size inb_S4x256_S4x256_0_0).toLoadRect f = v.read (Elt F) f := by
  rw [View.readAt_eq_ld, View.ld_unit_zero hz2]
private theorem readAt_whole3 {e : EltTy} (v : View sig .tc .vmem S4x256x1024 e) (f : v.ty.Contents (Elt F)) :
    View.readAt (Elt F) v (Rect.unit (s := S4x256x1024) ![0, 0, 0] S4x256x1024.size inb_S4x256x1024_S4x256x1024_0_0_0).toLoadRect f = v.read (Elt F) f := by
  rw [View.readAt_eq_ld, View.ld_unit_zero hz3]

/-- A load through the whole-buffer rectangle after a store through it reads that store's payload. -/
private theorem readCov_whole2 {e : EltTy} (v : View sig .tc .vmem S4x256 e)
    (w : Vec F S4x256 e) (L : List (View.Piece (Elt F) S4x256 e)) :
    v.readCov (⟨Rect.unit (s := S4x256) ![0, 0] S4x256.size inb_S4x256_S4x256_0_0, w⟩ :: L)
      (Rect.unit (s := S4x256) ![0, 0] S4x256.size inb_S4x256_S4x256_0_0).toLoadRect = w := by
  rw [View.readCov_eq_canon_ld _ _ _ (fun y => ⟨_, List.mem_cons_self, View.mem_set_unit_zero hz2 inb_S4x256_S4x256_0_0 y⟩),
    View.canon_cons_unit_zero hz2, View.ld_unit_zero hz2]

/-- The word the first conditional (the reset at the grid's first point) tests. -/
def c1 (i : grid0.Coords) : BitVec 1 :=
  Scalar.cmpi .ne (Scalar.extui (Scalar.cmpi .eq (BitVec.ofNat 32 (i 0).val) 0#32)) 0#32

/-- The reset runs at the first point only; the results are stored at the last point only. -/
theorem c1_iff (t : Fin cfg0.N) : c1 (grid0.coords t) = 1#1 ↔ t.val = 0 :=
  (by decide +kernel : ∀ t : Fin grid0.N, c1 (grid0.coords t) = 1#1 ↔ t.val = 0) t
theorem c2_iff (t : Fin cfg0.N) : k0_cond2 (grid0.coords t) = 1#1 ↔ t.val = 127 :=
  (by decide +kernel : ∀ t : Fin grid0.N, k0_cond2 (grid0.coords t) = 1#1 ↔ t.val = 127) t

/-- The first point: the scratch at anything, reset, then one step from the reset triple. -/
theorem run0_first (c : Dev nD) (E : Set ℕ) (i : grid0.Coords) (h1 : c1 i = 1#1) (h2 : ¬ k0_cond2 i = 1#1)
    (arg1 : Memref sig .tc .vmem S4x256x1024 .f32) (harg1 : arg1.IsWhole) (arg2 : Memref sig .tc .vmem S4x256 .i32) (harg2 : arg2.IsWhole) (arg3 : Memref sig .tc .vmem S4x256 .f32) (harg3 : arg3.IsWhole) (arg4 : Memref sig .tc .vmem S4x256 .f32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256 .f32) (harg7 : arg7.IsWhole) (arg8 : Memref sig .tc .vmem S4x256 .f32) (harg8 : arg8.IsWhole)
    (x : Vec F S4x256x1024 .f32) (ids : Vec F S4x256 .i32) (K : PUnit → sProp 𝕄) :
    iprop(owns (c : Thread nD τ) arg1 fullShare x ∗ owns (c : Thread nD τ) arg2 fullShare ids
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x ∗ owns (c : Thread nD τ) arg2 fullShare ids
            ∗ owns (c : Thread nD τ) arg6 fullShare (k0_pay9 x k0_pay4)
            ∗ owns (c : Thread nD τ) arg7 fullShare (k0_pay8 x k0_pay4 k0_pay5)
            ∗ owns (c : Thread nD τ) arg8 fullShare (k0_pay1 (k0_pay10 i x ids) k0_pay6)) -∗ K ⟨⟩))
      ⊢ wp frame (wpE (defs₀ (F := F)) Variants.none c none) E (cc0__stat_kernel i arg1 harg1 arg2 harg2 arg3 harg3 arg4 harg4 arg5 harg5 arg6 harg6 arg7 harg7 arg8 harg8) K := by
  simp only [cc0__stat_kernel_eq_skeleton]; unfold cc0__stat_kernel_skel
  simp only [k0_part1_eq_skeleton]; unfold k0_part1_skel
  unfold owns
  iintro ⟨⟨%f1, %hf1, H1⟩, ⟨%f2, %hf2, H2⟩, ⟨%d6, %f6, -, H6⟩, ⟨%d7, %f7, -, H7⟩, ⟨%d8, %f8, -, H8⟩, Hk⟩
  subst hf1; subst hf2
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H6]
  · iexists _; isplitr; swap; · iexact H6
    ipureintro
    sl_unfold_words
    rw [read_whole_store]
    repeat (first | rw [readAt_whole2] | rw [readAt_whole3] | rw [readCov_whole2])
  isplitl [H7]
  · iexists _; isplitr; swap; · iexact H7
    ipureintro
    sl_unfold_words
    rw [read_whole_store]
    repeat (first | rw [readAt_whole2] | rw [readAt_whole3] | rw [readCov_whole2])
  iexists _; isplitr; swap; · iexact H8
  ipureintro
  sl_unfold_words
  rw [read_whole_store]
  repeat (first | rw [readAt_whole2] | rw [readAt_whole3] | rw [readCov_whole2])

/-- A middle point: one step of the carried triple. -/
theorem run0_mid (c : Dev nD) (E : Set ℕ) (i : grid0.Coords) (h1 : ¬ c1 i = 1#1) (h2 : ¬ k0_cond2 i = 1#1)
    (arg1 : Memref sig .tc .vmem S4x256x1024 .f32) (harg1 : arg1.IsWhole) (arg2 : Memref sig .tc .vmem S4x256 .i32) (harg2 : arg2.IsWhole) (arg3 : Memref sig .tc .vmem S4x256 .f32) (harg3 : arg3.IsWhole) (arg4 : Memref sig .tc .vmem S4x256 .f32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256 .f32) (harg7 : arg7.IsWhole) (arg8 : Memref sig .tc .vmem S4x256 .f32) (harg8 : arg8.IsWhole)
    (x : Vec F S4x256x1024 .f32) (ids : Vec F S4x256 .i32) (m s k : Vec F S4x256 .f32) (K : PUnit → sProp 𝕄) :
    iprop(owns (c : Thread nD τ) arg1 fullShare x ∗ owns (c : Thread nD τ) arg2 fullShare ids
        ∗ owns (c : Thread nD τ) arg6 fullShare m ∗ owns (c : Thread nD τ) arg7 fullShare s ∗ owns (c : Thread nD τ) arg8 fullShare k
        ∗ (iprop(owns (c : Thread nD τ) arg1 fullShare x ∗ owns (c : Thread nD τ) arg2 fullShare ids
            ∗ owns (c : Thread nD τ) arg6 fullShare (k0_pay9 x m)
            ∗ owns (c : Thread nD τ) arg7 fullShare (k0_pay8 x m s)
            ∗ owns (c : Thread nD τ) arg8 fullShare (k0_pay1 (k0_pay10 i x ids) k)) -∗ K ⟨⟩))
      ⊢ wp frame (wpE (defs₀ (F := F)) Variants.none c none) E (cc0__stat_kernel i arg1 harg1 arg2 harg2 arg3 harg3 arg4 harg4 arg5 harg5 arg6 harg6 arg7 harg7 arg8 harg8) K := by
  simp only [cc0__stat_kernel_eq_skeleton]; unfold cc0__stat_kernel_skel
  simp only [k0_part1_eq_skeleton]; unfold k0_part1_skel
  unfold owns
  iintro ⟨⟨%f1, %hf1, H1⟩, ⟨%f2, %hf2, H2⟩, ⟨%f6, %hf6, H6⟩, ⟨%f7, %hf7, H7⟩, ⟨%f8, %hf8, H8⟩, Hk⟩
  subst hf1; subst hf2; subst hf6; subst hf7; subst hf8
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H6]
  · iexists _; isplitr; swap; · iexact H6
    ipureintro
    rw [read_whole_store]; repeat (first | rw [readAt_whole2] | rw [readAt_whole3])
  isplitl [H7]
  · iexists _; isplitr; swap; · iexact H7
    ipureintro
    rw [read_whole_store]; repeat (first | rw [readAt_whole2] | rw [readAt_whole3])
  iexists _; isplitr; swap; · iexact H8
  ipureintro
  refine (read_whole_store _ _ _ _).trans ?_
  repeat (first | rw [readAt_whole2] | rw [readAt_whole3])

/-- The last point: one step, then the three results stored from the new triple. -/
theorem run0_last (c : Dev nD) (E : Set ℕ) (i : grid0.Coords) (h1 : ¬ c1 i = 1#1) (h2 : k0_cond2 i = 1#1)
    (arg1 : Memref sig .tc .vmem S4x256x1024 .f32) (harg1 : arg1.IsWhole) (arg2 : Memref sig .tc .vmem S4x256 .i32) (harg2 : arg2.IsWhole) (arg3 : Memref sig .tc .vmem S4x256 .f32) (harg3 : arg3.IsWhole) (arg4 : Memref sig .tc .vmem S4x256 .f32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256 .f32) (harg7 : arg7.IsWhole) (arg8 : Memref sig .tc .vmem S4x256 .f32) (harg8 : arg8.IsWhole)
    (x : Vec F S4x256x1024 .f32) (ids : Vec F S4x256 .i32) (m s k : Vec F S4x256 .f32) (K : PUnit → sProp 𝕄) :
    iprop(owns (c : Thread nD τ) arg1 fullShare x ∗ owns (c : Thread nD τ) arg2 fullShare ids
        ∗ (∃ d, owns (c : Thread nD τ) arg3 fullShare d) ∗ (∃ d, owns (c : Thread nD τ) arg4 fullShare d) ∗ (∃ d, owns (c : Thread nD τ) arg5 fullShare d)
        ∗ owns (c : Thread nD τ) arg6 fullShare m ∗ owns (c : Thread nD τ) arg7 fullShare s ∗ owns (c : Thread nD τ) arg8 fullShare k
        ∗ (iprop(owns (c : Thread nD τ) arg1 fullShare x ∗ owns (c : Thread nD τ) arg2 fullShare ids
            ∗ owns (c : Thread nD τ) arg3 fullShare (k0_pay3 (k0_pay8 x m s) (k0_pay1 (k0_pay10 i x ids) k) (k0_pay9 x m))
            ∗ owns (c : Thread nD τ) arg4 fullShare (k0_pay9 x m)
            ∗ owns (c : Thread nD τ) arg5 fullShare (k0_pay2 (k0_pay8 x m s))
            ∗ owns (c : Thread nD τ) arg6 fullShare (k0_pay9 x m)
            ∗ owns (c : Thread nD τ) arg7 fullShare (k0_pay8 x m s)
            ∗ owns (c : Thread nD τ) arg8 fullShare (k0_pay1 (k0_pay10 i x ids) k)) -∗ K ⟨⟩))
      ⊢ wp frame (wpE (defs₀ (F := F)) Variants.none c none) E (cc0__stat_kernel i arg1 harg1 arg2 harg2 arg3 harg3 arg4 harg4 arg5 harg5 arg6 harg6 arg7 harg7 arg8 harg8) K := by
  simp only [cc0__stat_kernel_eq_skeleton]; unfold cc0__stat_kernel_skel
  simp only [k0_part1_eq_skeleton]; unfold k0_part1_skel
  unfold owns
  iintro ⟨⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, ⟨%f8, %hf8, H8⟩, Hk⟩
  subst hf1; subst hf2; subst hf6; subst hf7; subst hf8
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H3]
  · iexists _; isplitr; swap; · iexact H3
    ipureintro
    sl_unfold_words
    rw [read_whole_store]
    repeat (first | rw [readAt_whole2] | rw [readAt_whole3] | rw [readCov_whole2])
  isplitl [H4]
  · iexists _; isplitr; swap; · iexact H4
    ipureintro
    sl_unfold_words
    rw [read_whole_store]
    repeat (first | rw [readAt_whole2] | rw [readAt_whole3] | rw [readCov_whole2])
  isplitl [H5]
  · iexists _; isplitr; swap; · iexact H5
    ipureintro
    sl_unfold_words
    rw [read_whole_store]
    repeat (first | rw [readAt_whole2] | rw [readAt_whole3] | rw [readCov_whole2])
  isplitl [H6]
  · iexists _; isplitr; swap; · iexact H6
    ipureintro
    sl_unfold_words
    rw [read_whole_store]
    repeat (first | rw [readAt_whole2] | rw [readAt_whole3] | rw [readCov_whole2])
  isplitl [H7]
  · iexists _; isplitr; swap; · iexact H7
    ipureintro
    sl_unfold_words
    rw [read_whole_store]
    repeat (first | rw [readAt_whole2] | rw [readAt_whole3] | rw [readCov_whole2])
  iexists _; isplitr; swap; · iexact H8
  ipureintro
  sl_unfold_words
  rw [read_whole_store]
  repeat (first | rw [readAt_whole2] | rw [readAt_whole3] | rw [readCov_whole2])

end Cert.Kernel.Hand

end
-- ==== Proof.K.Oblig0.lean ====
/-
  Region 0's body obligation: at every grid point the statistics kernel, called on the windows' current staging
  buffers, takes the invariant before the point to the invariant after it. The two input buffers hold what the
  last fetch brought (the logits' block of the point; the chosen ids); the three result buffers are handed back as
  found at every point but the last, where they receive the results; the scratch triple advances one step.
-/
import proofs.«419102_j73229192397434_1_alg».proof.Proof.K.Steps
import proofs.«419102_j73229192397434_1_alg».proof.Proof.K.Body0
import Idealize.ShloMosaic.Lib.Pipeline.Frame
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The schedule: which windows are live, idle, written back -/

/-- The two input windows are live at every point. -/
theorem liveAt0_0 (i : grid0.Coords) : cfg0.idle 0 i = false := rfl
theorem liveAt0_1 (i : grid0.Coords) : cfg0.idle 1 i = false := rfl

/-- A result window is idle exactly where the last conditional fails. -/
theorem idle0_of_not (i : grid0.Coords) (h : ¬ k0_cond2 i = 1#1) :
    cfg0.idle 2 i = true ∧ cfg0.idle 3 i = true ∧ cfg0.idle 4 i = true := by
  have hb : (k0_cond2 i == 1#1) = false := beq_eq_false_iff_ne.mpr h
  refine ⟨?_, ?_, ?_⟩ <;> · show (!(k0_cond2 i == 1#1)) = true; rw [hb]; rfl

theorem live0_of (i : grid0.Coords) (h : k0_cond2 i = 1#1) :
    cfg0.idle 2 i = false ∧ cfg0.idle 3 i = false ∧ cfg0.idle 4 i = false := by
  refine ⟨?_, ?_, ?_⟩ <;> · show (!(k0_cond2 i == 1#1)) = false; rw [h]; rfl

/-- The grid has 128 points. -/
theorem lt128 (t : Fin cfg0.N) : t.val < 128 := lt_of_lt_of_eq t.isLt (show cfg0.N = 128 from N_0)

/-- No result window is written back before the last point. -/
theorem noFlush0_2 (t : Fin cfg0.N) (h : t.val ≠ 127) : (cfg0.win 2).flush t = false :=
  Bool.eq_false_iff.mpr fun hf => h (by have := (flush0_2 t).mp hf; have := lt128 t; omega)
theorem noFlush0_3 (t : Fin cfg0.N) (h : t.val ≠ 127) : (cfg0.win 3).flush t = false :=
  Bool.eq_false_iff.mpr fun hf => h (by have := (flush0_3 t).mp hf; have := lt128 t; omega)
theorem noFlush0_4 (t : Fin cfg0.N) (h : t.val ≠ 127) : (cfg0.win 4).flush t = false :=
  Bool.eq_false_iff.mpr fun hf => h (by have := (flush0_4 t).mp hf; have := lt128 t; omega)

/-! ## What the two input buffers hold -/

/-- No block of the logits' window overhangs its array: the block's 256 rows at block index 0 lie inside the
    257 rows, and its 1024 columns at block index below 128 inside the 131072 columns. -/
theorem hclip0_0 : ∀ (i : cfg0.grid.Coords) a, (cfg0.win 0).clip i a = none := by decide +kernel
/-- The ids' window is one whole block. -/
theorem hclip0_1 : ∀ (i : cfg0.grid.Coords) a, (cfg0.win 1).clip i a = none := fun _ _ => rfl

/-- The logits' buffer holds the point's block, the ids' buffer the one block of ids, whatever they held before. -/
theorem before0_0 (c : Dev nD) (t : Fin cfg0.N) (d) : (dat0 V c).before 0 t d = xin0 V c t.val t.isLt :=
  (dat0 V c).before_eq_heldIn 0 rfl liveAt0_0 hclip0_0 (after0_0 V c) t d
theorem before0_1 (c : Dev nD) (t : Fin cfg0.N) (d) : (dat0 V c).before 1 t d = ids0 V c t.val t.isLt :=
  (dat0 V c).before_eq_heldIn 1 rfl liveAt0_1 hclip0_1 (after0_1 V c) t d

/-! ## The invariant and the carried triple, opened -/

theorem Phi0_zero (c : Dev nD) (n : ℕ) (h : n ≤ cfg0.N) (hz : n = 0) : Phi0 V c n h = Pipeline.ΦA spec0 c := by
  subst hz; rfl

/-- Before a point that is not the first: the three scratch buffers at the carried triple. -/
theorem Phi0_pos (c : Dev nD) (n : ℕ) (h : n ≤ cfg0.N) (hz : n ≠ 0) :
    Phi0 V c n h = iprop(owns (c : Thread nD τ) scM0 fullShare (sc0 V c n h).1
      ∗ owns (c : Thread nD τ) scM1 fullShare (sc0 V c n h).2.1
      ∗ owns (c : Thread nD τ) scM2 fullShare (sc0 V c n h).2.2
      ∗ other0 c ∗ (∃ r, prngReg c r)) := by
  cases n with
  | zero => exact absurd rfl hz
  | succ n => rfl

theorem Phi0_castSucc (c : Dev nD) (t : Fin cfg0.N) :
    (dat0 V c).Φ t.castSucc = Phi0 V c t.val (Nat.le_of_lt t.isLt) := rfl

theorem Phi0_fsucc (c : Dev nD) (t : Fin cfg0.N) :
    (dat0 V c).Φ t.succ = Phi0 V c (t.val + 1) t.isLt := rfl

/-- The carried triple depends on the number of points only. -/
theorem sc0_congr (c : Dev nD) (n n' : ℕ) (h : n ≤ cfg0.N) (h' : n' ≤ cfg0.N) (e : n = n') : sc0 V c n h = sc0 V c n' h' := by
  subst e; rfl

theorem sc0_of_zero (c : Dev nD) (n : ℕ) (h : n ≤ cfg0.N) (hz : n = 0) : sc0 V c n h = (k0_pay4, k0_pay5, k0_pay6) := by
  subst hz; rfl

/-- What the launch hands a region, with the three scratch buffers as owned memrefs at some contents. -/
theorem PhiA0_eq (c : Dev nD) :
    (Pipeline.ΦA spec0 c : sProp 𝕄)
      = iprop(((∃ d, owns (c : Thread nD τ) scM0 fullShare d) ∗ (∃ d, owns (c : Thread nD τ) scM1 fullShare d)
          ∗ (∃ d, owns (c : Thread nD τ) scM2 fullShare d) ∗ other0 c) ∗ (∃ r, prngReg c r)) := by
  unfold Pipeline.ΦA other0; rw [scopedRest0_eq]; simp only [scM0, scM1, scM2, owns_whole]; try rfl

/-- At the last point the stored results are the last step's: the triple after all 128 points. -/
theorem fin0_eq (c : Dev nD) (t : Fin cfg0.N) (ht : t.val = 127) :
    fin0 V c =
      (k0_pay3 (k0_pay8 (xin0 V c t.val t.isLt) (sc0 V c t.val (Nat.le_of_lt t.isLt)).1 (sc0 V c t.val (Nat.le_of_lt t.isLt)).2.1)
          (k0_pay1 (k0_pay10 (grid0.coords t) (xin0 V c t.val t.isLt) (ids0 V c t.val t.isLt)) (sc0 V c t.val (Nat.le_of_lt t.isLt)).2.2)
          (k0_pay9 (xin0 V c t.val t.isLt) (sc0 V c t.val (Nat.le_of_lt t.isLt)).1),
       k0_pay9 (xin0 V c t.val t.isLt) (sc0 V c t.val (Nat.le_of_lt t.isLt)).1,
       k0_pay2 (k0_pay8 (xin0 V c t.val t.isLt) (sc0 V c t.val (Nat.le_of_lt t.isLt)).1 (sc0 V c t.val (Nat.le_of_lt t.isLt)).2.1)) := by
  have hN : cfg0.N = t.val + 1 := by rw [ht]; exact N_0
  unfold fin0
  rw [sc0_congr V c cfg0.N (t.val + 1) (Nat.le_refl _) t.isLt hN, sc0_succ]

/-! ## The body obligation, at a generic point -/

/-- Each window's current staging memref at point t, at its literal type, and its wholeness. -/
abbrev ms0 (t : Fin cfg0.N) : Memref sig .tc .vmem S4x256x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4x256 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4x256 .f32 := win0_4.stage (cfg0.slots t 4)
abbrev hs4 (t : Fin cfg0.N) : (ms4 t).IsWhole := hstage0_4 ((cfg0.slots t 4).cast nbuf0_4)

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

/-- The input windows' buffers are handed back at what they held. -/
theorem leaves0_0 (c : Dev nD) (t : Fin cfg0.N) :
    (dat0 V c).leavesExact 0 t = owns (c : Thread nD τ) (ms0 t) fullShare (xin0 V c t.val t.isLt) := by
  unfold Dat.leavesExact; rw [liveAt0_0 (grid0.coords t), after0_0]
theorem leaves0_1 (c : Dev nD) (t : Fin cfg0.N) :
    (dat0 V c).leavesExact 1 t = owns (c : Thread nD τ) (ms1 t) fullShare (ids0 V c t.val t.isLt) := by
  unfold Dat.leavesExact; rw [liveAt0_1 (grid0.coords t), after0_1]

/-- A result window's buffer before the last point: handed back as found. -/
theorem leaves0_2_idle (c : Dev nD) (t : Fin cfg0.N) (h2 : ¬ k0_cond2 (grid0.coords t) = 1#1) (ht : t.val ≠ 127) :
    (dat0 V c).leavesExact 2 t = iprop(∃ d, owns (c : Thread nD τ) (ms2 t) fullShare ((dat0 V c).before 2 t d)) :=
  Dat.leavesExact_idle (dat0 V c) 2 t (idle0_of_not _ h2).1 (noFlush0_2 t ht)
theorem leaves0_3_idle (c : Dev nD) (t : Fin cfg0.N) (h2 : ¬ k0_cond2 (grid0.coords t) = 1#1) (ht : t.val ≠ 127) :
    (dat0 V c).leavesExact 3 t = iprop(∃ d, owns (c : Thread nD τ) (ms3 t) fullShare ((dat0 V c).before 3 t d)) :=
  Dat.leavesExact_idle (dat0 V c) 3 t (idle0_of_not _ h2).2.1 (noFlush0_3 t ht)
theorem leaves0_4_idle (c : Dev nD) (t : Fin cfg0.N) (h2 : ¬ k0_cond2 (grid0.coords t) = 1#1) (ht : t.val ≠ 127) :
    (dat0 V c).leavesExact 4 t = iprop(∃ d, owns (c : Thread nD τ) (ms4 t) fullShare ((dat0 V c).before 4 t d)) :=
  Dat.leavesExact_idle (dat0 V c) 4 t (idle0_of_not _ h2).2.2 (noFlush0_4 t ht)

/-- A result window's buffer at the last point: at the stored result. -/
theorem leaves0_2_live (c : Dev nD) (t : Fin cfg0.N) (h2 : k0_cond2 (grid0.coords t) = 1#1) :
    (dat0 V c).leavesExact 2 t = owns (c : Thread nD τ) (ms2 t) fullShare (fin0 V c).1 := by
  unfold Dat.leavesExact; rw [(live0_of _ h2).1, after0_2]
theorem leaves0_3_live (c : Dev nD) (t : Fin cfg0.N) (h2 : k0_cond2 (grid0.coords t) = 1#1) :
    (dat0 V c).leavesExact 3 t = owns (c : Thread nD τ) (ms3 t) fullShare (fin0 V c).2.1 := by
  unfold Dat.leavesExact; rw [(live0_of _ h2).2.1, after0_3]
theorem leaves0_4_live (c : Dev nD) (t : Fin cfg0.N) (h2 : k0_cond2 (grid0.coords t) = 1#1) :
    (dat0 V c).leavesExact 4 t = owns (c : Thread nD τ) (ms4 t) fullShare (fin0 V c).2.2 := by
  unfold Dat.leavesExact; rw [(live0_of _ h2).2.2, after0_4]

/-- The body at any point. The two input buffers hold the point's block and the ids; the closed forms of the two
    conditions say which case the point is in. At the first point the scratch comes at anything and is reset; at
    a later point it comes at the carried triple; either way it leaves one step further. Before the last point the
    three result buffers are framed around the run and handed back as found; at the last point they receive the
    results of the triple after all points. The other scoped buffers, the register and what the core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [Phi0_fsucc, Phi0_pos V c (t.val + 1) t.isLt (Nat.succ_ne_zero _), sc0_succ, leaves0_0, leaves0_1, Phi0_castSucc]
  have hN := lt128 t
  by_cases h127 : t.val = 127
  · -- the last point
    have hc2 : k0_cond2 (grid0.coords t) = 1#1 := (c2_iff t).mpr h127
    have hc1 : ¬ c1 (grid0.coords t) = 1#1 := fun h => by have := (c1_iff t).mp h; omega
    rw [leaves0_2_live V c t hc2, leaves0_3_live V c t hc2, leaves0_4_live V c t hc2, fin0_eq V c t h127]
    rw [Phi0_pos V c _ _ (by omega)]
    iintro ⟨⟨HS0, HS1, HS2, Hoth, Hg⟩, Ho, ⟨%d0, H0⟩, ⟨%d1, H1⟩, ⟨%d2, H2⟩, ⟨%d3, H3⟩, ⟨%d4, H4⟩⟩
    iapply (run0_last c Set.univ (grid0.coords t) hc1 hc2 (ms0 t) (hs0 t) (ms1 t) (hs1 t) (ms2 t) (hs2 t) (ms3 t) (hs3 t) (ms4 t) (hs4 t)
      scM0 (Memref.isWhole_whole _) scM1 (Memref.isWhole_whole _) scM2 (Memref.isWhole_whole _)
      (xin0 V c t.val t.isLt) (ids0 V c t.val t.isLt)
      (sc0 V c t.val (Nat.le_of_lt t.isLt)).1 (sc0 V c t.val (Nat.le_of_lt t.isLt)).2.1 (sc0 V c t.val (Nat.le_of_lt t.isLt)).2.2 _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    isplitl [HS2]; · iexact HS2
    iintro ⟨H0, H1, H2, H3, H4, HS0, HS1, HS2⟩
    isplitl [HS0 HS1 HS2 Hoth Hg]
    · isplitl [HS0]; · iexact HS0
      isplitl [HS1]; · iexact HS1
      isplitl [HS2]; · iexact HS2
      isplitl [Hoth]; · iexact Hoth
      iexact Hg
    isplitl [Ho]; · iexact Ho
    isplitl [H0]; · iexact H0
    isplitl [H1]; · iexact H1
    isplitl [H2]; · iexact H2
    isplitl [H3]; · iexact H3
    iexact H4
  · have hc2 : ¬ k0_cond2 (grid0.coords t) = 1#1 := fun h => h127 ((c2_iff t).mp h)
    rw [leaves0_2_idle V c t hc2 h127, leaves0_3_idle V c t hc2 h127, leaves0_4_idle V c t hc2 h127]
    by_cases hz : t.val = 0
    · -- the first point
      have hc1 : c1 (grid0.coords t) = 1#1 := (c1_iff t).mpr hz
      rw [Phi0_zero V c _ _ hz, PhiA0_eq, sc0_of_zero V c _ _ hz]
      iintro ⟨⟨⟨HS0, HS1, HS2, Hoth⟩, Hg⟩, Ho, ⟨%d0, H0⟩, ⟨%d1, H1⟩, H2, H3, H4⟩
      iapply (run0_first c Set.univ (grid0.coords t) hc1 hc2 (ms0 t) (hs0 t) (ms1 t) (hs1 t) (ms2 t) (hs2 t) (ms3 t) (hs3 t) (ms4 t) (hs4 t)
        scM0 (Memref.isWhole_whole _) scM1 (Memref.isWhole_whole _) scM2 (Memref.isWhole_whole _)
        (xin0 V c t.val t.isLt) (ids0 V c t.val t.isLt) _)
      isplitl [H0]; · iexact H0
      isplitl [H1]; · iexact H1
      isplitl [HS0]; · iexact HS0
      isplitl [HS1]; · iexact HS1
      isplitl [HS2]; · iexact HS2
      iintro ⟨H0, H1, HS0, HS1, HS2⟩
      isplitl [HS0 HS1 HS2 Hoth Hg]
      · isplitl [HS0]; · iexact HS0
        isplitl [HS1]; · iexact HS1
        isplitl [HS2]; · iexact HS2
        isplitl [Hoth]; · iexact Hoth
        iexact Hg
      isplitl [Ho]; · iexact Ho
      isplitl [H0]; · iexact H0
      isplitl [H1]; · iexact H1
      isplitl [H2]; · iexact H2
      isplitl [H3]; · iexact H3
      iexact H4
    · -- a middle point
      have hc1 : ¬ c1 (grid0.coords t) = 1#1 := fun h => hz ((c1_iff t).mp h)
      rw [Phi0_pos V c _ _ hz]
      iintro ⟨⟨HS0, HS1, HS2, Hoth, Hg⟩, Ho, ⟨%d0, H0⟩, ⟨%d1, H1⟩, H2, H3, H4⟩
      iapply (run0_mid c Set.univ (grid0.coords t) hc1 hc2 (ms0 t) (hs0 t) (ms1 t) (hs1 t) (ms2 t) (hs2 t) (ms3 t) (hs3 t) (ms4 t) (hs4 t)
        scM0 (Memref.isWhole_whole _) scM1 (Memref.isWhole_whole _) scM2 (Memref.isWhole_whole _)
        (xin0 V c t.val t.isLt) (ids0 V c t.val t.isLt)
        (sc0 V c t.val (Nat.le_of_lt t.isLt)).1 (sc0 V c t.val (Nat.le_of_lt t.isLt)).2.1 (sc0 V c t.val (Nat.le_of_lt t.isLt)).2.2 _)
      isplitl [H0]; · iexact H0
      isplitl [H1]; · iexact H1
      isplitl [HS0]; · iexact HS0
      isplitl [HS1]; · iexact HS1
      isplitl [HS2]; · iexact HS2
      iintro ⟨H0, H1, HS0, HS1, HS2⟩
      isplitl [HS0 HS1 HS2 Hoth Hg]
      · isplitl [HS0]; · iexact HS0
        isplitl [HS1]; · iexact HS1
        isplitl [HS2]; · iexact HS2
        isplitl [Hoth]; · iexact Hoth
        iexact Hg
      isplitl [Ho]; · iexact Ho
      isplitl [H0]; · iexact H0
      isplitl [H1]; · iexact H1
      isplitl [H2]; · iexact H2
      isplitl [H3]; · iexact H3
      iexact H4

/-- The library's body obligation for region 0, at every point. -/
theorem body_obligation0 (c : Dev nD) :
    BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After the last point the invariant gives back what the launch handed over: the scratch contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 128 := N_0; omega), PhiA0_eq]
  iintro ⟨HS0, HS1, HS2, Hoth, Hg⟩
  isplitr [Hg]
  · isplitl [HS0]; · iexists _; iexact HS0
    isplitl [HS1]; · iexists _; iexact HS1
    isplitl [HS2]; · iexists _; iexact HS2
    iexact Hoth
  iexact Hg

end Cert.Kernel.Hand

end
-- ==== Proof.K.Body1.lean ====
/-
  The entropy kernel's body at one grid point, on whole staging memrefs, one statement per control case.
  The body reads the logits' block x, the row maxima mm and the row log-sums lz, and adds to the accumulator e
  the negated row sums of p * log (p + eps), p = exp (x - mm - lz); at the first point the accumulator is reset to 0 first.
-/
import proofs.«419102_j73229192397434_1_alg».proof.Proof.Gen.Kernel.Skeleton
import proofs.«419102_j73229192397434_1_alg».proof.Proof.Gen.Kernel.Launch
import Idealize.ShloMosaic.Lib.Pipeline.FrameBody
import Idealize.ShloMosaic.Lib.Tactic
import Idealize.ShloMosaic.Lib.Pipeline.Value

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word the entropy kernel's one conditional (the reset at the grid's first point) tests. -/
def e1 (i : grid1.Coords) : BitVec 1 :=
  Scalar.cmpi .ne (Scalar.extui (Scalar.cmpi .eq (BitVec.ofNat 32 (i 0).val) 0#32)) 0#32

/-- The reset runs at the first point only: decided over the 128 grid points. -/
theorem e1_iff (t : Fin cfg1.N) : e1 (grid1.coords t) = 1#1 ↔ t.val = 0 :=
  (by decide +kernel : ∀ t : Fin grid1.N, e1 (grid1.coords t) = 1#1 ↔ t.val = 0) t

/-- The offsets of a whole-block access are the zero function (rank 2, rank 3). -/
private theorem hz2 : (![0, 0] : Fin S4x256.rank → ℕ) = fun _ => 0 := by
  funext a; fin_cases a <;> rfl

private theorem hz3 : (![0, 0, 0] : Fin S4x256x1024.rank → ℕ) = fun _ => 0 := by
  funext a; fin_cases a <;> rfl

set_option maxHeartbeats 1000000 in
/-- The first point: the accumulator at anything, reset, then one step from 0. The accumulator's block is stored
    whole twice, so it ends at the second payload, whose accumulator argument is the reset value read back. -/
theorem run1_first (c : Dev nD) (E : Set ℕ) (i : grid1.Coords) (h1 : e1 i = 1#1)
    (arg1 : Memref sig .tc .vmem S4x256x1024 .f32) (harg1 : arg1.IsWhole) (arg2 : Memref sig .tc .vmem S4x256 .f32) (harg2 : arg2.IsWhole) (arg3 : Memref sig .tc .vmem S4x256 .f32) (harg3 : arg3.IsWhole) (arg4 : Memref sig .tc .vmem S4x256 .f32) (harg4 : arg4.IsWhole)
    (x : Vec F S4x256x1024 .f32) (mm lz : Vec F S4x256 .f32) (K : PUnit → sProp 𝕄) :
    iprop(owns (c : Thread nD τ) arg1 fullShare x ∗ owns (c : Thread nD τ) arg2 fullShare mm ∗ owns (c : Thread nD τ) arg3 fullShare lz ∗ (∃ d, owns (c : Thread nD τ) arg4 fullShare d)
        ∗ (iprop(owns (c : Thread nD τ) arg1 fullShare x ∗ owns (c : Thread nD τ) arg2 fullShare mm ∗ owns (c : Thread nD τ) arg3 fullShare lz
            ∗ owns (c : Thread nD τ) arg4 fullShare (k1_pay2 x mm lz k1_pay1)) -∗ K ⟨⟩))
      ⊢ wp frame (wpE (defs₀ (F := F)) Variants.none c none) E (cc1__entropy_kernel i arg1 harg1 arg2 harg2 arg3 harg3 arg4 harg4) K := by
  simp only [cc1__entropy_kernel_eq_skeleton]; unfold cc1__entropy_kernel_skel
  unfold owns
  iintro ⟨⟨%f1, %hf1, H1⟩, ⟨%f2, %hf2, H2⟩, ⟨%f3, %hf3, H3⟩, ⟨%d4, %f4, -, H4⟩, Hk⟩
  obtain rfl := harg1.eq_unread hf1; obtain rfl := harg2.eq_unread hf2
  obtain rfl := harg3.eq_unread hf3
  sl_exec (disch := first | exact h1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  iexists _; isplitr
  swap; · iexact H4
  ipureintro
  sl_unfold_words
  rw [View.read_writes_eq_canon _ _ _ (fun y => ⟨_, List.mem_cons.mpr (Or.inl rfl), View.mem_set_unit_zero hz2 inb_S4x256_S4x256_0_0 y⟩),
    View.canon_cons_unit_zero hz2]
  simp only [View.readAt_eq_ld, harg1.read_unread, harg2.read_unread, harg3.read_unread,
    View.ld_unit_zero (S := S4x256x1024) hz3, View.ld_unit_zero (S := S4x256) hz2,
    View.readCov_unit_zero (S := S4x256) _ hz2]

set_option maxHeartbeats 1000000 in
/-- A later point: one step of the accumulator. Every load is of a whole block, so it reads the block's contents;
    the one whole-block store leaves its payload. -/
theorem run1_rest (c : Dev nD) (E : Set ℕ) (i : grid1.Coords) (h1 : ¬ e1 i = 1#1)
    (arg1 : Memref sig .tc .vmem S4x256x1024 .f32) (harg1 : arg1.IsWhole) (arg2 : Memref sig .tc .vmem S4x256 .f32) (harg2 : arg2.IsWhole) (arg3 : Memref sig .tc .vmem S4x256 .f32) (harg3 : arg3.IsWhole) (arg4 : Memref sig .tc .vmem S4x256 .f32) (harg4 : arg4.IsWhole)
    (x : Vec F S4x256x1024 .f32) (mm lz e : Vec F S4x256 .f32) (K : PUnit → sProp 𝕄) :
    iprop(owns (c : Thread nD τ) arg1 fullShare x ∗ owns (c : Thread nD τ) arg2 fullShare mm ∗ owns (c : Thread nD τ) arg3 fullShare lz ∗ owns (c : Thread nD τ) arg4 fullShare e
        ∗ (iprop(owns (c : Thread nD τ) arg1 fullShare x ∗ owns (c : Thread nD τ) arg2 fullShare mm ∗ owns (c : Thread nD τ) arg3 fullShare lz
            ∗ owns (c : Thread nD τ) arg4 fullShare (k1_pay2 x mm lz e)) -∗ K ⟨⟩))
      ⊢ wp frame (wpE (defs₀ (F := F)) Variants.none c none) E (cc1__entropy_kernel i arg1 harg1 arg2 harg2 arg3 harg3 arg4 harg4) K := by
  simp only [cc1__entropy_kernel_eq_skeleton]; unfold cc1__entropy_kernel_skel
  unfold owns
  iintro ⟨⟨%f1, %hf1, H1⟩, ⟨%f2, %hf2, H2⟩, ⟨%f3, %hf3, H3⟩, ⟨%f4, %hf4, H4⟩, Hk⟩
  obtain rfl := harg1.eq_unread hf1; obtain rfl := harg2.eq_unread hf2
  obtain rfl := harg3.eq_unread hf3; obtain rfl := harg4.eq_unread hf4
  sl_exec (disch := first | exact h1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  iexists _; isplitr
  swap; · iexact H4
  ipureintro
  rw [View.read_writes_eq_canon _ _ _ (fun y => ⟨_, List.mem_singleton_self _, View.mem_set_unit_zero hz2 inb_S4x256_S4x256_0_0 y⟩),
    View.canon_unit_zero hz2]
  simp only [View.readAt_eq_ld, harg1.read_unread, harg2.read_unread, harg3.read_unread, harg4.read_unread,
    View.ld_unit_zero (S := S4x256x1024) hz3, View.ld_unit_zero (S := S4x256) hz2]

end Cert.Kernel.Hand

end
-- ==== Proof.K.Oblig1.lean ====
/-
  Region 1's body obligation: at every grid point the entropy kernel, called on the windows' current staging
  buffers, leaves the three inputs as it found them (the logits' block of the point; the row maxima; the row
  log-sums, both fetched once) and the result block at the accumulator after the point: at the first point from
  the reset, afterwards from what the point before left (the block is written back only after the last point).
-/
import proofs.«419102_j73229192397434_1_alg».proof.Proof.K.Steps
import proofs.«419102_j73229192397434_1_alg».proof.Proof.K.Body1
import Idealize.ShloMosaic.Lib.Pipeline.Frame
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each window's current buffer -/

/-- No block of the logits' window overhangs its array: on every axis the block of every point ends inside. -/
theorem clip1_0 : ∀ (i : cfg1.grid.Coords) (a : Fin (cfg1.win 0).shape.rank), (cfg1.win 0).clip i a = none := by
  decide +kernel

/-- The logits' buffer holds the block the last fetch brought. -/
theorem before1_0 (c : Dev nD) (t : Fin cfg1.N) (d) : (dat1 V c).before 0 t d = xin1 V c t.val t.isLt :=
  Dat.before_eq_heldIn (dat1 V c) 0 rfl (fun _ => rfl) clip1_0 (after1_0 V c) t d

/-- The maxima's buffer holds the one block, fetched at the first point. -/
theorem before1_1 (c : Dev nD) (t : Fin cfg1.N) (d) : (dat1 V c).before 1 t d = mm1 V c t.val t.isLt :=
  Dat.before_eq_heldIn (dat1 V c) 1 rfl (fun _ => rfl) (fun _ _ => rfl) (after1_1 V c) t d

/-- The log-sums' buffer holds the one block, fetched at the first point. -/
theorem before1_2 (c : Dev nD) (t : Fin cfg1.N) (d) : (dat1 V c).before 2 t d = lz1 V c t.val t.isLt :=
  Dat.before_eq_heldIn (dat1 V c) 2 rfl (fun _ => rfl) (fun _ _ => rfl) (after1_2 V c) t d

/-- At the first point the result's buffer holds whatever it was handed. -/
theorem before1_3_first (c : Dev nD) (t : Fin cfg1.N) (h0 : t.val = 0) (d) : (dat1 V c).before 3 t d = d :=
  Dat.before_out_reset (dat1 V c) 3 rfl t (.inl h0) d

/-- The accumulator does not depend on how its index is spelt. -/
theorem ent1_congr (c : Dev nD) (m k : ℕ) (hm : m ≤ cfg1.N) (hk : k ≤ cfg1.N) (h : m = k) :
    ent1 V c m hm = ent1 V c k hk := by
  subst h; rfl

/-- At a later point the result's buffer holds the accumulator after the point before: the block is not written
    back between two points of the grid, the last excepted. -/
theorem before1_3_rest (c : Dev nD) (t : Fin cfg1.N) (h0 : t.val ≠ 0) (d) :
    (dat1 V c).before 3 t d = ent1 V c t.val (Nat.le_of_lt t.isLt) := by
  have hN : t.val < 128 := lt_of_lt_of_eq t.isLt (show cfg1.N = 128 from N_1)
  rw [Dat.before_out_kept (dat1 V c) 3 rfl t h0
    (Bool.eq_false_iff.mpr fun h => by have := (flush1_3 _).mp h; dsimp only at this; omega)
    (fun _ => rfl) (fun _ _ => rfl) d, after1_3]
  exact ent1_congr V c _ _ _ _ (by dsimp only; omega)

/-- The accumulator before the first point is the reset value. -/
theorem ent1_first (c : Dev nD) (t : Fin cfg1.N) (h0 : t.val = 0) : ent1 V c t.val (Nat.le_of_lt t.isLt) = k1_pay1 :=
  (ent1_congr V c _ 0 _ (Nat.zero_le _) h0).trans (ent1_zero V c _)

/-! ## The body at one point, over any four whole memrefs -/

/-- The first point, with the invariant and the core's debts carried along. -/
theorem point1_first (c : Dev nD) (i : grid1.Coords) (h1 : e1 i = 1#1)
    (arg1 : Memref sig .tc .vmem S4x256x1024 .f32) (harg1 : arg1.IsWhole) (arg2 : Memref sig .tc .vmem S4x256 .f32) (harg2 : arg2.IsWhole)
    (arg3 : Memref sig .tc .vmem S4x256 .f32) (harg3 : arg3.IsWhole) (arg4 : Memref sig .tc .vmem S4x256 .f32) (harg4 : arg4.IsWhole)
    (x : Vec F S4x256x1024 .f32) (mm lz : Vec F S4x256 .f32) (P O : sProp 𝕄) :
    iprop(P ∗ O ∗ (∃ d : S4x256x1024.Idx → Elt F .f32, owns (c : Thread nD τ) arg1 fullShare x)
        ∗ (∃ d : S4x256.Idx → Elt F .f32, owns (c : Thread nD τ) arg2 fullShare mm)
        ∗ (∃ d : S4x256.Idx → Elt F .f32, owns (c : Thread nD τ) arg3 fullShare lz)
        ∗ (∃ d : S4x256.Idx → Elt F .f32, owns (c : Thread nD τ) arg4 fullShare d))
      ⊢ wp frame (wpE (defs₀ (F := F)) Variants.none c none) Set.univ (cc1__entropy_kernel i arg1 harg1 arg2 harg2 arg3 harg3 arg4 harg4)
          (fun _ => iprop(P ∗ O ∗ owns (c : Thread nD τ) arg1 fullShare x ∗ owns (c : Thread nD τ) arg2 fullShare mm
            ∗ owns (c : Thread nD τ) arg3 fullShare lz ∗ owns (c : Thread nD τ) arg4 fullShare (k1_pay2 x mm lz k1_pay1))) := by
  iintro ⟨HP, HO, ⟨%d1, H1⟩, ⟨%d2, H2⟩, ⟨%d3, H3⟩, ⟨%d4, H4⟩⟩
  iapply (run1_first c Set.univ i h1 arg1 harg1 arg2 harg2 arg3 harg3 arg4 harg4 x mm lz _)
  isplitl [H1]; · iexact H1
  isplitl [H2]; · iexact H2
  isplitl [H3]; · iexact H3
  isplitl [H4]; · iexists _; iexact H4
  iintro ⟨H1, H2, H3, H4⟩
  isplitl [HP]; · iexact HP
  isplitl [HO]; · iexact HO
  isplitl [H1]; · iexact H1
  isplitl [H2]; · iexact H2
  isplitl [H3]; · iexact H3
  iexact H4

/-- A later point, with the invariant and the core's debts carried along. -/
theorem point1_rest (c : Dev nD) (i : grid1.Coords) (h1 : ¬ e1 i = 1#1)
    (arg1 : Memref sig .tc .vmem S4x256x1024 .f32) (harg1 : arg1.IsWhole) (arg2 : Memref sig .tc .vmem S4x256 .f32) (harg2 : arg2.IsWhole)
    (arg3 : Memref sig .tc .vmem S4x256 .f32) (harg3 : arg3.IsWhole) (arg4 : Memref sig .tc .vmem S4x256 .f32) (harg4 : arg4.IsWhole)
    (x : Vec F S4x256x1024 .f32) (mm lz e : Vec F S4x256 .f32) (P O : sProp 𝕄) :
    iprop(P ∗ O ∗ (∃ d : S4x256x1024.Idx → Elt F .f32, owns (c : Thread nD τ) arg1 fullShare x)
        ∗ (∃ d : S4x256.Idx → Elt F .f32, owns (c : Thread nD τ) arg2 fullShare mm)
        ∗ (∃ d : S4x256.Idx → Elt F .f32, owns (c : Thread nD τ) arg3 fullShare lz)
        ∗ (∃ d : S4x256.Idx → Elt F .f32, owns (c : Thread nD τ) arg4 fullShare e))
      ⊢ wp frame (wpE (defs₀ (F := F)) Variants.none c none) Set.univ (cc1__entropy_kernel i arg1 harg1 arg2 harg2 arg3 harg3 arg4 harg4)
          (fun _ => iprop(P ∗ O ∗ owns (c : Thread nD τ) arg1 fullShare x ∗ owns (c : Thread nD τ) arg2 fullShare mm
            ∗ owns (c : Thread nD τ) arg3 fullShare lz ∗ owns (c : Thread nD τ) arg4 fullShare (k1_pay2 x mm lz e))) := by
  iintro ⟨HP, HO, ⟨%d1, H1⟩, ⟨%d2, H2⟩, ⟨%d3, H3⟩, ⟨%d4, H4⟩⟩
  iapply (run1_rest c Set.univ i h1 arg1 harg1 arg2 harg2 arg3 harg3 arg4 harg4 x mm lz e _)
  isplitl [H1]; · iexact H1
  isplitl [H2]; · iexact H2
  isplitl [H3]; · iexact H3
  isplitl [H4]; · iexact H4
  iintro ⟨H1, H2, H3, H4⟩
  isplitl [HP]; · iexact HP
  isplitl [HO]; · iexact HO
  isplitl [H1]; · iexact H1
  isplitl [H2]; · iexact H2
  isplitl [H3]; · iexact H3
  iexact H4

/-! ## The body obligation -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold the blocks the last fetches brought; the result's buffer holds
    anything at the first point and the accumulator so far at a later one; the invariant passes through unread
    and the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, ent1_succ]
  by_cases h0 : t.val = 0
  · simp only [before1_3_first V c t h0]
    rw [ent1_first V c t h0]
    exact point1_first c (grid1.coords t) ((e1_iff t).mpr h0) _ _ _ _ _ _ _ _ _ _ _ _ _
  · simp only [before1_3_rest V c t h0]
    exact point1_rest c (grid1.coords t) (fun h => h0 ((e1_iff t).mp h)) _ _ _ _ _ _ _ _ _ _ _ _ _ _

/-- The library's body obligation for region 1, at every point. -/
theorem body_obligation1 (c : Dev nD) :
    BodyObligation (dat1 (F := F) V c) (defs₀ (F := F)) Variants.none () Set.univ := fun t => by
  rw [bigSep_W1, bigSep_W1]
  exact sound_body1 V c t

end Cert.Kernel.Hand

end
-- ==== Proof.KI.Steps.lean ====
/-
  The proof data of the two kernel regions, stated once for any float instance F and any contents V the
  TensorCore's buffers hold when a region is entered.

  Region 0 streams the logits over the vocabulary axis in 128 blocks of 1024 columns and carries three row-wise
  quantities in scratch from one block to the next: the running maximum, the running sum of exponentials taken
  relative to that maximum, and the running sum of the entries whose column is the chosen token's. After n
  blocks they are sc0 n: from (-inf, 0, 0), each block maps (m, s, k) to
  (max m (rowmax x), exp (m - m') * s + sum (exp (x - m')), k + sum (x where the column is the chosen one)).
  Only the last block writes the three results: the log-probability (k - m - log s) / 1, the maximum, and log s.

  Region 1 streams the logits once more against the now fixed maximum and log-sum, and accumulates in its result
  block, from 0, the negated row sums of p * log (p + eps) with p = exp (x - m - log s): ent1 n after n blocks.

  An input block the body only reads is what the last fetch at or before the point brought (Pipeline.heldIn):
  the logits' block moves with the point; the other inputs are fetched once.
-/
import proofs.«419102_j73229192397434_1_alg».proof.Proof.Gen.KernelIdeal.Skeleton
import proofs.«419102_j73229192397434_1_alg».proof.Proof.Gen.KernelIdeal.Launch
import proofs.«419102_j73229192397434_1_alg».proof.Proof.Gen.KernelIdeal.Points
import Idealize.ShloMosaic.Lib.Pipeline.Frame
import Idealize.ShloMosaic.Lib.Pipeline.FrameBody

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- Region 0's windowed arrays as the region finds them. -/
abbrev A0 (c : Dev nD) (w : Fin cfg0.W) : Buf (Elt F) ((cfg0.win w).arr.view.loc (c.tc : Thread nD τ)) :=
  V c (Pipeline.arrRef spec0 w)

/-- The logits' block the body reads at point n. -/
abbrev xin0 (c : Dev nD) (n : ℕ) (h : n < cfg0.N) : Vec F S4x256x1024 .f32 := Pipeline.heldIn cfg0 (A0 V c) 0 n h
/-- The chosen-token ids the body reads at point n (one block, fetched once). -/
abbrev ids0 (c : Dev nD) (n : ℕ) (h : n < cfg0.N) : Vec F S4x256 .i32 := Pipeline.heldIn cfg0 (A0 V c) 1 n h

/-- The carried triple (running maximum, running sum of exponentials, running chosen entry) after n points. -/
def sc0 (c : Dev nD) : (n : ℕ) → n ≤ cfg0.N → Vec F S4x256 .f32 × Vec F S4x256 .f32 × Vec F S4x256 .f32
  | 0, _ => (k0_pay4, k0_pay5, k0_pay6)
  | n + 1, h =>
    let p := sc0 c n (Nat.le_of_succ_le h)
    (k0_pay9 (xin0 V c n h) p.1,
     k0_pay8 (xin0 V c n h) p.1 p.2.1,
     k0_pay1 (k0_pay10 (grid0.coords ⟨n, h⟩) (xin0 V c n h) (ids0 V c n h)) p.2.2)

theorem sc0_zero (c : Dev nD) (h : 0 ≤ cfg0.N) : sc0 V c 0 h = (k0_pay4, k0_pay5, k0_pay6) := rfl

theorem sc0_succ (c : Dev nD) (n : ℕ) (h : n + 1 ≤ cfg0.N) :
    sc0 V c (n + 1) h =
      (k0_pay9 (xin0 V c n h) (sc0 V c n (Nat.le_of_succ_le h)).1,
       k0_pay8 (xin0 V c n h) (sc0 V c n (Nat.le_of_succ_le h)).1 (sc0 V c n (Nat.le_of_succ_le h)).2.1,
       k0_pay1 (k0_pay10 (grid0.coords ⟨n, h⟩) (xin0 V c n h) (ids0 V c n h)) (sc0 V c n (Nat.le_of_succ_le h)).2.2) := rfl

/-- What the last point stores into the three result blocks: the log-probability, the maximum, the log-sum. -/
def fin0 (c : Dev nD) : Vec F S4x256 .f32 × Vec F S4x256 .f32 × Vec F S4x256 .f32 :=
  let p := sc0 V c cfg0.N (Nat.le_refl _)
  (k0_pay3 p.2.1 p.2.2 p.1, p.1, k0_pay2 p.2.1)

/-- The three scratch buffers as whole memrefs. -/
abbrev scM0 : Memref sig .tc .vmem S4x256 .f32 := Memref.whole cc0_scratch0
abbrev scM1 : Memref sig .tc .vmem S4x256 .f32 := Memref.whole cc0_scratch1
abbrev scM2 : Memref sig .tc .vmem S4x256 .f32 := Memref.whole cc0_scratch2

/-- The scoped buffers of the core that region 0 neither stages nor uses as scratch, each whole at some contents. -/
def other0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f))

/-- Region 0's invariant before point n: before the first point what the launch hands a region (every scoped
    buffer no window stages at some contents, the generator register at some state); afterwards the three scratch
    buffers at the carried triple, the other scoped buffers and the register as before. -/
def Phi0 (c : Dev nD) : (n : ℕ) → n ≤ cfg0.N → sProp 𝕄
  | 0, _ => Pipeline.ΦA spec0 c
  | n + 1, h =>
    iprop(owns (c : Thread nD τ) scM0 fullShare (sc0 V c (n + 1) h).1
      ∗ owns (c : Thread nD τ) scM1 fullShare (sc0 V c (n + 1) h).2.1
      ∗ owns (c : Thread nD τ) scM2 fullShare (sc0 V c (n + 1) h).2.2
      ∗ other0 c ∗ (∃ r, prngReg c r))

/-- The proof data of region 0 on core c. The result windows' after is the last point's store at every
    point: at the others the windows are idle and nothing consults it. -/
def dat0 (c : Dev nD) : Dat τ (Elt F) Unit ℕ (UR sig nD τ) ℕ cfg0 c where
  A w := V c (Pipeline.arrRef spec0 w)
  after w t := match w with
    | ⟨0, _⟩ => xin0 V c t.val t.isLt
    | ⟨1, _⟩ => ids0 V c t.val t.isLt
    | ⟨2, _⟩ => (fin0 V c).1
    | ⟨3, _⟩ => (fin0 V c).2.1
    | ⟨4, _⟩ => (fin0 V c).2.2
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = xin0 V c t.val t.isLt := by dsimp only [dat0]
theorem after0_1 (c : Dev nD) (t : Fin cfg0.N) : (dat0 V c).after 1 t = ids0 V c t.val t.isLt := by dsimp only [dat0]
theorem after0_2 (c : Dev nD) (t : Fin cfg0.N) : (dat0 V c).after 2 t = (fin0 V c).1 := by dsimp only [dat0]
theorem after0_3 (c : Dev nD) (t : Fin cfg0.N) : (dat0 V c).after 3 t = (fin0 V c).2.1 := by dsimp only [dat0]
theorem after0_4 (c : Dev nD) (t : Fin cfg0.N) : (dat0 V c).after 4 t = (fin0 V c).2.2 := by dsimp only [dat0]

/-! ## Region 1 -/

/-- Region 1's windowed arrays as the region finds them. -/
abbrev A1 (c : Dev nD) (w : Fin cfg1.W) : Buf (Elt F) ((cfg1.win w).arr.view.loc (c.tc : Thread nD τ)) :=
  V c (Pipeline.arrRef spec1 w)

/-- The logits' block, the maxima and the log-sums the body reads at point n. -/
abbrev xin1 (c : Dev nD) (n : ℕ) (h : n < cfg1.N) : Vec F S4x256x1024 .f32 := Pipeline.heldIn cfg1 (A1 V c) 0 n h
abbrev mm1 (c : Dev nD) (n : ℕ) (h : n < cfg1.N) : Vec F S4x256 .f32 := Pipeline.heldIn cfg1 (A1 V c) 1 n h
abbrev lz1 (c : Dev nD) (n : ℕ) (h : n < cfg1.N) : Vec F S4x256 .f32 := Pipeline.heldIn cfg1 (A1 V c) 2 n h

/-- The entropy accumulator after n points. -/
def ent1 (c : Dev nD) : (n : ℕ) → n ≤ cfg1.N → Vec F S4x256 .f32
  | 0, _ => k1_pay1
  | n + 1, h => k1_pay2 (xin1 V c n h) (mm1 V c n h) (lz1 V c n h) (ent1 c n (Nat.le_of_succ_le h))

theorem ent1_zero (c : Dev nD) (h : 0 ≤ cfg1.N) : ent1 V c 0 h = k1_pay1 := rfl
theorem ent1_succ (c : Dev nD) (n : ℕ) (h : n + 1 ≤ cfg1.N) :
    ent1 V c (n + 1) h = k1_pay2 (xin1 V c n h) (mm1 V c n h) (lz1 V c n h) (ent1 V c n (Nat.le_of_succ_le h)) := rfl

/-- The proof data of region 1 on core c: the result block holds the accumulator after each point. -/
def dat1 (c : Dev nD) : Dat τ (Elt F) Unit ℕ (UR sig nD τ) ℕ cfg1 c where
  A w := V c (Pipeline.arrRef spec1 w)
  after w t := match w with
    | ⟨0, _⟩ => xin1 V c t.val t.isLt
    | ⟨1, _⟩ => mm1 V c t.val t.isLt
    | ⟨2, _⟩ => lz1 V c t.val t.isLt
    | ⟨3, _⟩ => ent1 V c (t.val + 1) t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = xin1 V c t.val t.isLt := by dsimp only [dat1]
theorem after1_1 (c : Dev nD) (t : Fin cfg1.N) : (dat1 V c).after 1 t = mm1 V c t.val t.isLt := by dsimp only [dat1]
theorem after1_2 (c : Dev nD) (t : Fin cfg1.N) : (dat1 V c).after 2 t = lz1 V c t.val t.isLt := by dsimp only [dat1]
theorem after1_3 (c : Dev nD) (t : Fin cfg1.N) : (dat1 V c).after 3 t = ent1 V c (t.val + 1) t.isLt := by dsimp only [dat1]

end Cert.KernelIdeal.Hand

end
-- ==== Proof.KI.Vals.lean ====
/-
  The contents of the TensorCore's unscoped buffers at each boundary between two items of @main, as a fold from the
  launch memory: a stretch of host operations applies its operations; a kernel region leaves each of its windowed
  arrays at what the write-backs of its proof data leave (an input array as entered, a result array at the last
  point's block) and every other buffer as entered.
  Items: the two slices (chosen ids, mask); region 0 (statistics); region 1 (entropy); then five stretches of host
  operations computing the loss and the two entropy averages.
-/
import proofs.«419102_j73229192397434_1_alg».proof.Proof.KI.Steps
import Idealize.ShloMosaic.Lib.Pipeline.Regions
import Idealize.ShloMosaic.Lib.Pipeline.RegionsLoop
import Idealize.ShloMosaic.Lib.Pipeline.FrameSuffix

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core c's buffers at launch. -/
abbrev W0 : Dev nD → Valuation τ sig (Elt F) := fun c b => m (c, b)
/-- After the two slices (region 0's entry). -/
abbrev W1 : Dev nD → Valuation τ sig (Elt F) := fun c => StableHlo.after hostOps0 (W0 m c)
/-- The same read at the TensorCore's references (what region 0's proof data take). -/
abbrev V1 : (c : Dev nD) → (b : Ref sig .tc) → Buf (Elt F) ((c : Thread nD τ).loc b) := fun c b => W1 m c b
/-- At region 0's exit. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- At region 1's exit. -/
def W3 (c : Dev nD) : Valuation τ sig (Elt F) :=
  Pipeline.withArrays spec1 c (W2 m c) fun w => (dat1 (V2 m) c).arrAt w cfg1.N
abbrev V3 : (c : Dev nD) → (b : Ref sig .tc) → Buf (Elt F) ((c : Thread nD τ).loc b) := fun c b => W3 m c b
/-- After each of the five closing stretches of host operations. -/
abbrev W4 : Dev nD → Valuation τ sig (Elt F) := fun c => StableHlo.after hostOps2 (W3 m c)
abbrev W5 : Dev nD → Valuation τ sig (Elt F) := fun c => StableHlo.after hostOps2_1 (W4 m c)
abbrev W6 : Dev nD → Valuation τ sig (Elt F) := fun c => StableHlo.after hostOps2_2 (W5 m c)
abbrev W7 : Dev nD → Valuation τ sig (Elt F) := fun c => StableHlo.after hostOps2_3 (W6 m c)
abbrev W8 : Dev nD → Valuation τ sig (Elt F) := fun c => StableHlo.after hostOps2_4 (W7 m c)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

/-- At a region's exit each of its arrays holds what the pipeline leaves and every other buffer what it held at entry. -/
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

end Cert.KernelIdeal.Hand

end
-- ==== Proof.KI.Body0.lean ====
/-
  The statistics kernel's body at one grid point, on whole staging and scratch memrefs, one statement per control case.
  The body reads the logits' block x and the chosen ids, and maps the scratch triple (m, s, k) to
  (max m (rowmax x), exp (m - m') * s + sum exp (x - m'), k + the chosen entry of this block):
  at the first point from the reset triple (-inf, 0, 0); at the last point it also stores the three results
  (k' - m' - log s') / 1, m' and log s'. The result buffers are untouched at every other point.
-/
import proofs.«419102_j73229192397434_1_alg».proof.Proof.Gen.KernelIdeal.Skeleton
import proofs.«419102_j73229192397434_1_alg».proof.Proof.Gen.KernelIdeal.Launch
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangle's offsets are zero, in either rank. -/
private theorem hz2 : (![0, 0] : Fin 2 → Nat) = fun _ => 0 := funext fun a => by fin_cases a <;> rfl
private theorem hz3 : (![0, 0, 0] : Fin 3 → Nat) = fun _ => 0 := funext fun a => by fin_cases a <;> rfl

/-- A buffer whose last store went through the whole-buffer rectangle reads as that store's payload,
    whatever was stored before and whatever it held before. -/
private theorem read_whole_store {e : EltTy} (v : View sig .tc .vmem S4x256 e) (f : v.ty.Contents (Elt F))
    (w : Vec F S4x256 e) (L : List (View.Piece (Elt F) S4x256 e)) :
    v.read (Elt F) (v.writes (Elt F) f (⟨Rect.unit (s := S4x256) ![0, 0] S4x256.size inb_S4x256_S4x256_0_0, w⟩ :: L)) = w := by
  rw [View.read_writes_eq_canon _ _ _ (fun y => ⟨_, List.mem_cons_self, View.mem_set_unit_zero hz2 inb_S4x256_S4x256_0_0 y⟩),
    View.canon_cons_unit_zero hz2]

/-- A load through the whole-buffer rectangle reads the buffer's contents. -/
private theorem readAt_whole2 {e : EltTy} (v : View sig .tc .vmem S4x256 e) (f : v.ty.Contents (Elt F)) :
    View.readAt (Elt F) v (Rect.unit (s := S4x256) ![0, 0] S4x256.size inb_S4x256_S4x256_0_0).toLoadRect f = v.read (Elt F) f := by
  rw [View.readAt_eq_ld, View.ld_unit_zero hz2]
private theorem readAt_whole3 {e : EltTy} (v : View sig .tc .vmem S4x256x1024 e) (f : v.ty.Contents (Elt F)) :
    View.readAt (Elt F) v (Rect.unit (s := S4x256x1024) ![0, 0, 0] S4x256x1024.size inb_S4x256x1024_S4x256x1024_0_0_0).toLoadRect f = v.read (Elt F) f := by
  rw [View.readAt_eq_ld, View.ld_unit_zero hz3]

/-- A load through the whole-buffer rectangle after a store through it reads that store's payload. -/
private theorem readCov_whole2 {e : EltTy} (v : View sig .tc .vmem S4x256 e)
    (w : Vec F S4x256 e) (L : List (View.Piece (Elt F) S4x256 e)) :
    v.readCov (⟨Rect.unit (s := S4x256) ![0, 0] S4x256.size inb_S4x256_S4x256_0_0, w⟩ :: L)
      (Rect.unit (s := S4x256) ![0, 0] S4x256.size inb_S4x256_S4x256_0_0).toLoadRect = w := by
  rw [View.readCov_eq_canon_ld _ _ _ (fun y => ⟨_, List.mem_cons_self, View.mem_set_unit_zero hz2 inb_S4x256_S4x256_0_0 y⟩),
    View.canon_cons_unit_zero hz2, View.ld_unit_zero hz2]

/-- The word the first conditional (the reset at the grid's first point) tests. -/
def c1 (i : grid0.Coords) : BitVec 1 :=
  Scalar.cmpi .ne (Scalar.extui (Scalar.cmpi .eq (BitVec.ofNat 32 (i 0).val) 0#32)) 0#32

/-- The reset runs at the first point only; the results are stored at the last point only. -/
theorem c1_iff (t : Fin cfg0.N) : c1 (grid0.coords t) = 1#1 ↔ t.val = 0 :=
  (by decide +kernel : ∀ t : Fin grid0.N, c1 (grid0.coords t) = 1#1 ↔ t.val = 0) t
theorem c2_iff (t : Fin cfg0.N) : k0_cond2 (grid0.coords t) = 1#1 ↔ t.val = 127 :=
  (by decide +kernel : ∀ t : Fin grid0.N, k0_cond2 (grid0.coords t) = 1#1 ↔ t.val = 127) t

/-- The first point: the scratch at anything, reset, then one step from the reset triple. -/
theorem run0_first (c : Dev nD) (E : Set ℕ) (i : grid0.Coords) (h1 : c1 i = 1#1) (h2 : ¬ k0_cond2 i = 1#1)
    (arg1 : Memref sig .tc .vmem S4x256x1024 .f32) (harg1 : arg1.IsWhole) (arg2 : Memref sig .tc .vmem S4x256 .i32) (harg2 : arg2.IsWhole) (arg3 : Memref sig .tc .vmem S4x256 .f32) (harg3 : arg3.IsWhole) (arg4 : Memref sig .tc .vmem S4x256 .f32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256 .f32) (harg7 : arg7.IsWhole) (arg8 : Memref sig .tc .vmem S4x256 .f32) (harg8 : arg8.IsWhole)
    (x : Vec F S4x256x1024 .f32) (ids : Vec F S4x256 .i32) (K : PUnit → sProp 𝕄) :
    iprop(owns (c : Thread nD τ) arg1 fullShare x ∗ owns (c : Thread nD τ) arg2 fullShare ids
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x ∗ owns (c : Thread nD τ) arg2 fullShare ids
            ∗ owns (c : Thread nD τ) arg6 fullShare (k0_pay9 x k0_pay4)
            ∗ owns (c : Thread nD τ) arg7 fullShare (k0_pay8 x k0_pay4 k0_pay5)
            ∗ owns (c : Thread nD τ) arg8 fullShare (k0_pay1 (k0_pay10 i x ids) k0_pay6)) -∗ K ⟨⟩))
      ⊢ wp frame (wpE (defs₀ (F := F)) Variants.none c none) E (cc0__stat_kernel i arg1 harg1 arg2 harg2 arg3 harg3 arg4 harg4 arg5 harg5 arg6 harg6 arg7 harg7 arg8 harg8) K := by
  simp only [cc0__stat_kernel_eq_skeleton]; unfold cc0__stat_kernel_skel
  simp only [k0_part1_eq_skeleton]; unfold k0_part1_skel
  unfold owns
  iintro ⟨⟨%f1, %hf1, H1⟩, ⟨%f2, %hf2, H2⟩, ⟨%d6, %f6, -, H6⟩, ⟨%d7, %f7, -, H7⟩, ⟨%d8, %f8, -, H8⟩, Hk⟩
  subst hf1; subst hf2
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H6]
  · iexists _; isplitr; swap; · iexact H6
    ipureintro
    sl_unfold_words
    rw [read_whole_store]
    repeat (first | rw [readAt_whole2] | rw [readAt_whole3] | rw [readCov_whole2])
  isplitl [H7]
  · iexists _; isplitr; swap; · iexact H7
    ipureintro
    sl_unfold_words
    rw [read_whole_store]
    repeat (first | rw [readAt_whole2] | rw [readAt_whole3] | rw [readCov_whole2])
  iexists _; isplitr; swap; · iexact H8
  ipureintro
  sl_unfold_words
  rw [read_whole_store]
  repeat (first | rw [readAt_whole2] | rw [readAt_whole3] | rw [readCov_whole2])

/-- A middle point: one step of the carried triple. -/
theorem run0_mid (c : Dev nD) (E : Set ℕ) (i : grid0.Coords) (h1 : ¬ c1 i = 1#1) (h2 : ¬ k0_cond2 i = 1#1)
    (arg1 : Memref sig .tc .vmem S4x256x1024 .f32) (harg1 : arg1.IsWhole) (arg2 : Memref sig .tc .vmem S4x256 .i32) (harg2 : arg2.IsWhole) (arg3 : Memref sig .tc .vmem S4x256 .f32) (harg3 : arg3.IsWhole) (arg4 : Memref sig .tc .vmem S4x256 .f32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256 .f32) (harg7 : arg7.IsWhole) (arg8 : Memref sig .tc .vmem S4x256 .f32) (harg8 : arg8.IsWhole)
    (x : Vec F S4x256x1024 .f32) (ids : Vec F S4x256 .i32) (m s k : Vec F S4x256 .f32) (K : PUnit → sProp 𝕄) :
    iprop(owns (c : Thread nD τ) arg1 fullShare x ∗ owns (c : Thread nD τ) arg2 fullShare ids
        ∗ owns (c : Thread nD τ) arg6 fullShare m ∗ owns (c : Thread nD τ) arg7 fullShare s ∗ owns (c : Thread nD τ) arg8 fullShare k
        ∗ (iprop(owns (c : Thread nD τ) arg1 fullShare x ∗ owns (c : Thread nD τ) arg2 fullShare ids
            ∗ owns (c : Thread nD τ) arg6 fullShare (k0_pay9 x m)
            ∗ owns (c : Thread nD τ) arg7 fullShare (k0_pay8 x m s)
            ∗ owns (c : Thread nD τ) arg8 fullShare (k0_pay1 (k0_pay10 i x ids) k)) -∗ K ⟨⟩))
      ⊢ wp frame (wpE (defs₀ (F := F)) Variants.none c none) E (cc0__stat_kernel i arg1 harg1 arg2 harg2 arg3 harg3 arg4 harg4 arg5 harg5 arg6 harg6 arg7 harg7 arg8 harg8) K := by
  simp only [cc0__stat_kernel_eq_skeleton]; unfold cc0__stat_kernel_skel
  simp only [k0_part1_eq_skeleton]; unfold k0_part1_skel
  unfold owns
  iintro ⟨⟨%f1, %hf1, H1⟩, ⟨%f2, %hf2, H2⟩, ⟨%f6, %hf6, H6⟩, ⟨%f7, %hf7, H7⟩, ⟨%f8, %hf8, H8⟩, Hk⟩
  subst hf1; subst hf2; subst hf6; subst hf7; subst hf8
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H6]
  · iexists _; isplitr; swap; · iexact H6
    ipureintro
    rw [read_whole_store]; repeat (first | rw [readAt_whole2] | rw [readAt_whole3])
  isplitl [H7]
  · iexists _; isplitr; swap; · iexact H7
    ipureintro
    rw [read_whole_store]; repeat (first | rw [readAt_whole2] | rw [readAt_whole3])
  iexists _; isplitr; swap; · iexact H8
  ipureintro
  refine (read_whole_store _ _ _ _).trans ?_
  repeat (first | rw [readAt_whole2] | rw [readAt_whole3])

/-- The last point: one step, then the three results stored from the new triple. -/
theorem run0_last (c : Dev nD) (E : Set ℕ) (i : grid0.Coords) (h1 : ¬ c1 i = 1#1) (h2 : k0_cond2 i = 1#1)
    (arg1 : Memref sig .tc .vmem S4x256x1024 .f32) (harg1 : arg1.IsWhole) (arg2 : Memref sig .tc .vmem S4x256 .i32) (harg2 : arg2.IsWhole) (arg3 : Memref sig .tc .vmem S4x256 .f32) (harg3 : arg3.IsWhole) (arg4 : Memref sig .tc .vmem S4x256 .f32) (harg4 : arg4.IsWhole) (arg5 : Memref sig .tc .vmem S4x256 .f32) (harg5 : arg5.IsWhole) (arg6 : Memref sig .tc .vmem S4x256 .f32) (harg6 : arg6.IsWhole) (arg7 : Memref sig .tc .vmem S4x256 .f32) (harg7 : arg7.IsWhole) (arg8 : Memref sig .tc .vmem S4x256 .f32) (harg8 : arg8.IsWhole)
    (x : Vec F S4x256x1024 .f32) (ids : Vec F S4x256 .i32) (m s k : Vec F S4x256 .f32) (K : PUnit → sProp 𝕄) :
    iprop(owns (c : Thread nD τ) arg1 fullShare x ∗ owns (c : Thread nD τ) arg2 fullShare ids
        ∗ (∃ d, owns (c : Thread nD τ) arg3 fullShare d) ∗ (∃ d, owns (c : Thread nD τ) arg4 fullShare d) ∗ (∃ d, owns (c : Thread nD τ) arg5 fullShare d)
        ∗ owns (c : Thread nD τ) arg6 fullShare m ∗ owns (c : Thread nD τ) arg7 fullShare s ∗ owns (c : Thread nD τ) arg8 fullShare k
        ∗ (iprop(owns (c : Thread nD τ) arg1 fullShare x ∗ owns (c : Thread nD τ) arg2 fullShare ids
            ∗ owns (c : Thread nD τ) arg3 fullShare (k0_pay3 (k0_pay8 x m s) (k0_pay1 (k0_pay10 i x ids) k) (k0_pay9 x m))
            ∗ owns (c : Thread nD τ) arg4 fullShare (k0_pay9 x m)
            ∗ owns (c : Thread nD τ) arg5 fullShare (k0_pay2 (k0_pay8 x m s))
            ∗ owns (c : Thread nD τ) arg6 fullShare (k0_pay9 x m)
            ∗ owns (c : Thread nD τ) arg7 fullShare (k0_pay8 x m s)
            ∗ owns (c : Thread nD τ) arg8 fullShare (k0_pay1 (k0_pay10 i x ids) k)) -∗ K ⟨⟩))
      ⊢ wp frame (wpE (defs₀ (F := F)) Variants.none c none) E (cc0__stat_kernel i arg1 harg1 arg2 harg2 arg3 harg3 arg4 harg4 arg5 harg5 arg6 harg6 arg7 harg7 arg8 harg8) K := by
  simp only [cc0__stat_kernel_eq_skeleton]; unfold cc0__stat_kernel_skel
  simp only [k0_part1_eq_skeleton]; unfold k0_part1_skel
  unfold owns
  iintro ⟨⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, ⟨%f8, %hf8, H8⟩, Hk⟩
  subst hf1; subst hf2; subst hf6; subst hf7; subst hf8
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H3]
  · iexists _; isplitr; swap; · iexact H3
    ipureintro
    sl_unfold_words
    rw [read_whole_store]
    repeat (first | rw [readAt_whole2] | rw [readAt_whole3] | rw [readCov_whole2])
  isplitl [H4]
  · iexists _; isplitr; swap; · iexact H4
    ipureintro
    sl_unfold_words
    rw [read_whole_store]
    repeat (first | rw [readAt_whole2] | rw [readAt_whole3] | rw [readCov_whole2])
  isplitl [H5]
  · iexists _; isplitr; swap; · iexact H5
    ipureintro
    sl_unfold_words
    rw [read_whole_store]
    repeat (first | rw [readAt_whole2] | rw [readAt_whole3] | rw [readCov_whole2])
  isplitl [H6]
  · iexists _; isplitr; swap; · iexact H6
    ipureintro
    sl_unfold_words
    rw [read_whole_store]
    repeat (first | rw [readAt_whole2] | rw [readAt_whole3] | rw [readCov_whole2])
  isplitl [H7]
  · iexists _; isplitr; swap; · iexact H7
    ipureintro
    sl_unfold_words
    rw [read_whole_store]
    repeat (first | rw [readAt_whole2] | rw [readAt_whole3] | rw [readCov_whole2])
  iexists _; isplitr; swap; · iexact H8
  ipureintro
  sl_unfold_words
  rw [read_whole_store]
  repeat (first | rw [readAt_whole2] | rw [readAt_whole3] | rw [readCov_whole2])

end Cert.KernelIdeal.Hand

end
-- ==== Proof.KI.Oblig0.lean ====
/-
  Region 0's body obligation: at every grid point the statistics kernel, called on the windows' current staging
  buffers, takes the invariant before the point to the invariant after it. The two input buffers hold what the
  last fetch brought (the logits' block of the point; the chosen ids); the three result buffers are handed back as
  found at every point but the last, where they receive the results; the scratch triple advances one step.
-/
import proofs.«419102_j73229192397434_1_alg».proof.Proof.KI.Steps
import proofs.«419102_j73229192397434_1_alg».proof.Proof.KI.Body0
import Idealize.ShloMosaic.Lib.Pipeline.Frame
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The schedule: which windows are live, idle, written back -/

/-- The two input windows are live at every point. -/
theorem liveAt0_0 (i : grid0.Coords) : cfg0.idle 0 i = false := rfl
theorem liveAt0_1 (i : grid0.Coords) : cfg0.idle 1 i = false := rfl

/-- A result window is idle exactly where the last conditional fails. -/
theorem idle0_of_not (i : grid0.Coords) (h : ¬ k0_cond2 i = 1#1) :
    cfg0.idle 2 i = true ∧ cfg0.idle 3 i = true ∧ cfg0.idle 4 i = true := by
  have hb : (k0_cond2 i == 1#1) = false := beq_eq_false_iff_ne.mpr h
  refine ⟨?_, ?_, ?_⟩ <;> · show (!(k0_cond2 i == 1#1)) = true; rw [hb]; rfl

theorem live0_of (i : grid0.Coords) (h : k0_cond2 i = 1#1) :
    cfg0.idle 2 i = false ∧ cfg0.idle 3 i = false ∧ cfg0.idle 4 i = false := by
  refine ⟨?_, ?_, ?_⟩ <;> · show (!(k0_cond2 i == 1#1)) = false; rw [h]; rfl

/-- The grid has 128 points. -/
theorem lt128 (t : Fin cfg0.N) : t.val < 128 := lt_of_lt_of_eq t.isLt (show cfg0.N = 128 from N_0)

/-- No result window is written back before the last point. -/
theorem noFlush0_2 (t : Fin cfg0.N) (h : t.val ≠ 127) : (cfg0.win 2).flush t = false :=
  Bool.eq_false_iff.mpr fun hf => h (by have := (flush0_2 t).mp hf; have := lt128 t; omega)
theorem noFlush0_3 (t : Fin cfg0.N) (h : t.val ≠ 127) : (cfg0.win 3).flush t = false :=
  Bool.eq_false_iff.mpr fun hf => h (by have := (flush0_3 t).mp hf; have := lt128 t; omega)
theorem noFlush0_4 (t : Fin cfg0.N) (h : t.val ≠ 127) : (cfg0.win 4).flush t = false :=
  Bool.eq_false_iff.mpr fun hf => h (by have := (flush0_4 t).mp hf; have := lt128 t; omega)

/-! ## What the two input buffers hold -/

/-- No block of the logits' window overhangs its array: the block's 256 rows at block index 0 lie inside the
    257 rows, and its 1024 columns at block index below 128 inside the 131072 columns. -/
theorem hclip0_0 : ∀ (i : cfg0.grid.Coords) a, (cfg0.win 0).clip i a = none := by decide +kernel
/-- The ids' window is one whole block. -/
theorem hclip0_1 : ∀ (i : cfg0.grid.Coords) a, (cfg0.win 1).clip i a = none := fun _ _ => rfl

/-- The logits' buffer holds the point's block, the ids' buffer the one block of ids, whatever they held before. -/
theorem before0_0 (c : Dev nD) (t : Fin cfg0.N) (d) : (dat0 V c).before 0 t d = xin0 V c t.val t.isLt :=
  (dat0 V c).before_eq_heldIn 0 rfl liveAt0_0 hclip0_0 (after0_0 V c) t d
theorem before0_1 (c : Dev nD) (t : Fin cfg0.N) (d) : (dat0 V c).before 1 t d = ids0 V c t.val t.isLt :=
  (dat0 V c).before_eq_heldIn 1 rfl liveAt0_1 hclip0_1 (after0_1 V c) t d

/-! ## The invariant and the carried triple, opened -/

theorem Phi0_zero (c : Dev nD) (n : ℕ) (h : n ≤ cfg0.N) (hz : n = 0) : Phi0 V c n h = Pipeline.ΦA spec0 c := by
  subst hz; rfl

/-- Before a point that is not the first: the three scratch buffers at the carried triple. -/
theorem Phi0_pos (c : Dev nD) (n : ℕ) (h : n ≤ cfg0.N) (hz : n ≠ 0) :
    Phi0 V c n h = iprop(owns (c : Thread nD τ) scM0 fullShare (sc0 V c n h).1
      ∗ owns (c : Thread nD τ) scM1 fullShare (sc0 V c n h).2.1
      ∗ owns (c : Thread nD τ) scM2 fullShare (sc0 V c n h).2.2
      ∗ other0 c ∗ (∃ r, prngReg c r)) := by
  cases n with
  | zero => exact absurd rfl hz
  | succ n => rfl

theorem Phi0_castSucc (c : Dev nD) (t : Fin cfg0.N) :
    (dat0 V c).Φ t.castSucc = Phi0 V c t.val (Nat.le_of_lt t.isLt) := rfl

theorem Phi0_fsucc (c : Dev nD) (t : Fin cfg0.N) :
    (dat0 V c).Φ t.succ = Phi0 V c (t.val + 1) t.isLt := rfl

/-- The carried triple depends on the number of points only. -/
theorem sc0_congr (c : Dev nD) (n n' : ℕ) (h : n ≤ cfg0.N) (h' : n' ≤ cfg0.N) (e : n = n') : sc0 V c n h = sc0 V c n' h' := by
  subst e; rfl

theorem sc0_of_zero (c : Dev nD) (n : ℕ) (h : n ≤ cfg0.N) (hz : n = 0) : sc0 V c n h = (k0_pay4, k0_pay5, k0_pay6) := by
  subst hz; rfl

/-- What the launch hands a region, with the three scratch buffers as owned memrefs at some contents. -/
theorem PhiA0_eq (c : Dev nD) :
    (Pipeline.ΦA spec0 c : sProp 𝕄)
      = iprop(((∃ d, owns (c : Thread nD τ) scM0 fullShare d) ∗ (∃ d, owns (c : Thread nD τ) scM1 fullShare d)
          ∗ (∃ d, owns (c : Thread nD τ) scM2 fullShare d) ∗ other0 c) ∗ (∃ r, prngReg c r)) := by
  unfold Pipeline.ΦA other0; rw [scopedRest0_eq]; simp only [scM0, scM1, scM2, owns_whole]; try rfl

/-- At the last point the stored results are the last step's: the triple after all 128 points. -/
theorem fin0_eq (c : Dev nD) (t : Fin cfg0.N) (ht : t.val = 127) :
    fin0 V c =
      (k0_pay3 (k0_pay8 (xin0 V c t.val t.isLt) (sc0 V c t.val (Nat.le_of_lt t.isLt)).1 (sc0 V c t.val (Nat.le_of_lt t.isLt)).2.1)
          (k0_pay1 (k0_pay10 (grid0.coords t) (xin0 V c t.val t.isLt) (ids0 V c t.val t.isLt)) (sc0 V c t.val (Nat.le_of_lt t.isLt)).2.2)
          (k0_pay9 (xin0 V c t.val t.isLt) (sc0 V c t.val (Nat.le_of_lt t.isLt)).1),
       k0_pay9 (xin0 V c t.val t.isLt) (sc0 V c t.val (Nat.le_of_lt t.isLt)).1,
       k0_pay2 (k0_pay8 (xin0 V c t.val t.isLt) (sc0 V c t.val (Nat.le_of_lt t.isLt)).1 (sc0 V c t.val (Nat.le_of_lt t.isLt)).2.1)) := by
  have hN : cfg0.N = t.val + 1 := by rw [ht]; exact N_0
  unfold fin0
  rw [sc0_congr V c cfg0.N (t.val + 1) (Nat.le_refl _) t.isLt hN, sc0_succ]

/-! ## The body obligation, at a generic point -/

/-- Each window's current staging memref at point t, at its literal type, and its wholeness. -/
abbrev ms0 (t : Fin cfg0.N) : Memref sig .tc .vmem S4x256x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4x256 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4x256 .f32 := win0_4.stage (cfg0.slots t 4)
abbrev hs4 (t : Fin cfg0.N) : (ms4 t).IsWhole := hstage0_4 ((cfg0.slots t 4).cast nbuf0_4)

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

/-- The input windows' buffers are handed back at what they held. -/
theorem leaves0_0 (c : Dev nD) (t : Fin cfg0.N) :
    (dat0 V c).leavesExact 0 t = owns (c : Thread nD τ) (ms0 t) fullShare (xin0 V c t.val t.isLt) := by
  unfold Dat.leavesExact; rw [liveAt0_0 (grid0.coords t), after0_0]
theorem leaves0_1 (c : Dev nD) (t : Fin cfg0.N) :
    (dat0 V c).leavesExact 1 t = owns (c : Thread nD τ) (ms1 t) fullShare (ids0 V c t.val t.isLt) := by
  unfold Dat.leavesExact; rw [liveAt0_1 (grid0.coords t), after0_1]

/-- A result window's buffer before the last point: handed back as found. -/
theorem leaves0_2_idle (c : Dev nD) (t : Fin cfg0.N) (h2 : ¬ k0_cond2 (grid0.coords t) = 1#1) (ht : t.val ≠ 127) :
    (dat0 V c).leavesExact 2 t = iprop(∃ d, owns (c : Thread nD τ) (ms2 t) fullShare ((dat0 V c).before 2 t d)) :=
  Dat.leavesExact_idle (dat0 V c) 2 t (idle0_of_not _ h2).1 (noFlush0_2 t ht)
theorem leaves0_3_idle (c : Dev nD) (t : Fin cfg0.N) (h2 : ¬ k0_cond2 (grid0.coords t) = 1#1) (ht : t.val ≠ 127) :
    (dat0 V c).leavesExact 3 t = iprop(∃ d, owns (c : Thread nD τ) (ms3 t) fullShare ((dat0 V c).before 3 t d)) :=
  Dat.leavesExact_idle (dat0 V c) 3 t (idle0_of_not _ h2).2.1 (noFlush0_3 t ht)
theorem leaves0_4_idle (c : Dev nD) (t : Fin cfg0.N) (h2 : ¬ k0_cond2 (grid0.coords t) = 1#1) (ht : t.val ≠ 127) :
    (dat0 V c).leavesExact 4 t = iprop(∃ d, owns (c : Thread nD τ) (ms4 t) fullShare ((dat0 V c).before 4 t d)) :=
  Dat.leavesExact_idle (dat0 V c) 4 t (idle0_of_not _ h2).2.2 (noFlush0_4 t ht)

/-- A result window's buffer at the last point: at the stored result. -/
theorem leaves0_2_live (c : Dev nD) (t : Fin cfg0.N) (h2 : k0_cond2 (grid0.coords t) = 1#1) :
    (dat0 V c).leavesExact 2 t = owns (c : Thread nD τ) (ms2 t) fullShare (fin0 V c).1 := by
  unfold Dat.leavesExact; rw [(live0_of _ h2).1, after0_2]
theorem leaves0_3_live (c : Dev nD) (t : Fin cfg0.N) (h2 : k0_cond2 (grid0.coords t) = 1#1) :
    (dat0 V c).leavesExact 3 t = owns (c : Thread nD τ) (ms3 t) fullShare (fin0 V c).2.1 := by
  unfold Dat.leavesExact; rw [(live0_of _ h2).2.1, after0_3]
theorem leaves0_4_live (c : Dev nD) (t : Fin cfg0.N) (h2 : k0_cond2 (grid0.coords t) = 1#1) :
    (dat0 V c).leavesExact 4 t = owns (c : Thread nD τ) (ms4 t) fullShare (fin0 V c).2.2 := by
  unfold Dat.leavesExact; rw [(live0_of _ h2).2.2, after0_4]

/-- The body at any point. The two input buffers hold the point's block and the ids; the closed forms of the two
    conditions say which case the point is in. At the first point the scratch comes at anything and is reset; at
    a later point it comes at the carried triple; either way it leaves one step further. Before the last point the
    three result buffers are framed around the run and handed back as found; at the last point they receive the
    results of the triple after all points. The other scoped buffers, the register and what the core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [Phi0_fsucc, Phi0_pos V c (t.val + 1) t.isLt (Nat.succ_ne_zero _), sc0_succ, leaves0_0, leaves0_1, Phi0_castSucc]
  have hN := lt128 t
  by_cases h127 : t.val = 127
  · -- the last point
    have hc2 : k0_cond2 (grid0.coords t) = 1#1 := (c2_iff t).mpr h127
    have hc1 : ¬ c1 (grid0.coords t) = 1#1 := fun h => by have := (c1_iff t).mp h; omega
    rw [leaves0_2_live V c t hc2, leaves0_3_live V c t hc2, leaves0_4_live V c t hc2, fin0_eq V c t h127]
    rw [Phi0_pos V c _ _ (by omega)]
    iintro ⟨⟨HS0, HS1, HS2, Hoth, Hg⟩, Ho, ⟨%d0, H0⟩, ⟨%d1, H1⟩, ⟨%d2, H2⟩, ⟨%d3, H3⟩, ⟨%d4, H4⟩⟩
    iapply (run0_last c Set.univ (grid0.coords t) hc1 hc2 (ms0 t) (hs0 t) (ms1 t) (hs1 t) (ms2 t) (hs2 t) (ms3 t) (hs3 t) (ms4 t) (hs4 t)
      scM0 (Memref.isWhole_whole _) scM1 (Memref.isWhole_whole _) scM2 (Memref.isWhole_whole _)
      (xin0 V c t.val t.isLt) (ids0 V c t.val t.isLt)
      (sc0 V c t.val (Nat.le_of_lt t.isLt)).1 (sc0 V c t.val (Nat.le_of_lt t.isLt)).2.1 (sc0 V c t.val (Nat.le_of_lt t.isLt)).2.2 _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    isplitl [HS2]; · iexact HS2
    iintro ⟨H0, H1, H2, H3, H4, HS0, HS1, HS2⟩
    isplitl [HS0 HS1 HS2 Hoth Hg]
    · isplitl [HS0]; · iexact HS0
      isplitl [HS1]; · iexact HS1
      isplitl [HS2]; · iexact HS2
      isplitl [Hoth]; · iexact Hoth
      iexact Hg
    isplitl [Ho]; · iexact Ho
    isplitl [H0]; · iexact H0
    isplitl [H1]; · iexact H1
    isplitl [H2]; · iexact H2
    isplitl [H3]; · iexact H3
    iexact H4
  · have hc2 : ¬ k0_cond2 (grid0.coords t) = 1#1 := fun h => h127 ((c2_iff t).mp h)
    rw [leaves0_2_idle V c t hc2 h127, leaves0_3_idle V c t hc2 h127, leaves0_4_idle V c t hc2 h127]
    by_cases hz : t.val = 0
    · -- the first point
      have hc1 : c1 (grid0.coords t) = 1#1 := (c1_iff t).mpr hz
      rw [Phi0_zero V c _ _ hz, PhiA0_eq, sc0_of_zero V c _ _ hz]
      iintro ⟨⟨⟨HS0, HS1, HS2, Hoth⟩, Hg⟩, Ho, ⟨%d0, H0⟩, ⟨%d1, H1⟩, H2, H3, H4⟩
      iapply (run0_first c Set.univ (grid0.coords t) hc1 hc2 (ms0 t) (hs0 t) (ms1 t) (hs1 t) (ms2 t) (hs2 t) (ms3 t) (hs3 t) (ms4 t) (hs4 t)
        scM0 (Memref.isWhole_whole _) scM1 (Memref.isWhole_whole _) scM2 (Memref.isWhole_whole _)
        (xin0 V c t.val t.isLt) (ids0 V c t.val t.isLt) _)
      isplitl [H0]; · iexact H0
      isplitl [H1]; · iexact H1
      isplitl [HS0]; · iexact HS0
      isplitl [HS1]; · iexact HS1
      isplitl [HS2]; · iexact HS2
      iintro ⟨H0, H1, HS0, HS1, HS2⟩
      isplitl [HS0 HS1 HS2 Hoth Hg]
      · isplitl [HS0]; · iexact HS0
        isplitl [HS1]; · iexact HS1
        isplitl [HS2]; · iexact HS2
        isplitl [Hoth]; · iexact Hoth
        iexact Hg
      isplitl [Ho]; · iexact Ho
      isplitl [H0]; · iexact H0
      isplitl [H1]; · iexact H1
      isplitl [H2]; · iexact H2
      isplitl [H3]; · iexact H3
      iexact H4
    · -- a middle point
      have hc1 : ¬ c1 (grid0.coords t) = 1#1 := fun h => hz ((c1_iff t).mp h)
      rw [Phi0_pos V c _ _ hz]
      iintro ⟨⟨HS0, HS1, HS2, Hoth, Hg⟩, Ho, ⟨%d0, H0⟩, ⟨%d1, H1⟩, H2, H3, H4⟩
      iapply (run0_mid c Set.univ (grid0.coords t) hc1 hc2 (ms0 t) (hs0 t) (ms1 t) (hs1 t) (ms2 t) (hs2 t) (ms3 t) (hs3 t) (ms4 t) (hs4 t)
        scM0 (Memref.isWhole_whole _) scM1 (Memref.isWhole_whole _) scM2 (Memref.isWhole_whole _)
        (xin0 V c t.val t.isLt) (ids0 V c t.val t.isLt)
        (sc0 V c t.val (Nat.le_of_lt t.isLt)).1 (sc0 V c t.val (Nat.le_of_lt t.isLt)).2.1 (sc0 V c t.val (Nat.le_of_lt t.isLt)).2.2 _)
      isplitl [H0]; · iexact H0
      isplitl [H1]; · iexact H1
      isplitl [HS0]; · iexact HS0
      isplitl [HS1]; · iexact HS1
      isplitl [HS2]; · iexact HS2
      iintro ⟨H0, H1, HS0, HS1, HS2⟩
      isplitl [HS0 HS1 HS2 Hoth Hg]
      · isplitl [HS0]; · iexact HS0
        isplitl [HS1]; · iexact HS1
        isplitl [HS2]; · iexact HS2
        isplitl [Hoth]; · iexact Hoth
        iexact Hg
      isplitl [Ho]; · iexact Ho
      isplitl [H0]; · iexact H0
      isplitl [H1]; · iexact H1
      isplitl [H2]; · iexact H2
      isplitl [H3]; · iexact H3
      iexact H4

/-- The library's body obligation for region 0, at every point. -/
theorem body_obligation0 (c : Dev nD) :
    BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After the last point the invariant gives back what the launch handed over: the scratch contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 128 := N_0; omega), PhiA0_eq]
  iintro ⟨HS0, HS1, HS2, Hoth, Hg⟩
  isplitr [Hg]
  · isplitl [HS0]; · iexists _; iexact HS0
    isplitl [HS1]; · iexists _; iexact HS1
    isplitl [HS2]; · iexists _; iexact HS2
    iexact Hoth
  iexact Hg

end Cert.KernelIdeal.Hand

end
-- ==== Proof.KI.Body1.lean ====
/-
  The entropy kernel's body at one grid point, on whole staging memrefs, one statement per control case.
  The body reads the logits' block x, the row maxima mm and the row log-sums lz, and adds to the accumulator e
  the negated row sums of p * log (p + eps), p = exp (x - mm - lz); at the first point the accumulator is reset to 0 first.
-/
import proofs.«419102_j73229192397434_1_alg».proof.Proof.Gen.KernelIdeal.Skeleton
import proofs.«419102_j73229192397434_1_alg».proof.Proof.Gen.KernelIdeal.Launch
import Idealize.ShloMosaic.Lib.Pipeline.FrameBody
import Idealize.ShloMosaic.Lib.Tactic
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word the entropy kernel's one conditional (the reset at the grid's first point) tests. -/
def e1 (i : grid1.Coords) : BitVec 1 :=
  Scalar.cmpi .ne (Scalar.extui (Scalar.cmpi .eq (BitVec.ofNat 32 (i 0).val) 0#32)) 0#32

/-- The reset runs at the first point only: decided over the 128 grid points. -/
theorem e1_iff (t : Fin cfg1.N) : e1 (grid1.coords t) = 1#1 ↔ t.val = 0 :=
  (by decide +kernel : ∀ t : Fin grid1.N, e1 (grid1.coords t) = 1#1 ↔ t.val = 0) t

/-- The offsets of a whole-block access are the zero function (rank 2, rank 3). -/
private theorem hz2 : (![0, 0] : Fin S4x256.rank → ℕ) = fun _ => 0 := by
  funext a; fin_cases a <;> rfl

private theorem hz3 : (![0, 0, 0] : Fin S4x256x1024.rank → ℕ) = fun _ => 0 := by
  funext a; fin_cases a <;> rfl

set_option maxHeartbeats 1000000 in
/-- The first point: the accumulator at anything, reset, then one step from 0. The accumulator's block is stored
    whole twice, so it ends at the second payload, whose accumulator argument is the reset value read back. -/
theorem run1_first (c : Dev nD) (E : Set ℕ) (i : grid1.Coords) (h1 : e1 i = 1#1)
    (arg1 : Memref sig .tc .vmem S4x256x1024 .f32) (harg1 : arg1.IsWhole) (arg2 : Memref sig .tc .vmem S4x256 .f32) (harg2 : arg2.IsWhole) (arg3 : Memref sig .tc .vmem S4x256 .f32) (harg3 : arg3.IsWhole) (arg4 : Memref sig .tc .vmem S4x256 .f32) (harg4 : arg4.IsWhole)
    (x : Vec F S4x256x1024 .f32) (mm lz : Vec F S4x256 .f32) (K : PUnit → sProp 𝕄) :
    iprop(owns (c : Thread nD τ) arg1 fullShare x ∗ owns (c : Thread nD τ) arg2 fullShare mm ∗ owns (c : Thread nD τ) arg3 fullShare lz ∗ (∃ d, owns (c : Thread nD τ) arg4 fullShare d)
        ∗ (iprop(owns (c : Thread nD τ) arg1 fullShare x ∗ owns (c : Thread nD τ) arg2 fullShare mm ∗ owns (c : Thread nD τ) arg3 fullShare lz
            ∗ owns (c : Thread nD τ) arg4 fullShare (k1_pay2 x mm lz k1_pay1)) -∗ K ⟨⟩))
      ⊢ wp frame (wpE (defs₀ (F := F)) Variants.none c none) E (cc1__entropy_kernel i arg1 harg1 arg2 harg2 arg3 harg3 arg4 harg4) K := by
  simp only [cc1__entropy_kernel_eq_skeleton]; unfold cc1__entropy_kernel_skel
  unfold owns
  iintro ⟨⟨%f1, %hf1, H1⟩, ⟨%f2, %hf2, H2⟩, ⟨%f3, %hf3, H3⟩, ⟨%d4, %f4, -, H4⟩, Hk⟩
  obtain rfl := harg1.eq_unread hf1; obtain rfl := harg2.eq_unread hf2
  obtain rfl := harg3.eq_unread hf3
  sl_exec (disch := first | exact h1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  iexists _; isplitr
  swap; · iexact H4
  ipureintro
  sl_unfold_words
  rw [View.read_writes_eq_canon _ _ _ (fun y => ⟨_, List.mem_cons.mpr (Or.inl rfl), View.mem_set_unit_zero hz2 inb_S4x256_S4x256_0_0 y⟩),
    View.canon_cons_unit_zero hz2]
  simp only [View.readAt_eq_ld, harg1.read_unread, harg2.read_unread, harg3.read_unread,
    View.ld_unit_zero (S := S4x256x1024) hz3, View.ld_unit_zero (S := S4x256) hz2,
    View.readCov_unit_zero (S := S4x256) _ hz2]

set_option maxHeartbeats 1000000 in
/-- A later point: one step of the accumulator. Every load is of a whole block, so it reads the block's contents;
    the one whole-block store leaves its payload. -/
theorem run1_rest (c : Dev nD) (E : Set ℕ) (i : grid1.Coords) (h1 : ¬ e1 i = 1#1)
    (arg1 : Memref sig .tc .vmem S4x256x1024 .f32) (harg1 : arg1.IsWhole) (arg2 : Memref sig .tc .vmem S4x256 .f32) (harg2 : arg2.IsWhole) (arg3 : Memref sig .tc .vmem S4x256 .f32) (harg3 : arg3.IsWhole) (arg4 : Memref sig .tc .vmem S4x256 .f32) (harg4 : arg4.IsWhole)
    (x : Vec F S4x256x1024 .f32) (mm lz e : Vec F S4x256 .f32) (K : PUnit → sProp 𝕄) :
    iprop(owns (c : Thread nD τ) arg1 fullShare x ∗ owns (c : Thread nD τ) arg2 fullShare mm ∗ owns (c : Thread nD τ) arg3 fullShare lz ∗ owns (c : Thread nD τ) arg4 fullShare e
        ∗ (iprop(owns (c : Thread nD τ) arg1 fullShare x ∗ owns (c : Thread nD τ) arg2 fullShare mm ∗ owns (c : Thread nD τ) arg3 fullShare lz
            ∗ owns (c : Thread nD τ) arg4 fullShare (k1_pay2 x mm lz e)) -∗ K ⟨⟩))
      ⊢ wp frame (wpE (defs₀ (F := F)) Variants.none c none) E (cc1__entropy_kernel i arg1 harg1 arg2 harg2 arg3 harg3 arg4 harg4) K := by
  simp only [cc1__entropy_kernel_eq_skeleton]; unfold cc1__entropy_kernel_skel
  unfold owns
  iintro ⟨⟨%f1, %hf1, H1⟩, ⟨%f2, %hf2, H2⟩, ⟨%f3, %hf3, H3⟩, ⟨%f4, %hf4, H4⟩, Hk⟩
  obtain rfl := harg1.eq_unread hf1; obtain rfl := harg2.eq_unread hf2
  obtain rfl := harg3.eq_unread hf3; obtain rfl := harg4.eq_unread hf4
  sl_exec (disch := first | exact h1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  iexists _; isplitr
  swap; · iexact H4
  ipureintro
  rw [View.read_writes_eq_canon _ _ _ (fun y => ⟨_, List.mem_singleton_self _, View.mem_set_unit_zero hz2 inb_S4x256_S4x256_0_0 y⟩),
    View.canon_unit_zero hz2]
  simp only [View.readAt_eq_ld, harg1.read_unread, harg2.read_unread, harg3.read_unread, harg4.read_unread,
    View.ld_unit_zero (S := S4x256x1024) hz3, View.ld_unit_zero (S := S4x256) hz2]

end Cert.KernelIdeal.Hand

end
-- ==== Proof.KI.Oblig1.lean ====
/-
  Region 1's body obligation: at every grid point the entropy kernel, called on the windows' current staging
  buffers, leaves the three inputs as it found them (the logits' block of the point; the row maxima; the row
  log-sums, both fetched once) and the result block at the accumulator after the point: at the first point from
  the reset, afterwards from what the point before left (the block is written back only after the last point).
-/
import proofs.«419102_j73229192397434_1_alg».proof.Proof.KI.Steps
import proofs.«419102_j73229192397434_1_alg».proof.Proof.KI.Body1
import Idealize.ShloMosaic.Lib.Pipeline.Frame
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each window's current buffer -/

/-- No block of the logits' window overhangs its array: on every axis the block of every point ends inside. -/
theorem clip1_0 : ∀ (i : cfg1.grid.Coords) (a : Fin (cfg1.win 0).shape.rank), (cfg1.win 0).clip i a = none := by
  decide +kernel

/-- The logits' buffer holds the block the last fetch brought. -/
theorem before1_0 (c : Dev nD) (t : Fin cfg1.N) (d) : (dat1 V c).before 0 t d = xin1 V c t.val t.isLt :=
  Dat.before_eq_heldIn (dat1 V c) 0 rfl (fun _ => rfl) clip1_0 (after1_0 V c) t d

/-- The maxima's buffer holds the one block, fetched at the first point. -/
theorem before1_1 (c : Dev nD) (t : Fin cfg1.N) (d) : (dat1 V c).before 1 t d = mm1 V c t.val t.isLt :=
  Dat.before_eq_heldIn (dat1 V c) 1 rfl (fun _ => rfl) (fun _ _ => rfl) (after1_1 V c) t d

/-- The log-sums' buffer holds the one block, fetched at the first point. -/
theorem before1_2 (c : Dev nD) (t : Fin cfg1.N) (d) : (dat1 V c).before 2 t d = lz1 V c t.val t.isLt :=
  Dat.before_eq_heldIn (dat1 V c) 2 rfl (fun _ => rfl) (fun _ _ => rfl) (after1_2 V c) t d

/-- At the first point the result's buffer holds whatever it was handed. -/
theorem before1_3_first (c : Dev nD) (t : Fin cfg1.N) (h0 : t.val = 0) (d) : (dat1 V c).before 3 t d = d :=
  Dat.before_out_reset (dat1 V c) 3 rfl t (.inl h0) d

/-- The accumulator does not depend on how its index is spelt. -/
theorem ent1_congr (c : Dev nD) (m k : ℕ) (hm : m ≤ cfg1.N) (hk : k ≤ cfg1.N) (h : m = k) :
    ent1 V c m hm = ent1 V c k hk := by
  subst h; rfl

/-- At a later point the result's buffer holds the accumulator after the point before: the block is not written
    back between two points of the grid, the last excepted. -/
theorem before1_3_rest (c : Dev nD) (t : Fin cfg1.N) (h0 : t.val ≠ 0) (d) :
    (dat1 V c).before 3 t d = ent1 V c t.val (Nat.le_of_lt t.isLt) := by
  have hN : t.val < 128 := lt_of_lt_of_eq t.isLt (show cfg1.N = 128 from N_1)
  rw [Dat.before_out_kept (dat1 V c) 3 rfl t h0
    (Bool.eq_false_iff.mpr fun h => by have := (flush1_3 _).mp h; dsimp only at this; omega)
    (fun _ => rfl) (fun _ _ => rfl) d, after1_3]
  exact ent1_congr V c _ _ _ _ (by dsimp only; omega)

/-- The accumulator before the first point is the reset value. -/
theorem ent1_first (c : Dev nD) (t : Fin cfg1.N) (h0 : t.val = 0) : ent1 V c t.val (Nat.le_of_lt t.isLt) = k1_pay1 :=
  (ent1_congr V c _ 0 _ (Nat.zero_le _) h0).trans (ent1_zero V c _)

/-! ## The body at one point, over any four whole memrefs -/

/-- The first point, with the invariant and the core's debts carried along. -/
theorem point1_first (c : Dev nD) (i : grid1.Coords) (h1 : e1 i = 1#1)
    (arg1 : Memref sig .tc .vmem S4x256x1024 .f32) (harg1 : arg1.IsWhole) (arg2 : Memref sig .tc .vmem S4x256 .f32) (harg2 : arg2.IsWhole)
    (arg3 : Memref sig .tc .vmem S4x256 .f32) (harg3 : arg3.IsWhole) (arg4 : Memref sig .tc .vmem S4x256 .f32) (harg4 : arg4.IsWhole)
    (x : Vec F S4x256x1024 .f32) (mm lz : Vec F S4x256 .f32) (P O : sProp 𝕄) :
    iprop(P ∗ O ∗ (∃ d : S4x256x1024.Idx → Elt F .f32, owns (c : Thread nD τ) arg1 fullShare x)
        ∗ (∃ d : S4x256.Idx → Elt F .f32, owns (c : Thread nD τ) arg2 fullShare mm)
        ∗ (∃ d : S4x256.Idx → Elt F .f32, owns (c : Thread nD τ) arg3 fullShare lz)
        ∗ (∃ d : S4x256.Idx → Elt F .f32, owns (c : Thread nD τ) arg4 fullShare d))
      ⊢ wp frame (wpE (defs₀ (F := F)) Variants.none c none) Set.univ (cc1__entropy_kernel i arg1 harg1 arg2 harg2 arg3 harg3 arg4 harg4)
          (fun _ => iprop(P ∗ O ∗ owns (c : Thread nD τ) arg1 fullShare x ∗ owns (c : Thread nD τ) arg2 fullShare mm
            ∗ owns (c : Thread nD τ) arg3 fullShare lz ∗ owns (c : Thread nD τ) arg4 fullShare (k1_pay2 x mm lz k1_pay1))) := by
  iintro ⟨HP, HO, ⟨%d1, H1⟩, ⟨%d2, H2⟩, ⟨%d3, H3⟩, ⟨%d4, H4⟩⟩
  iapply (run1_first c Set.univ i h1 arg1 harg1 arg2 harg2 arg3 harg3 arg4 harg4 x mm lz _)
  isplitl [H1]; · iexact H1
  isplitl [H2]; · iexact H2
  isplitl [H3]; · iexact H3
  isplitl [H4]; · iexists _; iexact H4
  iintro ⟨H1, H2, H3, H4⟩
  isplitl [HP]; · iexact HP
  isplitl [HO]; · iexact HO
  isplitl [H1]; · iexact H1
  isplitl [H2]; · iexact H2
  isplitl [H3]; · iexact H3
  iexact H4

/-- A later point, with the invariant and the core's debts carried along. -/
theorem point1_rest (c : Dev nD) (i : grid1.Coords) (h1 : ¬ e1 i = 1#1)
    (arg1 : Memref sig .tc .vmem S4x256x1024 .f32) (harg1 : arg1.IsWhole) (arg2 : Memref sig .tc .vmem S4x256 .f32) (harg2 : arg2.IsWhole)
    (arg3 : Memref sig .tc .vmem S4x256 .f32) (harg3 : arg3.IsWhole) (arg4 : Memref sig .tc .vmem S4x256 .f32) (harg4 : arg4.IsWhole)
    (x : Vec F S4x256x1024 .f32) (mm lz e : Vec F S4x256 .f32) (P O : sProp 𝕄) :
    iprop(P ∗ O ∗ (∃ d : S4x256x1024.Idx → Elt F .f32, owns (c : Thread nD τ) arg1 fullShare x)
        ∗ (∃ d : S4x256.Idx → Elt F .f32, owns (c : Thread nD τ) arg2 fullShare mm)
        ∗ (∃ d : S4x256.Idx → Elt F .f32, owns (c : Thread nD τ) arg3 fullShare lz)
        ∗ (∃ d : S4x256.Idx → Elt F .f32, owns (c : Thread nD τ) arg4 fullShare e))
      ⊢ wp frame (wpE (defs₀ (F := F)) Variants.none c none) Set.univ (cc1__entropy_kernel i arg1 harg1 arg2 harg2 arg3 harg3 arg4 harg4)
          (fun _ => iprop(P ∗ O ∗ owns (c : Thread nD τ) arg1 fullShare x ∗ owns (c : Thread nD τ) arg2 fullShare mm
            ∗ owns (c : Thread nD τ) arg3 fullShare lz ∗ owns (c : Thread nD τ) arg4 fullShare (k1_pay2 x mm lz e))) := by
  iintro ⟨HP, HO, ⟨%d1, H1⟩, ⟨%d2, H2⟩, ⟨%d3, H3⟩, ⟨%d4, H4⟩⟩
  iapply (run1_rest c Set.univ i h1 arg1 harg1 arg2 harg2 arg3 harg3 arg4 harg4 x mm lz e _)
  isplitl [H1]; · iexact H1
  isplitl [H2]; · iexact H2
  isplitl [H3]; · iexact H3
  isplitl [H4]; · iexact H4
  iintro ⟨H1, H2, H3, H4⟩
  isplitl [HP]; · iexact HP
  isplitl [HO]; · iexact HO
  isplitl [H1]; · iexact H1
  isplitl [H2]; · iexact H2
  isplitl [H3]; · iexact H3
  iexact H4

/-! ## The body obligation -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold the blocks the last fetches brought; the result's buffer holds
    anything at the first point and the accumulator so far at a later one; the invariant passes through unread
    and the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, ent1_succ]
  by_cases h0 : t.val = 0
  · simp only [before1_3_first V c t h0]
    rw [ent1_first V c t h0]
    exact point1_first c (grid1.coords t) ((e1_iff t).mpr h0) _ _ _ _ _ _ _ _ _ _ _ _ _
  · simp only [before1_3_rest V c t h0]
    exact point1_rest c (grid1.coords t) (fun h => h0 ((e1_iff t).mp h)) _ _ _ _ _ _ _ _ _ _ _ _ _ _

/-- The library's body obligation for region 1, at every point. -/
theorem body_obligation1 (c : Dev nD) :
    BodyObligation (dat1 (F := F) V c) (defs₀ (F := F)) Variants.none () Set.univ := fun t => by
  rw [bigSep_W1, bigSep_W1]
  exact sound_body1 V c t

end Cert.KernelIdeal.Hand

end
-- ==== Proof.KI.Outs.lean ====
/-
  What the kernel's program leaves in its result buffers, read off the fold of buffer contents through @main:
  region 0's three result arrays are the last point's stores (each result block is the whole array and is written
  back once, after the last point), region 1's result array is the accumulator after the last point, the inputs
  the regions read are the launch's logits and the slice of the token ids, and the four results of @main are the
  closing host operations (tLoss, tAvg, tTrunc) of the log-probabilities, the entropies, the advantages and the mask.
-/
import proofs.«419102_j73229192397434_1_alg».proof.Proof.KI.Vals
import Idealize.ShloMosaic.Lib.StableHlo.Run
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The kernel's log-probabilities and entropies. -/
def logpK (c : Dev nD) : Vec F S4x256 .f32 := (fin0 (V1 m) c).1
def entK (c : Dev nD) : Vec F S4x256 .f32 := ent1 (V2 m) c cfg1.N (Nat.le_refl _)

/-- The mask: the labels from column 1 on. -/
def maskK (c : Dev nD) : IVec S4x256 32 :=
  extractStridedSlice S4x256 ![0, 1] (m ((c : Thread nD τ).loc main_arg3)) slices_S4x257_S4x256_0_1

/-! ## The result arrays: one block, the whole array, written back once -/

section Arrays

variable (V : (c : Dev nD) → (b : Ref sig .tc) → Buf (Elt F) ((c : Thread nD τ).loc b))

/-- The result windows' index maps are constantly (0, 0). -/
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx1_3 : ∀ t : Fin cfg1.N, win1_3.index t (0 : Fin 2) = 0 ∧ win1_3.index t (1 : Fin 2) = 0 :=
  (by decide +kernel : ∀ t : Fin grid1.N, _)

/-- So a position inside the block is the same position of the array, -/
theorem emb0_2 (t : Fin cfg0.N) (j : S4x256.Idx) : ((cfg0.win 2).blk t).view.emb j = j := by
  obtain ⟨e0, e1⟩ := idx0_2 t
  funext a; apply Fin.ext
  match a with
  | ⟨0, _⟩ => show win0_2.index t (0 : Fin 2) * 4 + 1 * (j 0).val = (j 0).val; omega
  | ⟨1, _⟩ => show win0_2.index t (1 : Fin 2) * 256 + 1 * (j 1).val = (j 1).val; omega
theorem emb0_3 (t : Fin cfg0.N) (j : S4x256.Idx) : ((cfg0.win 3).blk t).view.emb j = j := by
  obtain ⟨e0, e1⟩ := idx0_3 t
  funext a; apply Fin.ext
  match a with
  | ⟨0, _⟩ => show win0_3.index t (0 : Fin 2) * 4 + 1 * (j 0).val = (j 0).val; omega
  | ⟨1, _⟩ => show win0_3.index t (1 : Fin 2) * 256 + 1 * (j 1).val = (j 1).val; omega
theorem emb0_4 (t : Fin cfg0.N) (j : S4x256.Idx) : ((cfg0.win 4).blk t).view.emb j = j := by
  obtain ⟨e0, e1⟩ := idx0_4 t
  funext a; apply Fin.ext
  match a with
  | ⟨0, _⟩ => show win0_4.index t (0 : Fin 2) * 4 + 1 * (j 0).val = (j 0).val; omega
  | ⟨1, _⟩ => show win0_4.index t (1 : Fin 2) * 256 + 1 * (j 1).val = (j 1).val; omega
theorem emb1_3 (t : Fin cfg1.N) (j : S4x256.Idx) : ((cfg1.win 3).blk t).view.emb j = j := by
  obtain ⟨e0, e1⟩ := idx1_3 t
  funext a; apply Fin.ext
  match a with
  | ⟨0, _⟩ => show win1_3.index t (0 : Fin 2) * 4 + 1 * (j 0).val = (j 0).val; omega
  | ⟨1, _⟩ => show win1_3.index t (1 : Fin 2) * 256 + 1 * (j 1).val = (j 1).val; omega

/-- and every position of the array lies in the block. -/
theorem mem0_2 (t : Fin cfg0.N) (i : S4x256.Idx) : i ∈ ((cfg0.win 2).blk t).view.set := by
  obtain ⟨e0, e1⟩ := idx0_2 t
  show i ∈ ((View.whole main_v2_0).slice (win0_2.rect t)).set
  rw [View.set_slice_whole, Rect.mem_set_unit]
  intro a
  match a with
  | ⟨0, _⟩ => show win0_2.index t (0 : Fin 2) * 4 ≤ (i 0).val ∧ (i 0).val < win0_2.index t (0 : Fin 2) * 4 + 4; have hi : (i 0).val < 4 := (i 0).isLt; omega
  | ⟨1, _⟩ => show win0_2.index t (1 : Fin 2) * 256 ≤ (i 1).val ∧ (i 1).val < win0_2.index t (1 : Fin 2) * 256 + 256; have hi : (i 1).val < 256 := (i 1).isLt; omega
theorem mem0_3 (t : Fin cfg0.N) (i : S4x256.Idx) : i ∈ ((cfg0.win 3).blk t).view.set := by
  obtain ⟨e0, e1⟩ := idx0_3 t
  show i ∈ ((View.whole main_v2_1).slice (win0_3.rect t)).set
  rw [View.set_slice_whole, Rect.mem_set_unit]
  intro a
  match a with
  | ⟨0, _⟩ => show win0_3.index t (0 : Fin 2) * 4 ≤ (i 0).val ∧ (i 0).val < win0_3.index t (0 : Fin 2) * 4 + 4; have hi : (i 0).val < 4 := (i 0).isLt; omega
  | ⟨1, _⟩ => show win0_3.index t (1 : Fin 2) * 256 ≤ (i 1).val ∧ (i 1).val < win0_3.index t (1 : Fin 2) * 256 + 256; have hi : (i 1).val < 256 := (i 1).isLt; omega
theorem mem0_4 (t : Fin cfg0.N) (i : S4x256.Idx) : i ∈ ((cfg0.win 4).blk t).view.set := by
  obtain ⟨e0, e1⟩ := idx0_4 t
  show i ∈ ((View.whole main_v2_2).slice (win0_4.rect t)).set
  rw [View.set_slice_whole, Rect.mem_set_unit]
  intro a
  match a with
  | ⟨0, _⟩ => show win0_4.index t (0 : Fin 2) * 4 ≤ (i 0).val ∧ (i 0).val < win0_4.index t (0 : Fin 2) * 4 + 4; have hi : (i 0).val < 4 := (i 0).isLt; omega
  | ⟨1, _⟩ => show win0_4.index t (1 : Fin 2) * 256 ≤ (i 1).val ∧ (i 1).val < win0_4.index t (1 : Fin 2) * 256 + 256; have hi : (i 1).val < 256 := (i 1).isLt; omega
theorem mem1_3 (t : Fin cfg1.N) (i : S4x256.Idx) : i ∈ ((cfg1.win 3).blk t).view.set := by
  obtain ⟨e0, e1⟩ := idx1_3 t
  show i ∈ ((View.whole main_v3).slice (win1_3.rect t)).set
  rw [View.set_slice_whole, Rect.mem_set_unit]
  intro a
  match a with
  | ⟨0, _⟩ => show win1_3.index t (0 : Fin 2) * 4 ≤ (i 0).val ∧ (i 0).val < win1_3.index t (0 : Fin 2) * 4 + 4; have hi : (i 0).val < 4 := (i 0).isLt; omega
  | ⟨1, _⟩ => show win1_3.index t (1 : Fin 2) * 256 ≤ (i 1).val ∧ (i 1).val < win1_3.index t (1 : Fin 2) * 256 + 256; have hi : (i 1).val < 256 := (i 1).isLt; omega

/-- Region 0's result arrays end at the last point's stores: the one write-back, after the last point, covers each. -/
theorem arr0_2 (c : Dev nD) : (dat0 V c).arrAt 2 cfg0.N = (fin0 V c).1 := by
  refine (dat0 V c).arrAt_eq_of_cover 2 _ (fun t _ => ?_) (fun i => ⟨⟨127, by decide⟩, (flush0_2 _).mpr rfl, mem0_2 _ i⟩)
  show (cfg0.win 2).cut (grid0.coords t) ((dat0 V c).after 2 t) = _
  rw [after0_2]
  funext j
  show (fin0 V c).1 j = (fin0 V c).1 (((cfg0.win 2).blk t).view.emb j)
  rw [emb0_2]
theorem arr0_3 (c : Dev nD) : (dat0 V c).arrAt 3 cfg0.N = (fin0 V c).2.1 := by
  refine (dat0 V c).arrAt_eq_of_cover 3 _ (fun t _ => ?_) (fun i => ⟨⟨127, by decide⟩, (flush0_3 _).mpr rfl, mem0_3 _ i⟩)
  show (cfg0.win 3).cut (grid0.coords t) ((dat0 V c).after 3 t) = _
  rw [after0_3]
  funext j
  show (fin0 V c).2.1 j = (fin0 V c).2.1 (((cfg0.win 3).blk t).view.emb j)
  rw [emb0_3]
theorem arr0_4 (c : Dev nD) : (dat0 V c).arrAt 4 cfg0.N = (fin0 V c).2.2 := by
  refine (dat0 V c).arrAt_eq_of_cover 4 _ (fun t _ => ?_) (fun i => ⟨⟨127, by decide⟩, (flush0_4 _).mpr rfl, mem0_4 _ i⟩)
  show (cfg0.win 4).cut (grid0.coords t) ((dat0 V c).after 4 t) = _
  rw [after0_4]
  funext j
  show (fin0 V c).2.2 j = (fin0 V c).2.2 (((cfg0.win 4).blk t).view.emb j)
  rw [emb0_4]

/-- The accumulator does not depend on how its index is spelt. -/
theorem ent1_idx (c : Dev nD) (n k : ℕ) (hn : n ≤ cfg1.N) (hk : k ≤ cfg1.N) (h : n = k) : ent1 V c n hn = ent1 V c k hk := by
  subst h; rfl

/-- Region 1's result array ends at the accumulator after the last point. -/
theorem arr1_3 (c : Dev nD) : (dat1 V c).arrAt 3 cfg1.N = ent1 V c cfg1.N (Nat.le_refl _) := by
  refine (dat1 V c).arrAt_eq_of_cover 3 _ (fun t ht => ?_) (fun i => ⟨⟨127, by decide⟩, (flush1_3 _).mpr rfl, mem1_3 _ i⟩)
  have h127 : t.val + 1 = cfg1.N := by
    have hN : t.val < 128 := lt_of_lt_of_eq t.isLt (show cfg1.N = 128 from N_1)
    have := (flush1_3 t).mp ht
    rw [show cfg1.N = 128 from N_1]; omega
  show (cfg1.win 3).cut (grid1.coords t) ((dat1 V c).after 3 t) = _
  rw [after1_3, ent1_idx V c _ cfg1.N _ (Nat.le_refl _) h127]
  funext j
  show ent1 V c cfg1.N (Nat.le_refl _) j = ent1 V c cfg1.N (Nat.le_refl _) (((cfg1.win 3).blk t).view.emb j)
  rw [emb1_3]

end Arrays

/-- Region 0 reads the launch's logits and the token ids from column 1 on. -/
theorem A0_logits (c : Dev nD) : A0 (V1 m) c 0 = m ((c : Thread nD τ).loc main_arg0) := by
  show StableHlo.after hostOps0 (W0 m c) (Proc.devRef .tc main_arg0) = _
  after_results
theorem A0_ids (c : Dev nD) :
    A0 (V1 m) c 1 = extractStridedSlice S4x256 ![0, 1] (m ((c : Thread nD τ).loc main_arg2)) slices_S4x257_S4x256_0_1 := by
  show StableHlo.after hostOps0 (W0 m c) (Proc.devRef .tc main_v0) = _
  after_results

/-- Region 1 reads the launch's logits, and region 0's maxima and log-sums. -/
theorem A1_logits (c : Dev nD) : A1 (V2 m) c 0 = m ((c : Thread nD τ).loc main_arg0) :=
  (W2_arr m c 0).trans (((dat0 (V1 m) c).arrAt_in 0 rfl _).trans (A0_logits m c))
theorem A1_max (c : Dev nD) : A1 (V2 m) c 1 = (fin0 (V1 m) c).2.1 :=
  (W2_arr m c 3).trans (arr0_3 (V1 m) c)
theorem A1_lse (c : Dev nD) : A1 (V2 m) c 2 = (fin0 (V1 m) c).2.2 :=
  (W2_arr m c 4).trans (arr0_4 (V1 m) c)

/-- The closing host operations, as functions of the log-probabilities L (resp. the entropies E), the advantages
    and the mask: the loss; the masked entropy average; the entropy average over the valid positions ranked 4 to 100. -/
def tLoss (L : Vec F S4x256 .f32) (adv : Vec F S4 .f32) (mk : IVec S4x256 32) : Vec F S_ .f32 :=
  let v4 : Vec F S4x256 .f32 := subf L L
  let v5 : Vec F S4x256 .f32 := Host.exp v4
  let cst : Vec F S_ .f32 := constant S_ .f32 0x3F4CCCCD#32
  let cst_0 : Vec F S_ .f32 := constant S_ .f32 0x3FA66666#32
  let call0_v0 : Vec F S_ .f32 := id cst
  let call0_v1 : Vec F S4x256 .f32 := broadcastInDim S4x256 ![] bcast_S_S4x256 call0_v0
  let call0_v2 : Vec F S4x256 .f32 := maximumf call0_v1 v5
  let call0_v3 : Vec F S_ .f32 := id cst_0
  let call0_v4 : Vec F S4x256 .f32 := broadcastInDim S4x256 ![] bcast_S_S4x256 call0_v3
  let v6 : Vec F S4x256 .f32 := minimumf call0_v4 call0_v2
  let v7 : Vec F S4x1 .f32 := broadcastInDim S4x1 ![0] bcast_S4_S4x1_0 adv
  let v8 : Vec F S4x256 .f32 := broadcastInDim S4x256 ![0, 1] bcast_S4x1_S4x256_0_1 v7
  let v9 : Vec F S4x256 .f32 := mulf v5 v8
  let v10 : Vec F S4x256 .f32 := broadcastInDim S4x256 ![0, 1] bcast_S4x1_S4x256_0_1 v7
  let v11 : Vec F S4x256 .f32 := mulf v6 v10
  let v12 : Vec F S4x256 .f32 := minimumf v9 v11
  let v13 : Vec F S4x256 .f32 := Host.negf v12
  let v14 : Vec F S4x256 .f32 := sitofp .f32 mk
  let cst_7 : Vec F S_ .f32 := constant S_ .f32 0x00000000#32
  let v33 : Vec F S_ .f32 := Host.reduceAdd v14 cst_7 reducesTo_S4x256_S_d0_1 h_S_
  let v34 : Vec F S4x256 .f32 := mulf v13 v14
  let cst_8 : Vec F S_ .f32 := constant S_ .f32 0x00000000#32
  let v35 : Vec F S_ .f32 := Host.reduceAdd v34 cst_8 reducesTo_S4x256_S_d0_1 h_S_
  Host.divf v35 v33
def tAvg (E : Vec F S4x256 .f32) (mk : IVec S4x256 32) : Vec F S4 .f32 :=
  let v14 : Vec F S4x256 .f32 := sitofp .f32 mk
  let v15 : Vec F S4x256 .f32 := mulf E v14
  let cst_1 : Vec F S_ .f32 := constant S_ .f32 0x00000000#32
  let v16 : Vec F S4 .f32 := Host.reduceAdd v15 cst_1 reducesTo_S4x256_S4_d1 h_S_
  let cst_2 : Vec F S_ .f32 := constant S_ .f32 0x00000000#32
  let v17 : Vec F S4 .f32 := Host.reduceAdd v14 cst_2 reducesTo_S4x256_S4_d1 h_S_
  Host.divf v16 v17
def tTrunc (E : Vec F S4x256 .f32) (mk : IVec S4x256 32) : Vec F S4 .f32 :=
  let c1 : IVec S_ 32 := constantI S_ 32 1#32
  let v19 : IVec S4x256 32 := broadcastInDim S4x256 ![] bcast_S_S4x256 c1
  let v20 : IVec S4x256 1 := cmpi .eq mk v19
  let call1_v0 : IVec S4x256 32 := extui 32 v20 natLt_1_32
  let call1_call0_c : IVec S_ 32 := constantI S_ 32 0#32
  let call1_call0_v0 : IVec S_ 32 := broadcastInDim S_ ![] bcast_S_S_ call1_call0_c
  let v21 : IVec S4x256 32 := Host.reduceWindow IntOp.addi ![1, 256] ![1, 1] ![0, 255] ![0, 0] call1_v0 call1_call0_v0 reduceWindows_S4x256_S4x256_w1s1p0_0_w256s1p255_0 h_S_
  let c_3 : IVec S_ 32 := constantI S_ 32 4#32
  let v22 : IVec S4x256 32 := broadcastInDim S4x256 ![] bcast_S_S4x256 c_3
  let v23 : IVec S4x256 1 := cmpi .sge v21 v22
  let v24 : IVec S4x256 1 := andi v20 v23
  let c_4 : IVec S_ 32 := constantI S_ 32 100#32
  let v25 : IVec S4x256 32 := broadcastInDim S4x256 ![] bcast_S_S4x256 c_4
  let v26 : IVec S4x256 1 := cmpi .sle v21 v25
  let v27 : IVec S4x256 1 := andi v24 v26
  let v28 : Vec F S4x256 .f32 := uitofp .f32 v27
  let v29 : Vec F S4x256 .f32 := mulf E v28
  let cst_5 : Vec F S_ .f32 := constant S_ .f32 0x00000000#32
  let v30 : Vec F S4 .f32 := Host.reduceAdd v29 cst_5 reducesTo_S4x256_S4_d1 h_S_
  let cst_6 : Vec F S_ .f32 := constant S_ .f32 0x00000000#32
  let v31 : Vec F S4 .f32 := Host.reduceAdd v28 cst_6 reducesTo_S4x256_S4_d1 h_S_
  Host.divf v30 v31

/-! ## The closing host operations, from any contents of the buffers they read -/

/-- None of them writes the log-probabilities' buffer. -/
theorem logp_of (X : Valuation τ sig (Elt F)) :
    StableHlo.after hostOps2_4 (StableHlo.after hostOps2_3 (StableHlo.after hostOps2_2 (StableHlo.after hostOps2_1 (StableHlo.after hostOps2 X))))
        (Proc.devRef .tc main_v2_0) = X (Proc.devRef .tc main_v2_0) := by
  after_results_simp

/-- The loss is tLoss of the log-probabilities, the advantages and the mask. -/
theorem loss_of (X : Valuation τ sig (Elt F)) :
    StableHlo.after hostOps2_4 (StableHlo.after hostOps2_3 (StableHlo.after hostOps2_2 (StableHlo.after hostOps2_1 (StableHlo.after hostOps2 X))))
        (Proc.devRef .tc main_v36)
      = tLoss (X (Proc.devRef .tc main_v2_0)) (X (Proc.devRef .tc main_arg1)) (X (Proc.devRef .tc main_v1)) := by
  after_results_simp
  rfl

/-- The masked entropy average is tAvg of the entropies and the mask. -/
theorem avg_of (X : Valuation τ sig (Elt F)) :
    StableHlo.after hostOps2_4 (StableHlo.after hostOps2_3 (StableHlo.after hostOps2_2 (StableHlo.after hostOps2_1 (StableHlo.after hostOps2 X))))
        (Proc.devRef .tc main_v18) = tAvg (X (Proc.devRef .tc main_v3)) (X (Proc.devRef .tc main_v1)) := by
  after_results_simp
  rfl

/-- The truncated entropy average is tTrunc of the entropies and the mask: the typed references of the prefix-sum
    function carry their contents unchanged. -/
theorem trunc_of (X : Valuation τ sig (Elt F)) :
    StableHlo.after hostOps2_4 (StableHlo.after hostOps2_3 (StableHlo.after hostOps2_2 (StableHlo.after hostOps2_1 (StableHlo.after hostOps2 X))))
        (Proc.devRef .tc main_v32) = tTrunc (X (Proc.devRef .tc main_v3)) (X (Proc.devRef .tc main_v1)) := by
  after_results_simp
  simp only [StableHlo.TRef.ofBuf, StableHlo.TRef.toBuf, cast_eq]
  rfl

/-! ## What the closing operations read, at region 1's exit -/

/-- The log-probabilities: region 0's first result array, which region 1 does not touch. -/
theorem W3_logp (c : Dev nD) : W3 m c (Proc.devRef .tc main_v2_0) = logpK m c :=
  (W3_of_ne m c main_v2_0 (fun w => by fin_cases w <;> decide)).trans ((W2_arr m c 2).trans (arr0_2 (V1 m) c))

/-- The entropies: region 1's result array. -/
theorem W3_ent (c : Dev nD) : W3 m c (Proc.devRef .tc main_v3) = entK m c :=
  (W3_arr m c 3).trans (arr1_3 (V2 m) c)

/-- The advantages: as launched. -/
theorem W3_adv (c : Dev nD) : W3 m c (Proc.devRef .tc main_arg1) = m ((c : Thread nD τ).loc main_arg1) := by
  refine (W3_of_ne m c main_arg1 (fun w => by fin_cases w <;> decide)).trans
    ((W2_of_ne m c main_arg1 (fun w => by fin_cases w <;> decide)).trans ?_)
  show StableHlo.after hostOps0 (W0 m c) (Proc.devRef .tc main_arg1) = _
  after_results

/-- The mask: the second slice, which neither region touches. -/
theorem W3_mask (c : Dev nD) : W3 m c (Proc.devRef .tc main_v1) = maskK m c := by
  refine (W3_of_ne m c main_v1 (fun w => by fin_cases w <;> decide)).trans
    ((W2_of_ne m c main_v1 (fun w => by fin_cases w <;> decide)).trans ?_)
  show StableHlo.after hostOps0 (W0 m c) (Proc.devRef .tc main_v1)
    = extractStridedSlice S4x256 ![0, 1] (m ((c : Thread nD τ).loc main_arg3)) slices_S4x257_S4x256_0_1
  after_results

/-- The four results of @main at the last boundary. -/
theorem W8_loss (c : Dev nD) :
    W8 m c (Proc.devRef .tc main_v36) = tLoss (logpK m c) (m ((c : Thread nD τ).loc main_arg1)) (maskK m c) :=
  (loss_of (W3 m c)).trans (by rw [W3_logp, W3_adv, W3_mask])
theorem W8_logp (c : Dev nD) : W8 m c (Proc.devRef .tc main_v2_0) = logpK m c :=
  (logp_of (W3 m c)).trans (W3_logp m c)
theorem W8_avg (c : Dev nD) : W8 m c (Proc.devRef .tc main_v18) = tAvg (entK m c) (maskK m c) :=
  (avg_of (W3 m c)).trans (by rw [W3_ent, W3_mask])
theorem W8_trunc (c : Dev nD) : W8 m c (Proc.devRef .tc main_v32) = tTrunc (entK m c) (maskK m c) :=
  (trunc_of (W3 m c)).trans (by rw [W3_ent, W3_mask])

end Cert.KernelIdeal.Hand

end
-- ==== Proof.Ref.Terms.lean ====
/-
  The reference's composed terms, named: logpR (the chosen tokens' log-probabilities: log-softmax of the first 256
  rows' logits, gathered at the ids from column 1 on, divided by the temperature 1), entR (the rows' entropies),
  maskR (the labels from column 1 on), and the closing operations tLossR, tAvgR, tTruncR — each one let per printed
  host operation of @main, the four functions it calls read at their call sites.
-/
import proofs.«419102_j73229192397434_1_alg».proof.ReferenceIdeal
import proofs.«419102_j73229192397434_1_alg».proof.Proof.Gen.ReferenceIdeal
import Idealize.ShloMosaic.Lib.StableHlo.Run
import Idealize.ShloMosaic.Lib.StableHlo

noncomputable section

namespace Cert.ReferenceIdeal.Hand

open Cert.ReferenceIdeal Cert.ReferenceIdeal.Gen
open Idealize.ShloMosaic Idealize.ShloMosaic.TcCoe
open Idealize.SL Idealize.SL.Sem

variable {F : FTy → Type} [FloatOps F]

/-- The chosen tokens' log-probabilities: log-softmax of the first 256 rows' logits, gathered at the ids from
    column 1 on, divided by the temperature 1. -/
def logpR (X : Vec F S4x257x131072 .f32) (ids : IVec S4x257 32) : Vec F S4x256 .f32 :=
  let v0 : IVec S4x256 32 := extractStridedSlice S4x256 ![0, 1] ids slices_S4x257_S4x256_0_1
  let v2 : Vec F S4x256x131072 .f32 := extractStridedSlice S4x256x131072 ![0, 0, 0] X slices_S4x257x131072_S4x256x131072_0_0_0
  -- the log-softmax of the rows
  let l_cst : Vec F S_ .f32 := constant S_ .f32 0xFF800000#32
  let l_v0 : Vec F S4x256 .f32 := Host.reduce FloatOps.maximumf v2 l_cst reducesTo_S4x256x131072_S4x256_d2 h_S_
  let l_cst_0 : Vec F S_ .f32 := constant S_ .f32 0xFF800000#32
  let l_v1 : Vec F S4x256 .f32 := broadcastInDim S4x256 ![] bcast_S_S4x256 l_cst_0
  let l_v2 : Vec F S4x256 .f32 := maximumf l_v1 l_v0
  let l_v3 : Vec F S4x256x1 .f32 := broadcastInDim S4x256x1 ![0, 1] bcast_S4x256_S4x256x1_0_1 l_v2
  let l_v4 : Vec F S4x256x131072 .f32 := broadcastInDim S4x256x131072 ![0, 1, 2] bcast_S4x256x1_S4x256x131072_0_1_2 l_v3
  let l_v5 : Vec F S4x256x131072 .f32 := subf v2 l_v4
  let l_v6 : Vec F S4x256x131072 .f32 := Host.exp l_v5
  let l_cst_1 : Vec F S_ .f32 := constant S_ .f32 0x00000000#32
  let l_v7 : Vec F S4x256 .f32 := Host.reduceAdd l_v6 l_cst_1 reducesTo_S4x256x131072_S4x256_d2 h_S_
  let l_v8 : Vec F S4x256x1 .f32 := broadcastInDim S4x256x1 ![0, 1] bcast_S4x256_S4x256x1_0_1 l_v7
  let l_v9 : Vec F S4x256x1 .f32 := Host.log l_v8
  let l_v10 : Vec F S4x256x131072 .f32 := broadcastInDim S4x256x131072 ![0, 1, 2] bcast_S4x256x1_S4x256x131072_0_1_2 l_v9
  let v3 : Vec F S4x256x131072 .f32 := subf l_v5 l_v10
  let v4 : IVec S4x256x1 32 := broadcastInDim S4x256x1 ![0, 1] bcast_S4x256_S4x256x1_0_1 v0
  -- the gather along the vocabulary axis: a negative index wraps, an index out of range reads NaN
  let t_c : IVec S_ 32 := constantI S_ 32 0#32
  let t_v0 : IVec S4x256x1 32 := broadcastInDim S4x256x1 ![] bcast_S_S4x256x1 t_c
  let t_v1 : IVec S4x256x1 1 := cmpi .slt v4 t_v0
  let t_c_0 : IVec S_ 32 := constantI S_ 32 131072#32
  let t_v2 : IVec S4x256x1 32 := broadcastInDim S4x256x1 ![] bcast_S_S4x256x1 t_c_0
  let t_v3 : IVec S4x256x1 32 := addi v4 t_v2
  let t_v4 : IVec S4x256x1 32 := select t_v1 t_v3 v4
  let t_v5 : IVec S4x256x1x1 32 := shapeCast S4x256x1x1 t_v4 shapeCasts_S4x256x1_S4x256x1x1
  let t_c_1 : IVec S1 32 := constantI S1 32 131071#32
  let t_c_2 : IVec S_ 32 := constantI S_ 32 0#32
  let t_v6 : IVec S4x256x1x1 32 := broadcastInDim S4x256x1x1 ![] bcast_S_S4x256x1x1 t_c_2
  let t_v7 : IVec S4x256x1x1 1 := cmpi .sge t_v5 t_v6
  let t_v8 : IVec S1x1x1x1 32 := broadcastInDim S1x1x1x1 ![3] bcast_S1_S1x1x1x1_3 t_c_1
  let t_v9 : IVec S4x256x1x1 32 := broadcastInDim S4x256x1x1 ![0, 1, 2, 3] bcast_S1x1x1x1_S4x256x1x1_0_1_2_3 t_v8
  let t_v10 : IVec S4x256x1x1 1 := cmpi .sle t_v5 t_v9
  let t_v11 : IVec S4x256x1x1 1 := andi t_v7 t_v10
  let t_c_3 : IVec S_ 1 := constantI S_ 1 1#1
  let t_v12 : IVec S4x256x1 1 := Host.reduce IntOp.andi t_v11 t_c_3 reducesTo_S4x256x1x1_S4x256x1_d3 h_S_
  let t_v13 : Vec F S4x256x1 .f32 := Host.gather gather_S4x256x131072_S4x256x1x1_S4x256x1_n_2_01_01_2_3_111 v3 t_v5
  let t_cst : Vec F S_ .f32 := constant S_ .f32 0x7FC00000#32
  let t_v14 : Vec F S4x256x1 .f32 := broadcastInDim S4x256x1 ![] bcast_S_S4x256x1 t_cst
  let v5 : Vec F S4x256x1 .f32 := select t_v12 t_v13 t_v14
  let v6 : Vec F S4x256 .f32 := shapeCast S4x256 v5 shapeCasts_S4x256x1_S4x256
  let cst : Vec F S_ .f32 := constant S_ .f32 0x3F800000#32
  let v7 : Vec F S4x256 .f32 := broadcastInDim S4x256 ![] bcast_S_S4x256 cst
  Host.divf v6 v7
/-- The rows' entropies: minus the row sums of p * log (p + eps), p the softmax of the logits divided by 1. -/
def entR (X : Vec F S4x257x131072 .f32) : Vec F S4x256 .f32 :=
  let v2 : Vec F S4x256x131072 .f32 := extractStridedSlice S4x256x131072 ![0, 0, 0] X slices_S4x257x131072_S4x256x131072_0_0_0
  let cst_2 : Vec F S_ .f32 := constant S_ .f32 0x3F800000#32
  let v19 : Vec F S4x256x131072 .f32 := broadcastInDim S4x256x131072 ![] bcast_S_S4x256x131072 cst_2
  let v20 : Vec F S4x256x131072 .f32 := Host.divf v2 v19
  let cst_3 : Vec F S_ .f32 := constant S_ .f32 0xFF800000#32
  let v21 : Vec F S4x256 .f32 := Host.reduce FloatOps.maximumf v20 cst_3 reducesTo_S4x256x131072_S4x256_d2 h_S_
  let cst_4 : Vec F S_ .f32 := constant S_ .f32 0xFF800000#32
  let v22 : Vec F S4x256 .f32 := broadcastInDim S4x256 ![] bcast_S_S4x256 cst_4
  let v23 : Vec F S4x256 .f32 := maximumf v22 v21
  let v24 : Vec F S4x256x1 .f32 := broadcastInDim S4x256x1 ![0, 1] bcast_S4x256_S4x256x1_0_1 v23
  let v25 : Vec F S4x256x131072 .f32 := broadcastInDim S4x256x131072 ![0, 1, 2] bcast_S4x256x1_S4x256x131072_0_1_2 v24
  let v26 : Vec F S4x256x131072 .f32 := subf v20 v25
  let v27 : Vec F S4x256x131072 .f32 := Host.exp v26
  let cst_5 : Vec F S_ .f32 := constant S_ .f32 0x00000000#32
  let v28 : Vec F S4x256 .f32 := Host.reduceAdd v27 cst_5 reducesTo_S4x256x131072_S4x256_d2 h_S_
  let v29 : Vec F S4x256x1 .f32 := broadcastInDim S4x256x1 ![0, 1] bcast_S4x256_S4x256x1_0_1 v28
  let v30 : Vec F S4x256x131072 .f32 := broadcastInDim S4x256x131072 ![0, 1, 2] bcast_S4x256x1_S4x256x131072_0_1_2 v29
  let v31 : Vec F S4x256x131072 .f32 := Host.divf v27 v30
  let cst_6 : Vec F S_ .f32 := constant S_ .f32 0x3089705F#32
  let v32 : Vec F S4x256x131072 .f32 := broadcastInDim S4x256x131072 ![] bcast_S_S4x256x131072 cst_6
  let v33 : Vec F S4x256x131072 .f32 := addf v31 v32
  let v34 : Vec F S4x256x131072 .f32 := Host.log v33
  let v35 : Vec F S4x256x131072 .f32 := mulf v31 v34
  let cst_7 : Vec F S_ .f32 := constant S_ .f32 0x00000000#32
  let v36 : Vec F S4x256 .f32 := Host.reduceAdd v35 cst_7 reducesTo_S4x256x131072_S4x256_d2 h_S_
  Host.negf v36
/-- The mask: the labels from column 1 on. -/
def maskR (lab : IVec S4x257 32) : IVec S4x256 32 :=
  extractStridedSlice S4x256 ![0, 1] lab slices_S4x257_S4x256_0_1
/-- The closing host operations. -/
def tLossR (L : Vec F S4x256 .f32) (adv : Vec F S4 .f32) (mk : IVec S4x256 32) : Vec F S_ .f32 :=
  let v9 : Vec F S4x256 .f32 := subf L L
  let v10 : Vec F S4x256 .f32 := Host.exp v9
  let cst_0 : Vec F S_ .f32 := constant S_ .f32 0x3F4CCCCD#32
  let cst_1 : Vec F S_ .f32 := constant S_ .f32 0x3FA66666#32
  -- the clip of the ratio to [0.8, 1.3]
  let c_v0 : Vec F S_ .f32 := id cst_0
  let c_v1 : Vec F S4x256 .f32 := broadcastInDim S4x256 ![] bcast_S_S4x256 c_v0
  let c_v2 : Vec F S4x256 .f32 := maximumf c_v1 v10
  let c_v3 : Vec F S_ .f32 := id cst_1
  let c_v4 : Vec F S4x256 .f32 := broadcastInDim S4x256 ![] bcast_S_S4x256 c_v3
  let v11 : Vec F S4x256 .f32 := minimumf c_v4 c_v2
  let v12 : Vec F S4x1 .f32 := broadcastInDim S4x1 ![0] bcast_S4_S4x1_0 adv
  let v13 : Vec F S4x256 .f32 := broadcastInDim S4x256 ![0, 1] bcast_S4x1_S4x256_0_1 v12
  let v14 : Vec F S4x256 .f32 := mulf v10 v13
  let v15 : Vec F S4x256 .f32 := broadcastInDim S4x256 ![0, 1] bcast_S4x1_S4x256_0_1 v12
  let v16 : Vec F S4x256 .f32 := mulf v11 v15
  let v17 : Vec F S4x256 .f32 := minimumf v14 v16
  let v18 : Vec F S4x256 .f32 := Host.negf v17
  let v38 : Vec F S4x256 .f32 := sitofp .f32 mk
  let cst_14 : Vec F S_ .f32 := constant S_ .f32 0x00000000#32
  let v57 : Vec F S_ .f32 := Host.reduceAdd v38 cst_14 reducesTo_S4x256_S_d0_1 h_S_
  let v58 : Vec F S4x256 .f32 := mulf v18 v38
  let cst_15 : Vec F S_ .f32 := constant S_ .f32 0x00000000#32
  let v59 : Vec F S_ .f32 := Host.reduceAdd v58 cst_15 reducesTo_S4x256_S_d0_1 h_S_
  Host.divf v59 v57
def tAvgR (E : Vec F S4x256 .f32) (mk : IVec S4x256 32) : Vec F S4 .f32 :=
  let v38 : Vec F S4x256 .f32 := sitofp .f32 mk
  let v39 : Vec F S4x256 .f32 := mulf E v38
  let cst_8 : Vec F S_ .f32 := constant S_ .f32 0x00000000#32
  let v40 : Vec F S4 .f32 := Host.reduceAdd v39 cst_8 reducesTo_S4x256_S4_d1 h_S_
  let cst_9 : Vec F S_ .f32 := constant S_ .f32 0x00000000#32
  let v41 : Vec F S4 .f32 := Host.reduceAdd v38 cst_9 reducesTo_S4x256_S4_d1 h_S_
  Host.divf v40 v41
def tTruncR (E : Vec F S4x256 .f32) (mk : IVec S4x256 32) : Vec F S4 .f32 :=
  let c : IVec S_ 32 := constantI S_ 32 1#32
  let v43 : IVec S4x256 32 := broadcastInDim S4x256 ![] bcast_S_S4x256 c
  let v44 : IVec S4x256 1 := cmpi .eq mk v43
  -- the running count of set mask entries along a row
  let s_v0 : IVec S4x256 32 := extui 32 v44 natLt_1_32
  let s_c : IVec S_ 32 := constantI S_ 32 0#32
  let s_v0' : IVec S_ 32 := broadcastInDim S_ ![] bcast_S_S_ s_c
  let v45 : IVec S4x256 32 := Host.reduceWindow IntOp.addi ![1, 256] ![1, 1] ![0, 255] ![0, 0] s_v0 s_v0' reduceWindows_S4x256_S4x256_w1s1p0_0_w256s1p255_0 h_S_
  let c_10 : IVec S_ 32 := constantI S_ 32 4#32
  let v46 : IVec S4x256 32 := broadcastInDim S4x256 ![] bcast_S_S4x256 c_10
  let v47 : IVec S4x256 1 := cmpi .sge v45 v46
  let v48 : IVec S4x256 1 := andi v44 v47
  let c_11 : IVec S_ 32 := constantI S_ 32 100#32
  let v49 : IVec S4x256 32 := broadcastInDim S4x256 ![] bcast_S_S4x256 c_11
  let v50 : IVec S4x256 1 := cmpi .sle v45 v49
  let v51 : IVec S4x256 1 := andi v48 v50
  let v52 : Vec F S4x256 .f32 := uitofp .f32 v51
  let v53 : Vec F S4x256 .f32 := mulf E v52
  let cst_12 : Vec F S_ .f32 := constant S_ .f32 0x00000000#32
  let v54 : Vec F S4 .f32 := Host.reduceAdd v53 cst_12 reducesTo_S4x256_S4_d1 h_S_
  let cst_13 : Vec F S_ .f32 := constant S_ .f32 0x00000000#32
  let v55 : Vec F S4 .f32 := Host.reduceAdd v52 cst_13 reducesTo_S4x256_S4_d1 h_S_
  Host.divf v54 v55

end Cert.ReferenceIdeal.Hand

end
-- ==== Proof.Ref.Ops.lean ====
import proofs.«419102_j73229192397434_1_alg».proof.ReferenceIdeal
import proofs.«419102_j73229192397434_1_alg».proof.Proof.Gen.ReferenceIdeal
import Idealize.ShloMosaic.Lib.StableHlo.Run
import Idealize.ShloMosaic.Lib.StableHlo

noncomputable section

namespace Cert.ReferenceIdeal.Hand

open Cert.ReferenceIdeal Cert.ReferenceIdeal.Gen
open Idealize.ShloMosaic Idealize.ShloMosaic.TcCoe
open Idealize.SL Idealize.SL.Sem
open Idealize.ShloMosaic.StableHlo

variable {F : FTy → Type} [FloatOps F]

/-- @main's 122 operations, in order: each called function's operations stand at its call site, over that call's buffers. -/
abbrev ops : List (HloOp τ sig (Elt F)) :=
  [ StableHlo.unary main_arg2 main_v0 ((extractStridedSlice S4x256 ![0, 1] · slices_S4x257_S4x256_0_1) : (⟨S4x257, .i32⟩ : BufTy).Contents (Elt F) → (⟨S4x256, .i32⟩ : BufTy).Contents (Elt F)),
    StableHlo.unary main_arg3 main_v1 ((extractStridedSlice S4x256 ![0, 1] · slices_S4x257_S4x256_0_1) : (⟨S4x257, .i32⟩ : BufTy).Contents (Elt F) → (⟨S4x256, .i32⟩ : BufTy).Contents (Elt F)),
    StableHlo.unary main_arg0 main_v2 ((extractStridedSlice S4x256x131072 ![0, 0, 0] · slices_S4x257x131072_S4x256x131072_0_0_0) : (⟨S4x257x131072, .f32⟩ : BufTy).Contents (Elt F) → (⟨S4x256x131072, .f32⟩ : BufTy).Contents (Elt F)),
    StableHlo.TRef.nullary main_call0.cst (constant S_ .f32 0xFF800000#32),
    StableHlo.TRef.binary (.of main_v2 : StableHlo.TRef sig ⟨S4x256x131072, .f32⟩) main_call0.cst main_call0.v0 (fun x v => Host.reduce FloatOps.maximumf x v reducesTo_S4x256x131072_S4x256_d2 h_S_),
    StableHlo.TRef.nullary main_call0.cst_0 (constant S_ .f32 0xFF800000#32),
    StableHlo.TRef.unary main_call0.cst_0 main_call0.v1 (broadcastInDim S4x256 ![] bcast_S_S4x256),
    StableHlo.TRef.binary main_call0.v1 main_call0.v0 main_call0.v2 maximumf,
    StableHlo.TRef.unary main_call0.v2 main_call0.v3 (broadcastInDim S4x256x1 ![0, 1] bcast_S4x256_S4x256x1_0_1),
    StableHlo.TRef.unary main_call0.v3 main_call0.v4 (broadcastInDim S4x256x131072 ![0, 1, 2] bcast_S4x256x1_S4x256x131072_0_1_2),
    StableHlo.TRef.binary (.of main_v2 : StableHlo.TRef sig ⟨S4x256x131072, .f32⟩) main_call0.v4 main_call0.v5 subf,
    StableHlo.TRef.unary main_call0.v5 main_call0.v6 Host.exp,
    StableHlo.TRef.nullary main_call0.cst_1 (constant S_ .f32 0x00000000#32),
    StableHlo.TRef.binary main_call0.v6 main_call0.cst_1 main_call0.v7 (fun x v => Host.reduceAdd x v reducesTo_S4x256x131072_S4x256_d2 h_S_),
    StableHlo.TRef.unary main_call0.v7 main_call0.v8 (broadcastInDim S4x256x1 ![0, 1] bcast_S4x256_S4x256x1_0_1),
    StableHlo.TRef.unary main_call0.v8 main_call0.v9 Host.log,
    StableHlo.TRef.unary main_call0.v9 main_call0.v10 (broadcastInDim S4x256x131072 ![0, 1, 2] bcast_S4x256x1_S4x256x131072_0_1_2),
    StableHlo.TRef.binary main_call0.v5 main_call0.v10 main_call0.v11 subf,
    StableHlo.unary main_v0 main_v4 (broadcastInDim S4x256x1 ![0, 1] bcast_S4x256_S4x256x1_0_1 : (⟨S4x256, .i32⟩ : BufTy).Contents (Elt F) → (⟨S4x256x1, .i32⟩ : BufTy).Contents (Elt F)),
    StableHlo.TRef.nullary main_call1.c (constantI S_ 32 0#32),
    StableHlo.TRef.unary main_call1.c main_call1.v0 (broadcastInDim S4x256x1 ![] bcast_S_S4x256x1),
    StableHlo.TRef.binary (.of main_v4 : StableHlo.TRef sig ⟨S4x256x1, .i32⟩) main_call1.v0 main_call1.v1 (cmpi .slt),
    StableHlo.TRef.nullary main_call1.c_0 (constantI S_ 32 131072#32),
    StableHlo.TRef.unary main_call1.c_0 main_call1.v2 (broadcastInDim S4x256x1 ![] bcast_S_S4x256x1),
    StableHlo.TRef.binary (.of main_v4 : StableHlo.TRef sig ⟨S4x256x1, .i32⟩) main_call1.v2 main_call1.v3 addi,
    StableHlo.TRef.ternary main_call1.v1 main_call1.v3 (.of main_v4 : StableHlo.TRef sig ⟨S4x256x1, .i32⟩) main_call1.v4 select,
    StableHlo.TRef.reshape main_call1.v4 main_call1.v5 rfl shapeCasts_S4x256x1_S4x256x1x1,
    StableHlo.TRef.nullary main_call1.c_1 (constantI S1 32 131071#32),
    StableHlo.TRef.nullary main_call1.c_2 (constantI S_ 32 0#32),
    StableHlo.TRef.unary main_call1.c_2 main_call1.v6 (broadcastInDim S4x256x1x1 ![] bcast_S_S4x256x1x1),
    StableHlo.TRef.binary main_call1.v5 main_call1.v6 main_call1.v7 (cmpi .sge),
    StableHlo.TRef.unary main_call1.c_1 main_call1.v8 (broadcastInDim S1x1x1x1 ![3] bcast_S1_S1x1x1x1_3),
    StableHlo.TRef.unary main_call1.v8 main_call1.v9 (broadcastInDim S4x256x1x1 ![0, 1, 2, 3] bcast_S1x1x1x1_S4x256x1x1_0_1_2_3),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S4x256x1x1_S4x256x1_d3 h_S_),
    StableHlo.TRef.binary (.of main_v3 : StableHlo.TRef sig ⟨S4x256x131072, .f32⟩) main_call1.v5 main_call1.v13 (fun x i => Host.gather gather_S4x256x131072_S4x256x1x1_S4x256x1_n_2_01_01_2_3_111 x i),
    StableHlo.TRef.nullary main_call1.cst (constant S_ .f32 0x7FC00000#32),
    StableHlo.TRef.unary main_call1.cst main_call1.v14 (broadcastInDim S4x256x1 ![] bcast_S_S4x256x1),
    StableHlo.TRef.ternary main_call1.v12 main_call1.v13 main_call1.v14 main_call1.v15 select,
    StableHlo.reshape main_v5 main_v6 rfl shapeCasts_S4x256x1_S4x256,
    StableHlo.nullary main_cst (constant S_ .f32 0x3F800000#32),
    StableHlo.unary main_cst main_v7 (broadcastInDim S4x256 ![] bcast_S_S4x256 : (⟨S_, .f32⟩ : BufTy).Contents (Elt F) → (⟨S4x256, .f32⟩ : BufTy).Contents (Elt F)),
    StableHlo.binary main_v6 main_v7 main_v8 (Host.divf : (⟨S4x256, .f32⟩ : BufTy).Contents (Elt F) → (⟨S4x256, .f32⟩ : BufTy).Contents (Elt F) → (⟨S4x256, .f32⟩ : BufTy).Contents (Elt F)),
    StableHlo.binary main_v8 main_v8 main_v9 (subf : (⟨S4x256, .f32⟩ : BufTy).Contents (Elt F) → (⟨S4x256, .f32⟩ : BufTy).Contents (Elt F) → (⟨S4x256, .f32⟩ : BufTy).Contents (Elt F)),
    StableHlo.unary main_v9 main_v10 (Host.exp : (⟨S4x256, .f32⟩ : BufTy).Contents (Elt F) → (⟨S4x256, .f32⟩ : BufTy).Contents (Elt F)),
    StableHlo.nullary main_cst_0 (constant S_ .f32 0x3F4CCCCD#32),
    StableHlo.nullary main_cst_1 (constant S_ .f32 0x3FA66666#32),
    StableHlo.TRef.unary (.of main_cst_0 : StableHlo.TRef sig ⟨S_, .f32⟩) main_call2.v0 id,
    StableHlo.TRef.unary main_call2.v0 main_call2.v1 (broadcastInDim S4x256 ![] bcast_S_S4x256),
    StableHlo.TRef.binary main_call2.v1 (.of main_v10 : StableHlo.TRef sig ⟨S4x256, .f32⟩) main_call2.v2 maximumf,
    StableHlo.TRef.unary (.of main_cst_1 : StableHlo.TRef sig ⟨S_, .f32⟩) main_call2.v3 id,
    StableHlo.TRef.unary main_call2.v3 main_call2.v4 (broadcastInDim S4x256 ![] bcast_S_S4x256),
    StableHlo.TRef.binary main_call2.v4 main_call2.v2 main_call2.v5 minimumf,
    StableHlo.unary main_arg1 main_v12 (broadcastInDim S4x1 ![0] bcast_S4_S4x1_0 : (⟨S4, .f32⟩ : BufTy).Contents (Elt F) → (⟨S4x1, .f32⟩ : BufTy).Contents (Elt F)),
    StableHlo.unary main_v12 main_v13 (broadcastInDim S4x256 ![0, 1] bcast_S4x1_S4x256_0_1 : (⟨S4x1, .f32⟩ : BufTy).Contents (Elt F) → (⟨S4x256, .f32⟩ : BufTy).Contents (Elt F)),
    StableHlo.binary main_v10 main_v13 main_v14 (mulf : (⟨S4x256, .f32⟩ : BufTy).Contents (Elt F) → (⟨S4x256, .f32⟩ : BufTy).Contents (Elt F) → (⟨S4x256, .f32⟩ : BufTy).Contents (Elt F)),
    StableHlo.unary main_v12 main_v15 (broadcastInDim S4x256 ![0, 1] bcast_S4x1_S4x256_0_1 : (⟨S4x1, .f32⟩ : BufTy).Contents (Elt F) → (⟨S4x256, .f32⟩ : BufTy).Contents (Elt F)),
    StableHlo.binary main_v11 main_v15 main_v16 (mulf : (⟨S4x256, .f32⟩ : BufTy).Contents (Elt F) → (⟨S4x256, .f32⟩ : BufTy).Contents (Elt F) → (⟨S4x256, .f32⟩ : BufTy).Contents (Elt F)),
    StableHlo.binary main_v14 main_v16 main_v17 (minimumf : (⟨S4x256, .f32⟩ : BufTy).Contents (Elt F) → (⟨S4x256, .f32⟩ : BufTy).Contents (Elt F) → (⟨S4x256, .f32⟩ : BufTy).Contents (Elt F)),
    StableHlo.unary main_v17 main_v18 (Host.negf : (⟨S4x256, .f32⟩ : BufTy).Contents (Elt F) → (⟨S4x256, .f32⟩ : BufTy).Contents (Elt F)),
    StableHlo.nullary main_cst_2 (constant S_ .f32 0x3F800000#32),
    StableHlo.unary main_cst_2 main_v19 (broadcastInDim S4x256x131072 ![] bcast_S_S4x256x131072 : (⟨S_, .f32⟩ : BufTy).Contents (Elt F) → (⟨S4x256x131072, .f32⟩ : BufTy).Contents (Elt F)),
    StableHlo.binary main_v2 main_v19 main_v20 (Host.divf : (⟨S4x256x131072, .f32⟩ : BufTy).Contents (Elt F) → (⟨S4x256x131072, .f32⟩ : BufTy).Contents (Elt F) → (⟨S4x256x131072, .f32⟩ : BufTy).Contents (Elt F)),
    StableHlo.nullary main_cst_3 (constant S_ .f32 0xFF800000#32),
    StableHlo.binary main_v20 main_cst_3 main_v21 ((fun x v => Host.reduce FloatOps.maximumf x v reducesTo_S4x256x131072_S4x256_d2 h_S_) : (⟨S4x256x131072, .f32⟩ : BufTy).Contents (Elt F) → (⟨S_, .f32⟩ : BufTy).Contents (Elt F) → (⟨S4x256, .f32⟩ : BufTy).Contents (Elt F)),
    StableHlo.nullary main_cst_4 (constant S_ .f32 0xFF800000#32),
    StableHlo.unary main_cst_4 main_v22 (broadcastInDim S4x256 ![] bcast_S_S4x256 : (⟨S_, .f32⟩ : BufTy).Contents (Elt F) → (⟨S4x256, .f32⟩ : BufTy).Contents (Elt F)),
    StableHlo.binary main_v22 main_v21 main_v23 (maximumf : (⟨S4x256, .f32⟩ : BufTy).Contents (Elt F) → (⟨S4x256, .f32⟩ : BufTy).Contents (Elt F) → (⟨S4x256, .f32⟩ : BufTy).Contents (Elt F)),
    StableHlo.unary main_v23 main_v24 (broadcastInDim S4x256x1 ![0, 1] bcast_S4x256_S4x256x1_0_1 : (⟨S4x256, .f32⟩ : BufTy).Contents (Elt F) → (⟨S4x256x1, .f32⟩ : BufTy).Contents (Elt F)),
    StableHlo.unary main_v24 main_v25 (broadcastInDim S4x256x131072 ![0, 1, 2] bcast_S4x256x1_S4x256x131072_0_1_2 : (⟨S4x256x1, .f32⟩ : BufTy).Contents (Elt F) → (⟨S4x256x131072, .f32⟩ : BufTy).Contents (Elt F)),
    StableHlo.binary main_v20 main_v25 main_v26 (subf : (⟨S4x256x131072, .f32⟩ : BufTy).Contents (Elt F) → (⟨S4x256x131072, .f32⟩ : BufTy).Contents (Elt F) → (⟨S4x256x131072, .f32⟩ : BufTy).Contents (Elt F)),
    StableHlo.unary main_v26 main_v27 (Host.exp : (⟨S4x256x131072, .f32⟩ : BufTy).Contents (Elt F) → (⟨S4x256x131072, .f32⟩ : BufTy).Contents (Elt F)),
    StableHlo.nullary main_cst_5 (constant S_ .f32 0x00000000#32),
    StableHlo.binary main_v27 main_cst_5 main_v28 ((fun x v => Host.reduceAdd x v reducesTo_S4x256x131072_S4x256_d2 h_S_) : (⟨S4x256x131072, .f32⟩ : BufTy).Contents (Elt F) → (⟨S_, .f32⟩ : BufTy).Contents (Elt F) → (⟨S4x256, .f32⟩ : BufTy).Contents (Elt F)),
    StableHlo.unary main_v28 main_v29 (broadcastInDim S4x256x1 ![0, 1] bcast_S4x256_S4x256x1_0_1 : (⟨S4x256, .f32⟩ : BufTy).Contents (Elt F) → (⟨S4x256x1, .f32⟩ : BufTy).Contents (Elt F)),
    StableHlo.unary main_v29 main_v30 (broadcastInDim S4x256x131072 ![0, 1, 2] bcast_S4x256x1_S4x256x131072_0_1_2 : (⟨S4x256x1, .f32⟩ : BufTy).Contents (Elt F) → (⟨S4x256x131072, .f32⟩ : BufTy).Contents (Elt F)),
    StableHlo.binary main_v27 main_v30 main_v31 (Host.divf : (⟨S4x256x131072, .f32⟩ : BufTy).Contents (Elt F) → (⟨S4x256x131072, .f32⟩ : BufTy).Contents (Elt F) → (⟨S4x256x131072, .f32⟩ : BufTy).Contents (Elt F)),
    StableHlo.nullary main_cst_6 (constant S_ .f32 0x3089705F#32),
    StableHlo.unary main_cst_6 main_v32 (broadcastInDim S4x256x131072 ![] bcast_S_S4x256x131072 : (⟨S_, .f32⟩ : BufTy).Contents (Elt F) → (⟨S4x256x131072, .f32⟩ : BufTy).Contents (Elt F)),
    StableHlo.binary main_v31 main_v32 main_v33 (addf : (⟨S4x256x131072, .f32⟩ : BufTy).Contents (Elt F) → (⟨S4x256x131072, .f32⟩ : BufTy).Contents (Elt F) → (⟨S4x256x131072, .f32⟩ : BufTy).Contents (Elt F)),
    StableHlo.unary main_v33 main_v34 (Host.log : (⟨S4x256x131072, .f32⟩ : BufTy).Contents (Elt F) → (⟨S4x256x131072, .f32⟩ : BufTy).Contents (Elt F)),
    StableHlo.binary main_v31 main_v34 main_v35 (mulf : (⟨S4x256x131072, .f32⟩ : BufTy).Contents (Elt F) → (⟨S4x256x131072, .f32⟩ : BufTy).Contents (Elt F) → (⟨S4x256x131072, .f32⟩ : BufTy).Contents (Elt F)),
    StableHlo.nullary main_cst_7 (constant S_ .f32 0x00000000#32),
    StableHlo.binary main_v35 main_cst_7 main_v36 ((fun x v => Host.reduceAdd x v reducesTo_S4x256x131072_S4x256_d2 h_S_) : (⟨S4x256x131072, .f32⟩ : BufTy).Contents (Elt F) → (⟨S_, .f32⟩ : BufTy).Contents (Elt F) → (⟨S4x256, .f32⟩ : BufTy).Contents (Elt F)),
    StableHlo.unary main_v36 main_v37 (Host.negf : (⟨S4x256, .f32⟩ : BufTy).Contents (Elt F) → (⟨S4x256, .f32⟩ : BufTy).Contents (Elt F)),
    StableHlo.unary main_v1 main_v38 (sitofp .f32 : (⟨S4x256, .i32⟩ : BufTy).Contents (Elt F) → (⟨S4x256, .f32⟩ : BufTy).Contents (Elt F)),
    StableHlo.binary main_v37 main_v38 main_v39 (mulf : (⟨S4x256, .f32⟩ : BufTy).Contents (Elt F) → (⟨S4x256, .f32⟩ : BufTy).Contents (Elt F) → (⟨S4x256, .f32⟩ : BufTy).Contents (Elt F)),
    StableHlo.nullary main_cst_8 (constant S_ .f32 0x00000000#32),
    StableHlo.binary main_v39 main_cst_8 main_v40 ((fun x v => Host.reduceAdd x v reducesTo_S4x256_S4_d1 h_S_) : (⟨S4x256, .f32⟩ : BufTy).Contents (Elt F) → (⟨S_, .f32⟩ : BufTy).Contents (Elt F) → (⟨S4, .f32⟩ : BufTy).Contents (Elt F)),
    StableHlo.nullary main_cst_9 (constant S_ .f32 0x00000000#32),
    StableHlo.binary main_v38 main_cst_9 main_v41 ((fun x v => Host.reduceAdd x v reducesTo_S4x256_S4_d1 h_S_) : (⟨S4x256, .f32⟩ : BufTy).Contents (Elt F) → (⟨S_, .f32⟩ : BufTy).Contents (Elt F) → (⟨S4, .f32⟩ : BufTy).Contents (Elt F)),
    StableHlo.binary main_v40 main_v41 main_v42 (Host.divf : (⟨S4, .f32⟩ : BufTy).Contents (Elt F) → (⟨S4, .f32⟩ : BufTy).Contents (Elt F) → (⟨S4, .f32⟩ : BufTy).Contents (Elt F)),
    StableHlo.nullary main_c (constantI S_ 32 1#32),
    StableHlo.unary main_c main_v43 (broadcastInDim S4x256 ![] bcast_S_S4x256 : (⟨S_, .i32⟩ : BufTy).Contents (Elt F) → (⟨S4x256, .i32⟩ : BufTy).Contents (Elt F)),
    StableHlo.binary main_v1 main_v43 main_v44 (cmpi .eq : (⟨S4x256, .i32⟩ : BufTy).Contents (Elt F) → (⟨S4x256, .i32⟩ : BufTy).Contents (Elt F) → (⟨S4x256, .i1⟩ : BufTy).Contents (Elt F)),
    StableHlo.TRef.unary (.of main_v44 : StableHlo.TRef sig ⟨S4x256, .i1⟩) main_call3.v0 (extui 32 · natLt_1_32),
    StableHlo.TRef.nullary main_call3.call0.c (constantI S_ 32 0#32),
    StableHlo.TRef.unary main_call3.call0.c main_call3.call0.v0 (broadcastInDim S_ ![] bcast_S_S_),
    StableHlo.TRef.binary main_call3.v0 main_call3.call0.v0 main_call3.call0.v1 (fun x v => Host.reduceWindow IntOp.addi ![1, 256] ![1, 1] ![0, 255] ![0, 0] x v reduceWindows_S4x256_S4x256_w1s1p0_0_w256s1p255_0 h_S_),
    StableHlo.nullary main_c_10 (constantI S_ 32 4#32),
    StableHlo.unary main_c_10 main_v46 (broadcastInDim S4x256 ![] bcast_S_S4x256 : (⟨S_, .i32⟩ : BufTy).Contents (Elt F) → (⟨S4x256, .i32⟩ : BufTy).Contents (Elt F)),
    StableHlo.binary main_v45 main_v46 main_v47 (cmpi .sge : (⟨S4x256, .i32⟩ : BufTy).Contents (Elt F) → (⟨S4x256, .i32⟩ : BufTy).Contents (Elt F) → (⟨S4x256, .i1⟩ : BufTy).Contents (Elt F)),
    StableHlo.binary main_v44 main_v47 main_v48 (andi : (⟨S4x256, .i1⟩ : BufTy).Contents (Elt F) → (⟨S4x256, .i1⟩ : BufTy).Contents (Elt F) → (⟨S4x256, .i1⟩ : BufTy).Contents (Elt F)),
    StableHlo.nullary main_c_11 (constantI S_ 32 100#32),
    StableHlo.unary main_c_11 main_v49 (broadcastInDim S4x256 ![] bcast_S_S4x256 : (⟨S_, .i32⟩ : BufTy).Contents (Elt F) → (⟨S4x256, .i32⟩ : BufTy).Contents (Elt F)),
    StableHlo.binary main_v45 main_v49 main_v50 (cmpi .sle : (⟨S4x256, .i32⟩ : BufTy).Contents (Elt F) → (⟨S4x256, .i32⟩ : BufTy).Contents (Elt F) → (⟨S4x256, .i1⟩ : BufTy).Contents (Elt F)),
    StableHlo.binary main_v48 main_v50 main_v51 (andi : (⟨S4x256, .i1⟩ : BufTy).Contents (Elt F) → (⟨S4x256, .i1⟩ : BufTy).Contents (Elt F) → (⟨S4x256, .i1⟩ : BufTy).Contents (Elt F)),
    StableHlo.unary main_v51 main_v52 (uitofp .f32 : (⟨S4x256, .i1⟩ : BufTy).Contents (Elt F) → (⟨S4x256, .f32⟩ : BufTy).Contents (Elt F)),
    StableHlo.binary main_v37 main_v52 main_v53 (mulf : (⟨S4x256, .f32⟩ : BufTy).Contents (Elt F) → (⟨S4x256, .f32⟩ : BufTy).Contents (Elt F) → (⟨S4x256, .f32⟩ : BufTy).Contents (Elt F)),
    StableHlo.nullary main_cst_12 (constant S_ .f32 0x00000000#32),
    StableHlo.binary main_v53 main_cst_12 main_v54 ((fun x v => Host.reduceAdd x v reducesTo_S4x256_S4_d1 h_S_) : (⟨S4x256, .f32⟩ : BufTy).Contents (Elt F) → (⟨S_, .f32⟩ : BufTy).Contents (Elt F) → (⟨S4, .f32⟩ : BufTy).Contents (Elt F)),
    StableHlo.nullary main_cst_13 (constant S_ .f32 0x00000000#32),
    StableHlo.binary main_v52 main_cst_13 main_v55 ((fun x v => Host.reduceAdd x v reducesTo_S4x256_S4_d1 h_S_) : (⟨S4x256, .f32⟩ : BufTy).Contents (Elt F) → (⟨S_, .f32⟩ : BufTy).Contents (Elt F) → (⟨S4, .f32⟩ : BufTy).Contents (Elt F)),
    StableHlo.binary main_v54 main_v55 main_v56 (Host.divf : (⟨S4, .f32⟩ : BufTy).Contents (Elt F) → (⟨S4, .f32⟩ : BufTy).Contents (Elt F) → (⟨S4, .f32⟩ : BufTy).Contents (Elt F)),
    StableHlo.nullary main_cst_14 (constant S_ .f32 0x00000000#32),
    StableHlo.binary main_v38 main_cst_14 main_v57 ((fun x v => Host.reduceAdd x v reducesTo_S4x256_S_d0_1 h_S_) : (⟨S4x256, .f32⟩ : BufTy).Contents (Elt F) → (⟨S_, .f32⟩ : BufTy).Contents (Elt F) → (⟨S_, .f32⟩ : BufTy).Contents (Elt F)),
    StableHlo.binary main_v18 main_v38 main_v58 (mulf : (⟨S4x256, .f32⟩ : BufTy).Contents (Elt F) → (⟨S4x256, .f32⟩ : BufTy).Contents (Elt F) → (⟨S4x256, .f32⟩ : BufTy).Contents (Elt F)),
    StableHlo.nullary main_cst_15 (constant S_ .f32 0x00000000#32),
    StableHlo.binary main_v58 main_cst_15 main_v59 ((fun x v => Host.reduceAdd x v reducesTo_S4x256_S_d0_1 h_S_) : (⟨S4x256, .f32⟩ : BufTy).Contents (Elt F) → (⟨S_, .f32⟩ : BufTy).Contents (Elt F) → (⟨S_, .f32⟩ : BufTy).Contents (Elt F)),
    StableHlo.binary main_v59 main_v57 main_v60 (Host.divf : (⟨S_, .f32⟩ : BufTy).Contents (Elt F) → (⟨S_, .f32⟩ : BufTy).Contents (Elt F) → (⟨S_, .f32⟩ : BufTy).Contents (Elt F)) ]

/-- Every operation touches TensorCore buffers only. -/
theorem ops_sub : (ops : List (HloOp τ sig (Elt F))).Forall fun op => op.bufs ⊆ tcRefs τ sig :=
  ⟨unary_bufs_sub .., unary_bufs_sub .., unary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub .., unary_bufs_sub .., unary_bufs_sub ..,
    unary_bufs_sub .., binary_bufs_sub .., unary_bufs_sub .., nullary_bufs_sub .., unary_bufs_sub .., binary_bufs_sub .., nullary_bufs_sub .., unary_bufs_sub ..,
    binary_bufs_sub .., ternary_bufs_sub .., reshape_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub .., nullary_bufs_sub .., unary_bufs_sub ..,
    ternary_bufs_sub .., reshape_bufs_sub .., nullary_bufs_sub .., unary_bufs_sub .., binary_bufs_sub .., binary_bufs_sub .., unary_bufs_sub .., nullary_bufs_sub ..,
    nullary_bufs_sub .., unary_bufs_sub .., unary_bufs_sub .., binary_bufs_sub .., unary_bufs_sub .., unary_bufs_sub .., binary_bufs_sub .., unary_bufs_sub ..,
    unary_bufs_sub .., binary_bufs_sub .., unary_bufs_sub .., binary_bufs_sub .., binary_bufs_sub .., unary_bufs_sub .., nullary_bufs_sub .., unary_bufs_sub ..,
    binary_bufs_sub .., nullary_bufs_sub .., binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub .., binary_bufs_sub .., nullary_bufs_sub ..,
    unary_bufs_sub .., binary_bufs_sub .., unary_bufs_sub .., binary_bufs_sub .., nullary_bufs_sub .., binary_bufs_sub .., unary_bufs_sub .., unary_bufs_sub ..,
    binary_bufs_sub .., nullary_bufs_sub .., binary_bufs_sub .., nullary_bufs_sub .., binary_bufs_sub .., binary_bufs_sub .., nullary_bufs_sub .., unary_bufs_sub ..,
    binary_bufs_sub .., unary_bufs_sub .., nullary_bufs_sub .., unary_bufs_sub .., binary_bufs_sub .., nullary_bufs_sub .., unary_bufs_sub .., binary_bufs_sub ..,
    binary_bufs_sub .., nullary_bufs_sub .., unary_bufs_sub .., binary_bufs_sub .., binary_bufs_sub .., unary_bufs_sub .., binary_bufs_sub .., nullary_bufs_sub ..,
    binary_bufs_sub .., nullary_bufs_sub .., binary_bufs_sub .., binary_bufs_sub .., nullary_bufs_sub .., binary_bufs_sub .., binary_bufs_sub .., nullary_bufs_sub ..,
    binary_bufs_sub .., binary_bufs_sub ..⟩

end Cert.ReferenceIdeal.Hand

end
-- ==== Proof.Ref.Res8.lean ====
/-
  The reference's second result, read off its operations: after the operations the log-probabilities' buffer holds
  the chosen tokens' log-probabilities of the logits and the token ids.
-/
import proofs.«419102_j73229192397434_1_alg».proof.Proof.Ref.Terms
import proofs.«419102_j73229192397434_1_alg».proof.Proof.Ref.Ops
import Idealize.ShloMosaic.Lib.StableHlo.Run
import Idealize.ShloMosaic.Lib.StableHlo

noncomputable section

namespace Cert.ReferenceIdeal.Hand

open Cert.ReferenceIdeal Cert.ReferenceIdeal.Gen
open Idealize.ShloMosaic Idealize.ShloMosaic.TcCoe Idealize.ShloMosaic.StableHlo
open Idealize.SL Idealize.SL.Sem

variable {F : FTy → Type} [FloatOps F]

attribute [local irreducible] Host.reduce Host.reduceAdd Host.gather Host.reduceWindow broadcastInDim extractStridedSlice
  constantI constant select cmpi addi andi subf maximumf shapeCast Host.exp Host.log Host.divf in
set_option maxRecDepth 65536 in
set_option maxHeartbeats 4000000 in
/-- The fold of the operations at the log-probabilities' buffer. First each operation of a called function (the
    log-softmax, the gather along the vocabulary axis) is brought to the plain form at its buffers: its typed
    references carry their contents unchanged, one operation at a time, before the fold nests them. Then each
    operation's result at its own buffer is its function of what it reads, at any other buffer what was there; what
    is left is the named composed term, by computation (the two reshapes read index by index). -/
theorem res8 (V : Valuation τ sig (Elt F)) :
    after ops V (main_v8 : DevRef τ sig) = logpR (V (main_arg0 : DevRef τ sig)) (V (main_arg2 : DevRef τ sig)) := by
  simp only [ops, StableHlo.TRef.nullary, StableHlo.TRef.unary, StableHlo.TRef.binary, StableHlo.TRef.ternary,
    StableHlo.TRef.reshape, StableHlo.TRef.ofBuf, StableHlo.TRef.toBuf, cast_eq]
  after_results_simp
  rfl

end Cert.ReferenceIdeal.Hand

end
-- ==== Proof.Ref.Res42.lean ====
/-
  The reference's third result, read off its operations: after the operations the masked average's buffer holds
  the entropy average over the valid positions, of the entropies and the mask.
-/
import proofs.«419102_j73229192397434_1_alg».proof.Proof.Ref.Terms
import proofs.«419102_j73229192397434_1_alg».proof.Proof.Ref.Ops
import Idealize.ShloMosaic.Lib.StableHlo.Run
import Idealize.ShloMosaic.Lib.StableHlo

noncomputable section

namespace Cert.ReferenceIdeal.Hand

open Cert.ReferenceIdeal Cert.ReferenceIdeal.Gen
open Idealize.ShloMosaic Idealize.ShloMosaic.TcCoe Idealize.ShloMosaic.StableHlo
open Idealize.SL Idealize.SL.Sem

variable {F : FTy → Type} [FloatOps F]

attribute [local irreducible] Host.reduce Host.reduceAdd Host.gather Host.reduceWindow in
set_option maxRecDepth 65536 in
set_option maxHeartbeats 4000000 in
/-- The fold of the operations at the masked average's buffer: each operation's result at its own buffer is its
    function of what it reads, at any other buffer what was there; what is left is the named composed term, by
    computation. -/
theorem res42 (V : Valuation τ sig (Elt F)) :
    after ops V (main_v42 : DevRef τ sig)
      = tAvgR (entR (V (main_arg0 : DevRef τ sig))) (maskR (V (main_arg3 : DevRef τ sig))) := by
  after_results_simp
  rfl

end Cert.ReferenceIdeal.Hand

end
-- ==== Proof.Ref.Res56.lean ====
/-
  The reference's fourth result, read off its operations: after the operations the truncated average's buffer holds
  the entropy average over the valid positions ranked 4 to 100, of the entropies and the mask.
-/
import proofs.«419102_j73229192397434_1_alg».proof.Proof.Ref.Terms
import proofs.«419102_j73229192397434_1_alg».proof.Proof.Ref.Ops
import Idealize.ShloMosaic.Lib.StableHlo.Run
import Idealize.ShloMosaic.Lib.StableHlo

noncomputable section

namespace Cert.ReferenceIdeal.Hand

open Cert.ReferenceIdeal Cert.ReferenceIdeal.Gen
open Idealize.ShloMosaic Idealize.ShloMosaic.TcCoe Idealize.ShloMosaic.StableHlo
open Idealize.SL Idealize.SL.Sem

variable {F : FTy → Type} [FloatOps F]

attribute [local irreducible] Host.reduce Host.reduceAdd Host.gather Host.reduceWindow in
set_option maxRecDepth 65536 in
set_option maxHeartbeats 4000000 in
/-- The fold of the operations at the truncated average's buffer: each operation's result at its own buffer is its
    function of what it reads, at any other buffer what was there; the typed references of the called functions carry
    their contents unchanged; what is left is the named composed term, by computation. -/
theorem res56 (V : Valuation τ sig (Elt F)) :
    after ops V (main_v56 : DevRef τ sig)
      = tTruncR (entR (V (main_arg0 : DevRef τ sig))) (maskR (V (main_arg3 : DevRef τ sig))) := by
  after_results_simp
  simp only [StableHlo.TRef.ofBuf, StableHlo.TRef.toBuf, cast_eq]
  rfl

end Cert.ReferenceIdeal.Hand

end
-- ==== Proof.Ref.Res60.lean ====
/-
  The reference's first result, read off its operations: whatever the buffers hold at the start, after the
  operations the loss's buffer holds the closing loss of the log-probabilities, the advantages and the mask.
-/
import proofs.«419102_j73229192397434_1_alg».proof.Proof.Ref.Terms
import proofs.«419102_j73229192397434_1_alg».proof.Proof.Ref.Ops
import proofs.«419102_j73229192397434_1_alg».proof.Proof.Ref.Res8
import Idealize.ShloMosaic.Lib.StableHlo.Run
import Idealize.ShloMosaic.Lib.StableHlo

noncomputable section

namespace Cert.ReferenceIdeal.Hand

open Cert.ReferenceIdeal Cert.ReferenceIdeal.Gen
open Idealize.ShloMosaic Idealize.ShloMosaic.TcCoe Idealize.ShloMosaic.StableHlo
open Idealize.SL Idealize.SL.Sem

variable {F : FTy → Type} [FloatOps F]

/-- The fold over a concatenation is the fold over the second list from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The operations before the closing ones leave the mask's buffer at the labels' slice and the advantages as they were. -/
theorem head_mask (V : Valuation τ sig (Elt F)) :
    after (ops.take 45) V (main_v1 : DevRef τ sig) = maskR (V (main_arg3 : DevRef τ sig)) := by
  simp only [List.take_succ_cons, List.take_zero]
  after_results_simp
  rfl
theorem head_adv (V : Valuation τ sig (Elt F)) :
    after (ops.take 45) V (main_arg1 : DevRef τ sig) = V (main_arg1 : DevRef τ sig) := by
  simp only [List.take_succ_cons, List.take_zero]
  after_results_simp

/-- No closing operation writes the log-probabilities' buffer. -/
theorem tail_logp (W : Valuation τ sig (Elt F)) :
    after (ops.drop 45) W (main_v8 : DevRef τ sig) = W (main_v8 : DevRef τ sig) := by
  simp only [List.drop_succ_cons, List.drop_zero]
  after_results_simp

attribute [local irreducible] Host.reduce Host.reduceAdd Host.gather Host.reduceWindow in
set_option maxRecDepth 65536 in
set_option maxHeartbeats 4000000 in
/-- The closing operations, from any contents of the buffers they read: the loss is the closing term of the
    log-probabilities' buffer, the advantages and the mask's buffer (the clip's typed references carry their
    contents unchanged). -/
theorem tail_loss (W : Valuation τ sig (Elt F)) :
    after (ops.drop 45) W (main_v60 : DevRef τ sig)
      = tLossR (W (main_v8 : DevRef τ sig)) (W (main_arg1 : DevRef τ sig)) (W (main_v1 : DevRef τ sig)) := by
  simp only [List.drop_succ_cons, List.drop_zero]
  after_results_simp
  simp only [StableHlo.TRef.ofBuf, StableHlo.TRef.toBuf, cast_eq]
  rfl

/-- The loss from the log-probabilities' buffer: the operations are cut after the one that writes it, and only the
    closing ones are opened. -/
theorem res60_of8 (V : Valuation τ sig (Elt F)) :
    after ops V (main_v60 : DevRef τ sig)
      = tLossR (after ops V (main_v8 : DevRef τ sig)) (V (main_arg1 : DevRef τ sig)) (maskR (V (main_arg3 : DevRef τ sig))) := by
  have h : ∀ r : DevRef τ sig, after ops V r = after (ops.drop 45) (after (ops.take 45) V) r := fun r => by
    rw [← after_app, List.take_append_drop]
  rw [h, h, tail_loss, tail_logp, head_adv, head_mask]

/-- The reference's loss is the closing term of its log-probabilities, the advantages and the mask. -/
theorem res60 (V : Valuation τ sig (Elt F)) :
    after ops V (main_v60 : DevRef τ sig)
      = tLossR (logpR (V (main_arg0 : DevRef τ sig)) (V (main_arg2 : DevRef τ sig))) (V (main_arg1 : DevRef τ sig))
          (maskR (V (main_arg3 : DevRef τ sig))) := by
  rw [res60_of8, res8]

end Cert.ReferenceIdeal.Hand

end
-- ==== Proof.Ref.Run.lean ====
/-
  The reference's run, by hand: @main's 80 statements, with the four functions it calls (log-softmax, the gather
  along the vocabulary axis, the clip, the cumulative sum) read at their call sites, as one list of host operations;
  every weakly fair execution terminates with each result at the operations' composed term of the arguments, the
  arguments unchanged. The composed terms are named: logpR (the chosen tokens' log-probabilities), entR (the rows'
  entropies), maskR (the labels from column 1 on), and the closing operations tLossR, tAvgR, tTruncR.
-/
import proofs.«419102_j73229192397434_1_alg».proof.ReferenceIdeal
import proofs.«419102_j73229192397434_1_alg».proof.Proof.Gen.ReferenceIdeal
import proofs.«419102_j73229192397434_1_alg».proof.Proof.Ref.Terms
import proofs.«419102_j73229192397434_1_alg».proof.Proof.Ref.Ops
import proofs.«419102_j73229192397434_1_alg».proof.Proof.Ref.Res8
import proofs.«419102_j73229192397434_1_alg».proof.Proof.Ref.Res42
import proofs.«419102_j73229192397434_1_alg».proof.Proof.Ref.Res56
import proofs.«419102_j73229192397434_1_alg».proof.Proof.Ref.Res60
import Idealize.ShloMosaic.Lib.StableHlo.Run
import Idealize.ShloMosaic.Lib.StableHlo

noncomputable section

namespace Cert.ReferenceIdeal.Hand

open Cert.ReferenceIdeal Cert.ReferenceIdeal.Gen
open Idealize.ShloMosaic Idealize.ShloMosaic.TcCoe
open Idealize.SL Idealize.SL.Sem
open Idealize.ShloMosaic.StableHlo

variable {F : FTy → Type} [FloatOps F]

set_option maxRecDepth 65536 in
set_option maxHeartbeats 4000000 in
/-- @main is the straight line of its operations: the two windows and the called functions unfolded, by computation. -/
theorem main_eq (c : Dev nD) : main (F := F) c = StableHlo.seq ops := rfl

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

set_option maxRecDepth 65536 in
set_option maxHeartbeats 4000000 in
/-- No operation writes an argument's buffer. -/
theorem args_eq (V : Valuation τ sig (Elt F)) :
    after ops V (main_arg0 : DevRef τ sig) = V (main_arg0 : DevRef τ sig)
      ∧ after ops V (main_arg1 : DevRef τ sig) = V (main_arg1 : DevRef τ sig)
      ∧ after ops V (main_arg2 : DevRef τ sig) = V (main_arg2 : DevRef τ sig)
      ∧ after ops V (main_arg3 : DevRef τ sig) = V (main_arg3 : DevRef τ sig) := by
  refine ⟨?_, ?_, ?_, ?_⟩ <;> after_results_simp

/-- The reference's run. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v60)
          = tLossR (logpR (m ((c.tc : Thread nD τ).loc main_arg0)) (m ((c.tc : Thread nD τ).loc main_arg2)))
              (m ((c.tc : Thread nD τ).loc main_arg1)) (maskR (m ((c.tc : Thread nD τ).loc main_arg3)))
      ∧ r.2.mem ((c.tc : Thread nD τ).loc main_v8)
          = logpR (m ((c.tc : Thread nD τ).loc main_arg0)) (m ((c.tc : Thread nD τ).loc main_arg2))
      ∧ r.2.mem ((c.tc : Thread nD τ).loc main_v42)
          = tAvgR (entR (m ((c.tc : Thread nD τ).loc main_arg0))) (maskR (m ((c.tc : Thread nD τ).loc main_arg3)))
      ∧ r.2.mem ((c.tc : Thread nD τ).loc main_v56)
          = tTruncR (entR (m ((c.tc : Thread nD τ).loc main_arg0))) (maskR (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run (defs (F := F)) _ _).mono (fun _ h c => ?_)
    (run_seq scopedRefs_eq scopedSems_eq defs main (fun _ => ops) main_eq (fun _ => ops_sub) m ρ)
  have ha := args_eq (F := F) (launchContents m c)
  exact ⟨(h c main_v60).trans (res60 _), (h c main_v8).trans (res8 _), (h c main_v42).trans (res42 _), (h c main_v56).trans (res56 _),
    (h c main_arg0).trans ha.1, (h c main_arg1).trans ha.2.1, (h c main_arg2).trans ha.2.2.1, (h c main_arg3).trans ha.2.2.2⟩

end Cert.ReferenceIdeal.Hand

end
-- ==== Proof.Spec.lean ====
/-
  The mathematics both programs compute, index by index, over the extended reals.

  For logits X[b, r, v] (4 samples, 256 positions, a vocabulary of 131072) and a chosen token id[b, r]:
    rmax b r   = the maximum of row (b, r) over v
    rsum b r   = the sum over v of exp (X b r v - rmax b r)
    logp b r   = ((X b r (id b r) - rmax b r) - log (rsum b r)) / 1
    prob b r v = exp (X b r v - rmax b r) / rsum b r
    ent e b r  = - (the sum over v of prob b r v * log (prob b r v + e))
  The kernel reaches rmax and rsum by a running maximum and a rescaled running sum over 128 column blocks, and
  the entropy through exp (X - rmax - log rsum); the reference computes each in one pass. On finite logits the two
  agree: every quantity above is then a real number, rsum is at least 1, and the laws used are those of the reals.
-/
import Idealize.ShloMosaic.PureOps.Ideal
import Mathlib.Algebra.BigOperators.Group.Finset.Basic
import Mathlib.Order.CompleteLattice.Finset

noncomputable section

namespace Cert.Spec

open Idealize.ShloMosaic

/-- The logits of the 256 positions that predict a next token, as a function of (sample, position, token). -/
abbrev Logits : Type := Fin 4 → Fin 256 → Fin 131072 → EReal
/-- The chosen next token of each (sample, position). -/
abbrev Chosen : Type := Fin 4 → Fin 256 → Fin 131072

variable (X : Logits) (id : Chosen)

/-- The row maximum. -/
def rmax (b : Fin 4) (r : Fin 256) : EReal := Finset.univ.sup (X b r)

/-- The row sum of exponentials relative to the row maximum. -/
def rsum (b : Fin 4) (r : Fin 256) : EReal := ∑ v : Fin 131072, Ideal.exp (X b r v - rmax X b r)

/-- The chosen token's log-probability (the temperature 1 is divided out last, as both programs do). -/
def logp (b : Fin 4) (r : Fin 256) : EReal :=
  Ideal.div ((X b r (id b r) - rmax X b r) - Ideal.log (rsum X b r)) 1

/-- A token's probability. -/
def prob (b : Fin 4) (r : Fin 256) (v : Fin 131072) : EReal :=
  Ideal.div (Ideal.exp (X b r v - rmax X b r)) (rsum X b r)

/-- The row's entropy with the additive guard e inside the logarithm. -/
def ent (e : EReal) (b : Fin 4) (r : Fin 256) : EReal :=
  -(∑ v : Fin 131072, prob X b r v * Ideal.log (prob X b r v + e))

/-- Every logit is a real number. -/
def Finite : Prop := ∀ b r v, ∃ x : ℝ, X b r v = (x : EReal)

end Cert.Spec

end
-- ==== Proof.Access.lean ====
/-
  How the two argument arrays are read as the specification's objects: the logits f32[4, 257, 131072] restricted to the
  256 positions that predict a next token (position r of the specification is row r of the array), and the token ids
  i32[4, 257] shifted by one (position r is scored against the token at column r + 1), each id read as a natural
  number below the vocabulary size. InRange says the shifted ids are such numbers, which is what the certificate's
  precondition adds to the finiteness of the float inputs.
-/
import proofs.«419102_j73229192397434_1_alg».proof.Proof.Spec
import Idealize.ShloMosaic.Lib.ValueIdx

noncomputable section

namespace Cert.Access

open Idealize.ShloMosaic Idealize.ShloMosaic.ValueIdx

/-- The logits' and the token ids' shapes. -/
abbrev SX : Shape := ⟨3, ![4, 257, 131072]⟩
abbrev SI : Shape := ⟨2, ![4, 257]⟩

/-- The logits of the 256 predicting positions. -/
def Xof (a : SX.Idx → EReal) : Cert.Spec.Logits := fun b r v => a (ix3 b (Fin.castSucc r) v)

/-- The next token of each predicting position, as a number below the vocabulary size. -/
def idOf (a : SI.Idx → BitVec 32) : Cert.Spec.Chosen :=
  fun b r => ⟨(a (ix2 b r.succ)).toNat % 131072, Nat.mod_lt _ (by norm_num)⟩

/-- Every shifted id is a token of the vocabulary. -/
def InRange (a : SI.Idx → BitVec 32) : Prop := ∀ (b : Fin 4) (r : Fin 256), (a (ix2 b r.succ)).toNat < 131072

theorem idOf_val (a : SI.Idx → BitVec 32) (h : InRange a) (b : Fin 4) (r : Fin 256) :
    ((idOf a b r : Fin 131072) : ℕ) = (a (ix2 b r.succ)).toNat := Nat.mod_eq_of_lt (h b r)

/-- The additive guard inside the entropy's logarithm: the same f32 word in both programs. -/
def eps : EReal := Ideal.ofBits .f32 0x3089705F#32

end Cert.Access

end
-- ==== Proof.Val.Blocks.lean ====
/-
  What the bodies read, at an index, in terms of the argument arrays (ideal instance): at point n the logits' block
  holds columns 1024 n .. 1024 n + 1023 of rows 0 .. 255 (no block overhangs the array, so the fetch fills the whole
  staging buffer); the token ids' block, fetched once, is the ids' columns 1 .. 256; in region 1 the maxima and the
  log-sums, fetched once, are the arrays region 0 stored.
-/
import proofs.«419102_j73229192397434_1_alg».proof.Proof.KI.Outs
import proofs.«419102_j73229192397434_1_alg».proof.Proof.Access
import Idealize.ShloMosaic.Lib.ValueIdx
import Idealize.ShloMosaic.Lib.Pipeline.Value
import Idealize.ShloMosaic.Lib.Pipeline.Frame

noncomputable section

namespace Cert.KernelIdeal.Val

open Idealize.ShloMosaic Idealize.ShloMosaic.TcCoe Idealize.ShloMosaic.ValueIdx
open Idealize.SL.Sem
open Cert.Access

open Cert.KernelIdeal Cert.KernelIdeal.Gen Cert.KernelIdeal.Hand

variable (m : (ℓ : Loc nD τ sig) → Buf (Elt Ideal) ℓ) (c : Dev nD)

/-- Column j of block n is column 1024 n + j of the array. -/
def col (n : ℕ) (hn : n < 128) (j : Fin 1024) : Fin 131072 := ⟨1024 * n + j.val, by have := j.isLt; omega⟩

/-! ## The blocks read through the windowed arrays, for any contents the region finds -/

section Reads
variable (V : (c : Dev nD) → (b : Ref sig .tc) → Buf (Elt Ideal) ((c : Thread nD τ).loc b)) (c : Dev nD)

/-- No block of either region's logits window overhangs the array. -/
private theorem noclip0_0 : ∀ (i : cfg0.grid.Coords) (a : Fin (cfg0.win 0).shape.rank), (cfg0.win 0).clip i a = none := by
  decide +kernel
private theorem noclip1_0 : ∀ (i : cfg1.grid.Coords) (a : Fin (cfg1.win 0).shape.rank), (cfg1.win 0).clip i a = none := by
  decide +kernel

/-- The printed index maps over the grids: the logits' block at point n is block (0, 0, n); every other input's one
    block is block (0, 0). -/
private theorem idx0_0 : ∀ t : Fin cfg0.N, win0_0.index t (0 : Fin 3) = 0 ∧ win0_0.index t (1 : Fin 3) = 0 ∧ win0_0.index t (2 : Fin 3) = t.val :=
  (by decide +kernel : ∀ t : Fin grid0.N, _)
private theorem idx0_1 : ∀ t : Fin cfg0.N, win0_1.index t (0 : Fin 2) = 0 ∧ win0_1.index t (1 : Fin 2) = 0 :=
  (by decide +kernel : ∀ t : Fin grid0.N, _)
private theorem idx1_0 : ∀ t : Fin cfg1.N, win1_0.index t (0 : Fin 3) = 0 ∧ win1_0.index t (1 : Fin 3) = 0 ∧ win1_0.index t (2 : Fin 3) = t.val :=
  (by decide +kernel : ∀ t : Fin grid1.N, _)
private theorem idx1_1 : ∀ t : Fin cfg1.N, win1_1.index t (0 : Fin 2) = 0 ∧ win1_1.index t (1 : Fin 2) = 0 :=
  (by decide +kernel : ∀ t : Fin grid1.N, _)
private theorem idx1_2 : ∀ t : Fin cfg1.N, win1_2.index t (0 : Fin 2) = 0 ∧ win1_2.index t (1 : Fin 2) = 0 :=
  (by decide +kernel : ∀ t : Fin grid1.N, _)

/-- A logits block is fetched at its point and fills the whole staging buffer: read at (b, r, j) it is the array's
    entry at (b, r, 1024 n + j). -/
private theorem xin0_at (n : ℕ) (h : n < cfg0.N) (b : Fin 4) (r : Fin 256) (j : Fin 1024) (hv : 1024 * n + j.val < 131072) :
    xin0 V c n h (ix3 b r j) = A0 V c 0 (ix3 b (Fin.castSucc r) ⟨1024 * n + j.val, hv⟩) := by
  show Pipeline.heldIn cfg0 (A0 V c) 0 (⟨n, h⟩ : Fin cfg0.N).val (⟨n, h⟩ : Fin cfg0.N).isLt (ix3 b r j) = _
  rw [Pipeline.heldIn_of_fetch (A0 V c) 0 ⟨n, h⟩ (fetch0_0 ⟨n, h⟩)]
  have hm : (cfg0.win 0).moved (cfg0.grid.coords ⟨n, h⟩) (ix3 b r j) = true :=
    ((cfg0.win 0).moved_iff _ _).mpr fun a => by
      have := (ix3 b r j a).isLt; unfold Pipeline.Window.xsize; rw [noclip0_0 _ a]; exact this
  unfold Pipeline.Window.fill
  rw [dif_pos hm]
  show A0 V c 0 (((cfg0.win 0).blk ⟨n, h⟩).view.emb _) = _
  refine congrArg (A0 V c 0) ?_
  obtain ⟨e0, e1, e2⟩ := idx0_0 ⟨n, h⟩
  funext a; apply Fin.ext
  match a with
  | ⟨0, _⟩ => show win0_0.index ⟨n, h⟩ (0 : Fin 3) * 4 + 1 * b.val = b.val; omega
  | ⟨1, _⟩ => show win0_0.index ⟨n, h⟩ (1 : Fin 3) * 256 + 1 * r.val = r.val; omega
  | ⟨2, _⟩ => show win0_0.index ⟨n, h⟩ (2 : Fin 3) * 1024 + 1 * j.val = 1024 * n + j.val; simp only at e2; omega

private theorem xin1_at (n : ℕ) (h : n < cfg1.N) (b : Fin 4) (r : Fin 256) (j : Fin 1024) (hv : 1024 * n + j.val < 131072) :
    xin1 V c n h (ix3 b r j) = A1 V c 0 (ix3 b (Fin.castSucc r) ⟨1024 * n + j.val, hv⟩) := by
  show Pipeline.heldIn cfg1 (A1 V c) 0 (⟨n, h⟩ : Fin cfg1.N).val (⟨n, h⟩ : Fin cfg1.N).isLt (ix3 b r j) = _
  rw [Pipeline.heldIn_of_fetch (A1 V c) 0 ⟨n, h⟩ (fetch1_0 ⟨n, h⟩)]
  have hm : (cfg1.win 0).moved (cfg1.grid.coords ⟨n, h⟩) (ix3 b r j) = true :=
    ((cfg1.win 0).moved_iff _ _).mpr fun a => by
      have := (ix3 b r j a).isLt; unfold Pipeline.Window.xsize; rw [noclip1_0 _ a]; exact this
  unfold Pipeline.Window.fill
  rw [dif_pos hm]
  show A1 V c 0 (((cfg1.win 0).blk ⟨n, h⟩).view.emb _) = _
  refine congrArg (A1 V c 0) ?_
  obtain ⟨e0, e1, e2⟩ := idx1_0 ⟨n, h⟩
  funext a; apply Fin.ext
  match a with
  | ⟨0, _⟩ => show win1_0.index ⟨n, h⟩ (0 : Fin 3) * 4 + 1 * b.val = b.val; omega
  | ⟨1, _⟩ => show win1_0.index ⟨n, h⟩ (1 : Fin 3) * 256 + 1 * r.val = r.val; omega
  | ⟨2, _⟩ => show win1_0.index ⟨n, h⟩ (2 : Fin 3) * 1024 + 1 * j.val = 1024 * n + j.val; simp only at e2; omega

/-- An input fetched at the first point only, whose one block is its whole array: at every point the body reads the
    array's entry (by induction on the point: a point that does not fetch holds what the point before held). -/
private theorem ids0_at : ∀ (n : ℕ) (h : n < cfg0.N) (b : Fin 4) (r : Fin 256), ids0 V c n h (ix2 b r) = A0 V c 1 (ix2 b r)
  | 0, h, b, r => by
    show Pipeline.heldIn cfg0 (A0 V c) 1 (⟨0, h⟩ : Fin cfg0.N).val (⟨0, h⟩ : Fin cfg0.N).isLt (ix2 b r) = _
    rw [Pipeline.heldIn_of_fetch (A0 V c) 1 ⟨0, h⟩ ((fetch0_1 ⟨0, h⟩).mpr rfl)]
    have hm : (cfg0.win 1).moved (cfg0.grid.coords ⟨0, h⟩) (ix2 b r) = true :=
      ((cfg0.win 1).moved_iff _ _).mpr fun a => (ix2 b r a).isLt
    unfold Pipeline.Window.fill
    rw [dif_pos hm]
    show A0 V c 1 (((cfg0.win 1).blk ⟨0, h⟩).view.emb _) = _
    refine congrArg (A0 V c 1) ?_
    obtain ⟨e0, e1⟩ := idx0_1 ⟨0, h⟩
    funext a; apply Fin.ext
    match a with
    | ⟨0, _⟩ => show win0_1.index ⟨0, h⟩ (0 : Fin 2) * 4 + 1 * b.val = b.val; omega
    | ⟨1, _⟩ => show win0_1.index ⟨0, h⟩ (1 : Fin 2) * 256 + 1 * r.val = r.val; omega
  | n + 1, h, b, r => by
    have hnf : (cfg0.win 1).fetch ⟨n + 1, h⟩ = false := by
      have h128 : n + 1 < 128 := lt_of_lt_of_eq h N_0
      rw [Bool.eq_false_iff]
      intro hf
      have := (fetch0_1 ⟨n + 1, h⟩).mp hf
      simp only at this; omega
    show Pipeline.heldIn cfg0 (A0 V c) 1 (n + 1) h (ix2 b r) = _
    rw [Pipeline.heldIn_of_not_fetch (A0 V c) 1 n h hnf]
    exact ids0_at n _ b r

private theorem mm1_at : ∀ (n : ℕ) (h : n < cfg1.N) (b : Fin 4) (r : Fin 256), mm1 V c n h (ix2 b r) = A1 V c 1 (ix2 b r)
  | 0, h, b, r => by
    show Pipeline.heldIn cfg1 (A1 V c) 1 (⟨0, h⟩ : Fin cfg1.N).val (⟨0, h⟩ : Fin cfg1.N).isLt (ix2 b r) = _
    rw [Pipeline.heldIn_of_fetch (A1 V c) 1 ⟨0, h⟩ ((fetch1_1 ⟨0, h⟩).mpr rfl)]
    have hm : (cfg1.win 1).moved (cfg1.grid.coords ⟨0, h⟩) (ix2 b r) = true :=
      ((cfg1.win 1).moved_iff _ _).mpr fun a => (ix2 b r a).isLt
    unfold Pipeline.Window.fill
    rw [dif_pos hm]
    show A1 V c 1 (((cfg1.win 1).blk ⟨0, h⟩).view.emb _) = _
    refine congrArg (A1 V c 1) ?_
    obtain ⟨e0, e1⟩ := idx1_1 ⟨0, h⟩
    funext a; apply Fin.ext
    match a with
    | ⟨0, _⟩ => show win1_1.index ⟨0, h⟩ (0 : Fin 2) * 4 + 1 * b.val = b.val; omega
    | ⟨1, _⟩ => show win1_1.index ⟨0, h⟩ (1 : Fin 2) * 256 + 1 * r.val = r.val; omega
  | n + 1, h, b, r => by
    have hnf : (cfg1.win 1).fetch ⟨n + 1, h⟩ = false := by
      have h128 : n + 1 < 128 := lt_of_lt_of_eq h N_1
      rw [Bool.eq_false_iff]
      intro hf
      have := (fetch1_1 ⟨n + 1, h⟩).mp hf
      simp only at this; omega
    show Pipeline.heldIn cfg1 (A1 V c) 1 (n + 1) h (ix2 b r) = _
    rw [Pipeline.heldIn_of_not_fetch (A1 V c) 1 n h hnf]
    exact mm1_at n _ b r

private theorem lz1_at : ∀ (n : ℕ) (h : n < cfg1.N) (b : Fin 4) (r : Fin 256), lz1 V c n h (ix2 b r) = A1 V c 2 (ix2 b r)
  | 0, h, b, r => by
    show Pipeline.heldIn cfg1 (A1 V c) 2 (⟨0, h⟩ : Fin cfg1.N).val (⟨0, h⟩ : Fin cfg1.N).isLt (ix2 b r) = _
    rw [Pipeline.heldIn_of_fetch (A1 V c) 2 ⟨0, h⟩ ((fetch1_2 ⟨0, h⟩).mpr rfl)]
    have hm : (cfg1.win 2).moved (cfg1.grid.coords ⟨0, h⟩) (ix2 b r) = true :=
      ((cfg1.win 2).moved_iff _ _).mpr fun a => (ix2 b r a).isLt
    unfold Pipeline.Window.fill
    rw [dif_pos hm]
    show A1 V c 2 (((cfg1.win 2).blk ⟨0, h⟩).view.emb _) = _
    refine congrArg (A1 V c 2) ?_
    obtain ⟨e0, e1⟩ := idx1_2 ⟨0, h⟩
    funext a; apply Fin.ext
    match a with
    | ⟨0, _⟩ => show win1_2.index ⟨0, h⟩ (0 : Fin 2) * 4 + 1 * b.val = b.val; omega
    | ⟨1, _⟩ => show win1_2.index ⟨0, h⟩ (1 : Fin 2) * 256 + 1 * r.val = r.val; omega
  | n + 1, h, b, r => by
    have hnf : (cfg1.win 2).fetch ⟨n + 1, h⟩ = false := by
      have h128 : n + 1 < 128 := lt_of_lt_of_eq h N_1
      rw [Bool.eq_false_iff]
      intro hf
      have := (fetch1_2 ⟨n + 1, h⟩).mp hf
      simp only at this; omega
    show Pipeline.heldIn cfg1 (A1 V c) 2 (n + 1) h (ix2 b r) = _
    rw [Pipeline.heldIn_of_not_fetch (A1 V c) 2 n h hnf]
    exact lz1_at n _ b r

end Reads

/-- The slice [0:4, 1:257] of the ids at (b, r) is the id at (b, r + 1). -/
private theorem slice_at (a2 : IVec S4x257 32) (hs : S4x257.Slices ![0, 1] S4x256) (b : Fin 4) (r : Fin 256) :
    extractStridedSlice S4x256 ![0, 1] a2 hs (ix2 b r) = a2 (ix2 b r.succ) := by
  unfold extractStridedSlice
  congr 1
  funext a
  apply Fin.ext
  fin_cases a
  · show 0 + b.val = b.val
    omega
  · show 1 + r.val = r.succ.val
    rw [Fin.val_succ]; omega

/-- Region 0's logits block at point n. -/
theorem xin0_apply (n : ℕ) (h : n < cfg0.N) (b : Fin 4) (r : Fin 256) (j : Fin 1024) :
    xin0 (F := Ideal) (V1 m) c n h (ix3 b r j)
      = Xof (m ((c : Thread nD τ).loc main_arg0)) b r (col n (lt_of_lt_of_eq h N_0) j) := by
  refine (xin0_at (V1 m) c n h b r j (col n (lt_of_lt_of_eq h N_0) j).isLt).trans ?_
  exact congrFun (A0_logits m c) _

/-- Region 0's token ids at any point: the ids from column 1 on. -/
theorem ids0_apply (n : ℕ) (h : n < cfg0.N) (b : Fin 4) (r : Fin 256) :
    ids0 (F := Ideal) (V1 m) c n h (ix2 b r) = (m ((c : Thread nD τ).loc main_arg2)) (ix2 b r.succ) := by
  refine (ids0_at (V1 m) c n h b r).trans ?_
  refine (congrFun (A0_ids m c) _).trans ?_
  exact slice_at _ _ b r

/-- Region 1's logits block at point n. -/
theorem xin1_apply (n : ℕ) (h : n < cfg1.N) (b : Fin 4) (r : Fin 256) (j : Fin 1024) :
    xin1 (F := Ideal) (V2 m) c n h (ix3 b r j)
      = Xof (m ((c : Thread nD τ).loc main_arg0)) b r (col n (lt_of_lt_of_eq h N_1) j) := by
  refine (xin1_at (V2 m) c n h b r j (col n (lt_of_lt_of_eq h N_1) j).isLt).trans ?_
  exact congrFun (A1_logits m c) _

/-- Region 1's maxima and log-sums at any point: what region 0 stored. -/
theorem mm1_eq (n : ℕ) (h : n < cfg1.N) : mm1 (F := Ideal) (V2 m) c n h = (fin0 (F := Ideal) (V1 m) c).2.1 := by
  funext y
  obtain ⟨b, r, rfl⟩ : ∃ (b : Fin 4) (r : Fin 256), y = ix2 b r := ⟨y 0, y 1, eq_ix2 y⟩
  exact (mm1_at (V2 m) c n h b r).trans (congrFun (A1_max m c) _)
theorem lz1_eq (n : ℕ) (h : n < cfg1.N) : lz1 (F := Ideal) (V2 m) c n h = (fin0 (F := Ideal) (V1 m) c).2.2 := by
  funext y
  obtain ⟨b, r, rfl⟩ : ∃ (b : Fin 4) (r : Fin 256), y = ix2 b r := ⟨y 0, y 1, eq_ix2 y⟩
  exact (lz1_at (V2 m) c n h b r).trans (congrFun (A1_lse m c) _)

end Cert.KernelIdeal.Val

end
-- ==== Proof.Val.K0.lean ====
/-
  Region 0's results at the ideal instance, index by index. Over finite logits and token ids inside the
  vocabulary, the triple carried through the 128 column blocks is, after n blocks and at row (b, r): the maximum of
  the row's first 1024 n logits, the sum over those columns of exp (x - that maximum), and the sum over those columns
  of the logit where the column is the chosen token's (the chosen logit once its block has passed, else 0).
  The step from n to n + 1 is the rescaling law exp (m - m') * sum exp (x - m) = sum exp (x - m') on the reals together
  with max and + over a split index range. After all 128 blocks these are the row maximum, the row sum and the chosen
  logit, so the three stored results are the specification's log-probability, maximum and log of the sum.
-/
import proofs.«419102_j73229192397434_1_alg».proof.Proof.KI.Outs
import proofs.«419102_j73229192397434_1_alg».proof.Proof.Access
import proofs.«419102_j73229192397434_1_alg».proof.Proof.Val.Blocks
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.ShloMosaic.TcCoe Idealize.ShloMosaic.ValueIdx
open Idealize.SL.Sem
open Cert.Access

open Cert.KernelIdeal Cert.KernelIdeal.Gen Cert.KernelIdeal.Hand

set_option maxRecDepth 16384

namespace Stat0

/-! ## Finite sums and maxima of reals inside the extended reals -/

section Reals
open scoped BigOperators

variable {ι : Type} [DecidableEq ι]

/-- The maximum of finitely many reals, at least one of them, is a real. -/
theorem sup_coe_real (A : Finset ι) (hA : A.Nonempty) (x : ι → ℝ) :
    ∃ a : ℝ, A.sup (fun v => (x v : EReal)) = (a : EReal) := by
  induction hA using Finset.Nonempty.cons_induction with
  | singleton a => exact ⟨x a, by simp⟩
  | cons a s ha hs ih =>
    obtain ⟨m, hm⟩ := ih
    refine ⟨max (x a) m, ?_⟩
    rw [Finset.sup_cons, hm]; exact (EReal.coe_strictMono.monotone.map_max (a := x a) (b := m)).symm

/-- A finite sum of reals is the sum of the reals. -/
theorem coe_sum (A : Finset ι) (f : ι → ℝ) : ((∑ v ∈ A, f v : ℝ) : EReal) = ∑ v ∈ A, (f v : EReal) := by
  induction A using Finset.induction_on with
  | empty => simp
  | insert a s ha ih => rw [Finset.sum_insert ha, Finset.sum_insert ha, EReal.coe_add, ih]

/-- The rescaling law: a sum of exponentials taken relative to M, times exp (M - M'), is the sum taken relative
    to M'. Over no terms both sides are 0 whatever M is. -/
theorem rescale (A : Finset ι) (x : ι → ℝ) (M M' : EReal) (hM : A.Nonempty → ∃ a : ℝ, M = a) (hM' : ∃ a' : ℝ, M' = a') :
    Ideal.exp (M - M') * ∑ v ∈ A, Ideal.exp ((x v : EReal) - M) = ∑ v ∈ A, Ideal.exp ((x v : EReal) - M') := by
  rcases A.eq_empty_or_nonempty with rfl | hA
  · simp
  · obtain ⟨a, rfl⟩ := hM hA
    obtain ⟨a', rfl⟩ := hM'
    simp only [← EReal.coe_sub, Ideal.exp_coe]
    rw [← coe_sum, ← EReal.coe_mul, ← coe_sum, Finset.mul_sum]
    congr 1
    refine Finset.sum_congr rfl fun v _ => ?_
    rw [← Real.exp_add]; congr 1; ring

/-- One block more: the running sum over A, rescaled to the maximum over A and B, plus the block's sum, is the sum
    over both relative to that maximum. -/
theorem sum_step (A B : Finset ι) (hd : Disjoint A B) (hB : B.Nonempty) (x : ι → ℝ) :
    Ideal.exp (A.sup (fun v => (x v : EReal)) - (A ∪ B).sup (fun v => (x v : EReal)))
          * (∑ v ∈ A, Ideal.exp ((x v : EReal) - A.sup (fun v => (x v : EReal))))
        + ∑ v ∈ B, Ideal.exp ((x v : EReal) - (A ∪ B).sup (fun v => (x v : EReal)))
      = ∑ v ∈ A ∪ B, Ideal.exp ((x v : EReal) - (A ∪ B).sup (fun v => (x v : EReal))) := by
  rw [Finset.sum_union hd, rescale A x _ _ (fun hA => sup_coe_real A hA x) (sup_coe_real _ (hB.mono Finset.subset_union_right) x)]

/-- The same over extended reals that are all reals. -/
theorem sum_step' (A B : Finset ι) (hd : Disjoint A B) (hB : B.Nonempty) (Y : ι → EReal) (hY : ∀ v, ∃ x : ℝ, Y v = (x : EReal)) :
    Ideal.exp (A.sup Y - (A ∪ B).sup Y) * (∑ v ∈ A, Ideal.exp (Y v - A.sup Y)) + ∑ v ∈ B, Ideal.exp (Y v - (A ∪ B).sup Y)
      = ∑ v ∈ A ∪ B, Ideal.exp (Y v - (A ∪ B).sup Y) := by
  obtain ⟨x, rfl⟩ : ∃ x : ι → ℝ, Y = fun v => (x v : EReal) :=
    ⟨fun v => (hY v).choose, funext fun v => (hY v).choose_spec⟩
  exact sum_step A B hd hB x

end Reals

/-! ## The payloads at an index -/

section Payloads
open scoped BigOperators

/-- The source index over (b, r) with the column k on the reduced axis. -/
theorem lift_ix (b : Fin 4) (r : Fin 256) (k : Fin 1024) :
    (reduces_S4x256x1024_S4x256).lift (ix2 b r) k = ix3 b r k := by
  funext a; apply Fin.ext
  match a with
  | ⟨0, _⟩ => rfl
  | ⟨1, _⟩ => rfl
  | ⟨2, _⟩ => rfl

/-- A fold of max from the bottom is the supremum. -/
theorem fold_max_bot {κ : Type} [DecidableEq κ] (s : Finset κ) (f : κ → EReal) : s.fold max ⊥ f = s.sup f := by
  induction s using Finset.induction_on with
  | empty => simp
  | insert a s ha ih => rw [Finset.fold_insert ha, Finset.sup_insert, ih]

theorem ofBits_negInf : Ideal.ofBits .f32 0xFF800000#32 = ⊥ := by simp [Ideal.ofBits, Ideal.ieee]
theorem ofBits_one : Ideal.ofBits .f32 0x3F800000#32 = 1 := by simp [Ideal.ofBits, Ideal.ieee, -EReal.coe_mul]; norm_num

/-- A row's value laid along its 1024 columns reads the row's value. -/
theorem bcol_apply {α : Type} (v : S4x256.Idx → α) (h1 : S4x256.ShapeCasts S4x256x1) (h2 : S4x256x1.Broadcasts S4x256x1024)
    (b : Fin 4) (r : Fin 256) (k : Fin 1024) :
    broadcastTo S4x256x1024 (shapeCast S4x256x1 v h1) h2 (ix3 b r k) = v (ix2 b r) := by
  refine (broadcastTo_apply _ h2 (ix3 b r k) (ix3 b r (0 : Fin 1)) fun a => ?_).trans
    (shapeCast_apply v h1 (ix3 b r (0 : Fin 1)) (ix2 b r) ?_)
  · match a with
    | ⟨0, _⟩ => rfl
    | ⟨1, _⟩ => rfl
    | ⟨2, _⟩ => rfl
  · rw [Shape.rowMajor_val_two, Shape.rowMajor_val_three]
    show b.val * 256 + r.val = (b.val * 256 + r.val) * 1 + 0
    omega

/-- The running maximum: the old maximum against the block's row maximum. -/
theorem pay7_apply (x : FVec Ideal S4x256x1024 .f32) (m : FVec Ideal S4x256 .f32) (b : Fin 4) (r : Fin 256) :
    k0_pay7 (F := Ideal) x m (ix2 b r) = max (m (ix2 b r)) (Finset.univ.sup fun k : Fin 1024 => x (ix3 b r k)) := by
  have e1 : k0_pay7 (F := Ideal) x m (ix2 b r) = max (m (ix2 b r)) (multiReduction (F := Ideal) .maximumf [2] S4x256 x 0xFF800000#32 reduces_S4x256x1024_S4x256 (.inl rfl) rfl (ix2 b r)) := by
    unfold k0_pay7; exact maximumf_apply _ _ _
  have e2 : multiReduction (F := Ideal) .maximumf [2] S4x256 x 0xFF800000#32 reduces_S4x256x1024_S4x256 (.inl rfl) rfl (ix2 b r)
      = (Finset.univ : Finset (Fin (S4x256x1024.size 2))).fold max (FloatOps.ofBits (F := Ideal) .f32 0xFF800000#32) (x ∘ reduces_S4x256x1024_S4x256.lift (ix2 b r)) :=
    Ideal.multiReduction_maximumf_single x _ _ _ _ (ix2 b r)
  refine e1.trans (congrArg (max (m (ix2 b r))) ?_)
  refine e2.trans ?_
  rw [Ideal.ofBits_def, ofBits_negInf]
  refine (fold_max_bot _ _).trans (Finset.sup_congr rfl fun k _ => ?_)
  exact congrArg x (lift_ix b r k)

theorem pay9_eq (x : FVec Ideal S4x256x1024 .f32) (m : FVec Ideal S4x256 .f32) : k0_pay9 (F := Ideal) x m = k0_pay7 (F := Ideal) x m := by
  unfold k0_pay9; exact shapeCast_self _ _

/-- The running sum: the old sum rescaled to the new maximum, plus the block's exponentials relative to it. -/
theorem pay8_apply (x : FVec Ideal S4x256x1024 .f32) (m s : FVec Ideal S4x256 .f32) (b : Fin 4) (r : Fin 256) :
    k0_pay8 (F := Ideal) x m s (ix2 b r)
      = Ideal.exp (m (ix2 b r) - k0_pay7 (F := Ideal) x m (ix2 b r)) * s (ix2 b r)
        + ∑ k : Fin 1024, Ideal.exp (x (ix3 b r k) - k0_pay7 (F := Ideal) x m (ix2 b r)) := by
  have e1 : k0_pay8 (F := Ideal) x m s (ix2 b r)
      = Ideal.exp (m (ix2 b r) - k0_pay7 (F := Ideal) x m (ix2 b r)) * s (ix2 b r)
        + multiReduction (F := Ideal) .add [2] S4x256
            (exp (subf x (broadcastTo S4x256x1024 (shapeCast S4x256x1 (k0_pay7 (F := Ideal) x m) shapeCasts_S4x256_S4x256x1) broadcasts_S4x256x1_S4x256x1024)))
            0x00000000#32 reduces_S4x256x1024_S4x256 (.inl rfl) rfl (ix2 b r) := by
    unfold k0_pay8; rw [shapeCast_self]; rfl
  have e2 := Ideal.multiReduction_add_single (φ := .f32) (a := (2 : Fin 3))
      (exp (subf x (broadcastTo S4x256x1024 (shapeCast S4x256x1 (k0_pay7 (F := Ideal) x m) shapeCasts_S4x256_S4x256x1) broadcasts_S4x256x1_S4x256x1024)))
      0x00000000#32 reduces_S4x256x1024_S4x256 (.inl rfl) rfl (ix2 b r)
  refine e1.trans (congrArg (Ideal.exp (m (ix2 b r) - k0_pay7 (F := Ideal) x m (ix2 b r)) * s (ix2 b r) + ·) ?_)
  refine e2.trans (Finset.sum_congr rfl fun (k : Fin 1024) _ => ?_)
  rw [lift_ix b r k]
  exact congrArg (fun z => Ideal.exp (x (ix3 b r k) - z)) (bcol_apply _ _ _ b r k)

/-- The comparison word is set exactly when the two words are equal. -/
theorem cmpi_eq_iff (x y : BitVec 32) : IntOp.cmpi .eq x y = 1#1 ↔ x = y := by
  show BitVec.ofBool (x == y) = 1#1 ↔ x = y
  by_cases h : x = y
  · subst h; simp
  · have hb : (x == y) = false := beq_eq_false_iff_ne.mpr h
    rw [hb]
    exact ⟨fun h' => absurd h' (by decide), fun h' => absurd h' h⟩

/-- The word comparing a column number with a chosen id is set exactly when the numbers agree. -/
theorem col_word (n k : ℕ) (hn : n < 128) (hk : k < 1024) (w : BitVec 32) :
    IntOp.cmpi .eq (IntOp.addi (BitVec.ofNat 32 k) (Scalar.muli (BitVec.ofNat 32 n) 1024#32)) w = 1#1 ↔ 1024 * n + k = w.toNat := by
  have e : IntOp.addi (BitVec.ofNat 32 k) (Scalar.muli (BitVec.ofNat 32 n) 1024#32) = BitVec.ofNat 32 (1024 * n + k) := by
    unfold IntOp.addi Scalar.muli IntOp.muli
    apply BitVec.eq_of_toNat_eq
    simp only [BitVec.toNat_add, BitVec.toNat_mul, BitVec.toNat_ofNat]
    omega
  rw [e, cmpi_eq_iff]
  constructor
  · intro h; rw [← h, BitVec.toNat_ofNat]; omega
  · intro h; apply BitVec.eq_of_toNat_eq; rw [BitVec.toNat_ofNat, ← h]; omega

/-- The chosen entry of the block: the logit at the column whose number is the chosen id, if the block has it. -/
theorem pay10_apply (i : grid0.Coords) (x : FVec Ideal S4x256x1024 .f32) (ids : IVec S4x256 32) (b : Fin 4) (r : Fin 256) :
    k0_pay10 (F := Ideal) i x ids (ix2 b r)
      = ∑ k : Fin 1024, if 1024 * (i 0).val + k.val = (ids (ix2 b r)).toNat then x (ix3 b r k) else 0 := by
  have e2 := Ideal.multiReduction_add_single (φ := .f32) (a := (2 : Fin 3))
      (select (cmpi .eq (addi (iota .tc S4x256x1024 32 [2] iota_S4x256x1024_d2_w32) (broadcast S4x256x1024 (Scalar.muli (BitVec.ofNat 32 (i 0).val) 1024#32)))
          (broadcastTo S4x256x1024 (shapeCast S4x256x1 (shapeCast S4x256 ids shapeCasts_S4x256_S4x256) shapeCasts_S4x256_S4x256x1) broadcasts_S4x256x1_S4x256x1024))
        x (broadcast S4x256x1024 (Scalar.ofBits (F := Ideal) .f32 0x00000000#32)))
      0x00000000#32 reduces_S4x256x1024_S4x256 (.inl rfl) rfl (ix2 b r)
  have e1 := Eq.trans (a := k0_pay10 (F := Ideal) i x ids (ix2 b r)) (by unfold k0_pay10; rfl) e2
  refine e1.trans (Finset.sum_congr rfl fun (k : Fin 1024) _ => ?_)
  rw [lift_ix b r k]
  have hi : (i 0).val < 128 := (i 0).isLt
  have hw := col_word (i 0).val k.val hi k.isLt (ids (ix2 b r))
  show Scalar.select (IntOp.cmpi .eq (IntOp.addi (iota .tc S4x256x1024 32 [2] iota_S4x256x1024_d2_w32 (ix3 b r k)) (Scalar.muli (BitVec.ofNat 32 (i 0).val) 1024#32))
      (broadcastTo S4x256x1024 (shapeCast S4x256x1 (shapeCast S4x256 ids shapeCasts_S4x256_S4x256) shapeCasts_S4x256_S4x256x1) broadcasts_S4x256x1_S4x256x1024 (ix3 b r k)))
      (x (ix3 b r k)) (Ideal.ofBits .f32 0x00000000#32) = _
  rw [iota_single_apply, bcol_apply, shapeCast_self, Ideal.ofBits_zero_f32]
  unfold Scalar.select
  by_cases hc : 1024 * (i 0).val + k.val = (ids (ix2 b r)).toNat
  · rw [if_pos hc]; exact if_pos (hw.mpr hc)
  · rw [if_neg hc]; exact if_neg (fun h => hc (hw.mp h))

theorem pay1_apply (a k : FVec Ideal S4x256 .f32) (j : S4x256.Idx) : k0_pay1 (F := Ideal) a k j = k j + a j := by
  unfold k0_pay1; rw [shapeCast_self]; rfl

theorem pay2_apply (s : FVec Ideal S4x256 .f32) (j : S4x256.Idx) : k0_pay2 (F := Ideal) s j = Ideal.log (s j) := rfl

theorem pay3_apply (s k m : FVec Ideal S4x256 .f32) (j : S4x256.Idx) :
    k0_pay3 (F := Ideal) s k m j = Ideal.div ((k j - m j) - Ideal.log (s j)) 1 := by
  have e1 : k0_pay3 (F := Ideal) s k m j = Ideal.div ((k j - m j) - Ideal.log (s j)) (Ideal.ofBits .f32 0x3F800000#32) := by
    unfold k0_pay3; rfl
  rw [e1, ofBits_one]

theorem pay4_apply (j : S4x256.Idx) : (k0_pay4 (F := Ideal)) j = ⊥ := by
  unfold k0_pay4; rw [shapeCast_self]; exact ofBits_negInf
theorem pay5_apply (j : S4x256.Idx) : (k0_pay5 (F := Ideal)) j = 0 := by
  unfold k0_pay5; rw [shapeCast_self]; exact Ideal.ofBits_zero_f32
theorem pay6_apply (j : S4x256.Idx) : (k0_pay6 (F := Ideal)) j = 0 := by
  unfold k0_pay6; rw [shapeCast_self]; exact Ideal.ofBits_zero_f32

end Payloads

/-! ## The columns of the first n blocks, and of block n -/

section Columns
open scoped BigOperators

/-- The columns the first n blocks cover, and the columns of block n. -/
def colsBelow (n : ℕ) : Finset (Fin 131072) := Finset.univ.filter fun v => v.val < 1024 * n
def colsOf (n : ℕ) : Finset (Fin 131072) := Finset.univ.filter fun v => 1024 * n ≤ v.val ∧ v.val < 1024 * (n + 1)

theorem colsBelow_zero : colsBelow 0 = ∅ := by
  ext v; simp [colsBelow]
theorem colsBelow_succ (n : ℕ) : colsBelow (n + 1) = colsBelow n ∪ colsOf n := by
  ext v; simp only [colsBelow, colsOf, Finset.mem_filter, Finset.mem_univ, true_and, Finset.mem_union]; omega
theorem colsBelow_disj (n : ℕ) : Disjoint (colsBelow n) (colsOf n) := by
  rw [Finset.disjoint_left]; intro v
  simp only [colsBelow, colsOf, Finset.mem_filter, Finset.mem_univ, true_and]; omega
theorem colsBelow_all : colsBelow 128 = Finset.univ := by
  ext v; simp only [colsBelow, Finset.mem_filter, Finset.mem_univ, true_and, iff_true]; exact v.isLt

theorem col_val (n : ℕ) (hn : n < 128) (j : Fin 1024) : (col n hn j).val = 1024 * n + j.val := rfl
theorem col_inj (n : ℕ) (hn : n < 128) : Function.Injective (col n hn) := fun j j' h =>
  Fin.ext (by have := congrArg Fin.val h; rw [col_val, col_val] at this; omega)
theorem colsOf_eq_image (n : ℕ) (hn : n < 128) : colsOf n = Finset.univ.image (col n hn) := by
  ext v
  simp only [colsOf, Finset.mem_filter, Finset.mem_univ, true_and, Finset.mem_image]
  constructor
  · rintro ⟨h1, h2⟩
    exact ⟨⟨v.val - 1024 * n, by omega⟩, Fin.ext (by rw [col_val]; show 1024 * n + (v.val - 1024 * n) = v.val; omega)⟩
  · rintro ⟨j, rfl⟩; rw [col_val]; have := j.isLt; omega
theorem colsOf_nonempty (n : ℕ) (hn : n < 128) : (colsOf n).Nonempty := by
  rw [colsOf_eq_image n hn]; exact Finset.univ_nonempty.image _

/-- A sum, and a maximum, over block n's columns by the column inside the block. -/
theorem sum_colsOf {M : Type} [AddCommMonoid M] (n : ℕ) (hn : n < 128) (f : Fin 131072 → M) :
    ∑ v ∈ colsOf n, f v = ∑ j : Fin 1024, f (col n hn j) := by
  rw [colsOf_eq_image n hn, Finset.sum_image fun a _ b _ h => col_inj n hn h]
theorem sup_colsOf (n : ℕ) (hn : n < 128) (f : Fin 131072 → EReal) :
    (colsOf n).sup f = Finset.univ.sup fun j : Fin 1024 => f (col n hn j) := by
  rw [colsOf_eq_image n hn, Finset.sup_image]; rfl

end Columns

/-! ## The carried triple after n blocks -/

variable (m : (ℓ : Loc nD τ sig) → Buf (Elt Ideal) ℓ) (c : Dev nD)
  (hfin : Cert.Spec.Finite (Xof (m ((c : Thread nD τ).loc main_arg0))))
  (hin : InRange (m ((c : Thread nD τ).loc main_arg2)))

section Invariant
open scoped BigOperators

/-- The grid's one coordinate is the point's number. -/
theorem coords_val : ∀ t : Fin cfg0.N, ((grid0.coords t) 0).val = t.val :=
  (by decide +kernel : ∀ t : Fin grid0.N, ((grid0.coords t) 0).val = t.val)

include hfin in
/-- After n blocks, at row (b, r): the maximum of the row's first 1024 n logits, and the sum over them of the
    exponentials relative to that maximum. -/
theorem sc0_max_sum (b : Fin 4) (r : Fin 256) : ∀ (n : ℕ) (h : n ≤ cfg0.N),
    (sc0 (F := Ideal) (V1 m) c n h).1 (ix2 b r) = (colsBelow n).sup (Xof (m ((c : Thread nD τ).loc main_arg0)) b r)
    ∧ (sc0 (F := Ideal) (V1 m) c n h).2.1 (ix2 b r)
        = ∑ v ∈ colsBelow n, Ideal.exp (Xof (m ((c : Thread nD τ).loc main_arg0)) b r v
            - (colsBelow n).sup (Xof (m ((c : Thread nD τ).loc main_arg0)) b r)) := by
  intro n
  induction n with
  | zero =>
    intro h
    rw [sc0_zero, colsBelow_zero]
    exact ⟨(pay4_apply (ix2 b r)).trans Finset.sup_empty.symm, (pay5_apply (ix2 b r)).trans Finset.sum_empty.symm⟩
  | succ n ih =>
    intro h
    have hn : n < 128 := lt_of_lt_of_eq h N_0
    obtain ⟨ihM, ihS⟩ := ih (Nat.le_of_succ_le h)
    have hM : k0_pay7 (F := Ideal) (xin0 (V1 m) c n h) (sc0 (V1 m) c n (Nat.le_of_succ_le h)).1 (ix2 b r)
        = (colsBelow (n + 1)).sup (Xof (m ((c : Thread nD τ).loc main_arg0)) b r) := by
      rw [pay7_apply, ihM, colsBelow_succ, Finset.sup_union, sup_colsOf n hn]
      refine congrArg (max _) (Finset.sup_congr rfl fun k _ => ?_)
      exact xin0_apply m c n h b r k
    rw [sc0_succ]
    refine ⟨?_, ?_⟩
    · show k0_pay9 (F := Ideal) (xin0 (V1 m) c n h) (sc0 (V1 m) c n (Nat.le_of_succ_le h)).1 (ix2 b r) = _
      rw [pay9_eq]; exact hM
    · show k0_pay8 (F := Ideal) (xin0 (V1 m) c n h) (sc0 (V1 m) c n (Nat.le_of_succ_le h)).1 (sc0 (V1 m) c n (Nat.le_of_succ_le h)).2.1 (ix2 b r) = _
      rw [pay8_apply, hM, ihM, ihS]
      have e : ∑ k : Fin 1024, Ideal.exp (xin0 (F := Ideal) (V1 m) c n h (ix3 b r k) - (colsBelow (n + 1)).sup (Xof (m ((c : Thread nD τ).loc main_arg0)) b r))
          = ∑ v ∈ colsOf n, Ideal.exp (Xof (m ((c : Thread nD τ).loc main_arg0)) b r v - (colsBelow (n + 1)).sup (Xof (m ((c : Thread nD τ).loc main_arg0)) b r)) := by
        rw [sum_colsOf n hn]
        exact Finset.sum_congr rfl fun k _ => by rw [xin0_apply m c n h b r k]
      rw [e, colsBelow_succ]
      exact sum_step' (colsBelow n) (colsOf n) (colsBelow_disj n) (colsOf_nonempty n hn) _ (hfin b r)

include hin in
/-- After n blocks, at row (b, r): the sum over the row's first 1024 n columns of the logit where the column is
    the chosen token's. -/
theorem sc0_chosen (b : Fin 4) (r : Fin 256) : ∀ (n : ℕ) (h : n ≤ cfg0.N),
    (sc0 (F := Ideal) (V1 m) c n h).2.2 (ix2 b r)
        = ∑ v ∈ colsBelow n, if v = idOf (m ((c : Thread nD τ).loc main_arg2)) b r
            then Xof (m ((c : Thread nD τ).loc main_arg0)) b r v else 0 := by
  intro n
  induction n with
  | zero =>
    intro h
    rw [sc0_zero, colsBelow_zero]
    exact (pay6_apply (ix2 b r)).trans Finset.sum_empty.symm
  | succ n ih =>
    intro h
    have hn : n < 128 := lt_of_lt_of_eq h N_0
    have ihK := ih (Nat.le_of_succ_le h)
    rw [sc0_succ]
    show k0_pay1 (F := Ideal) (k0_pay10 (grid0.coords ⟨n, h⟩) (xin0 (V1 m) c n h) (ids0 (V1 m) c n h)) (sc0 (V1 m) c n (Nat.le_of_succ_le h)).2.2 (ix2 b r) = _
    rw [pay1_apply, ihK, pay10_apply, colsBelow_succ, Finset.sum_union (colsBelow_disj n), sum_colsOf n hn]
    refine congrArg (_ + ·) (Finset.sum_congr rfl fun k _ => ?_)
    rw [xin0_apply m c n h b r k, ids0_apply m c n h b r, coords_val ⟨n, h⟩]
    have hid := idOf_val _ hin b r
    by_cases hc : col n hn k = idOf (m ((c : Thread nD τ).loc main_arg2)) b r
    · rw [if_pos hc, if_pos (by rw [← hid, ← hc, col_val])]
    · rw [if_neg hc, if_neg (fun h' => hc (Fin.ext (by rw [col_val, hid]; exact h')))]

end Invariant

end Stat0

open Stat0

variable (m : (ℓ : Loc nD τ sig) → Buf (Elt Ideal) ℓ) (c : Dev nD)
  (hfin : Cert.Spec.Finite (Xof (m ((c : Thread nD τ).loc main_arg0))))
  (hin : InRange (m ((c : Thread nD τ).loc main_arg2)))

/-! ## The three stored results -/

include hfin hin in
/-- The stored log-probability is the specification's. -/
theorem fin0_logp (b : Fin 4) (r : Fin 256) :
    (fin0 (F := Ideal) (V1 m) c).1 (ix2 b r)
      = Cert.Spec.logp (Xof (m ((c : Thread nD τ).loc main_arg0))) (idOf (m ((c : Thread nD τ).loc main_arg2))) b r := by
  have hMS := sc0_max_sum m c hfin b r cfg0.N (Nat.le_refl _)
  have hK := sc0_chosen m c hin b r cfg0.N (Nat.le_refl _)
  have e : (fin0 (F := Ideal) (V1 m) c).1
      = k0_pay3 (F := Ideal) (sc0 (F := Ideal) (V1 m) c cfg0.N (Nat.le_refl _)).2.1
          (sc0 (F := Ideal) (V1 m) c cfg0.N (Nat.le_refl _)).2.2 (sc0 (F := Ideal) (V1 m) c cfg0.N (Nat.le_refl _)).1 := rfl
  rw [e, pay3_apply, hMS.1, hMS.2, hK, show cfg0.N = 128 from N_0, colsBelow_all, Finset.sum_ite_eq', if_pos (Finset.mem_univ _)]
  rfl

include hfin in
/-- The stored maximum is the row maximum. -/
theorem fin0_max (b : Fin 4) (r : Fin 256) :
    (fin0 (F := Ideal) (V1 m) c).2.1 (ix2 b r) = Cert.Spec.rmax (Xof (m ((c : Thread nD τ).loc main_arg0))) b r := by
  have hMS := sc0_max_sum m c hfin b r cfg0.N (Nat.le_refl _)
  have e : (fin0 (F := Ideal) (V1 m) c).2.1 = (sc0 (F := Ideal) (V1 m) c cfg0.N (Nat.le_refl _)).1 := rfl
  rw [e, hMS.1, show cfg0.N = 128 from N_0, colsBelow_all]
  rfl

include hfin in
/-- The stored log-sum is the logarithm of the row sum. -/
theorem fin0_lse (b : Fin 4) (r : Fin 256) :
    (fin0 (F := Ideal) (V1 m) c).2.2 (ix2 b r)
      = Ideal.log (Cert.Spec.rsum (Xof (m ((c : Thread nD τ).loc main_arg0))) b r) := by
  have hMS := sc0_max_sum m c hfin b r cfg0.N (Nat.le_refl _)
  have e : (fin0 (F := Ideal) (V1 m) c).2.2 = k0_pay2 (F := Ideal) (sc0 (F := Ideal) (V1 m) c cfg0.N (Nat.le_refl _)).2.1 := rfl
  rw [e, pay2_apply, hMS.2, show cfg0.N = 128 from N_0, colsBelow_all]
  rfl

end Cert.KernelIdeal.Val

end
-- ==== Proof.Val.K1.lean ====
/-
  Region 1's result at the ideal instance, index by index. Given the row maxima M and the logarithms of the row sums
  LZ that region 0 stored, the accumulator after n blocks is, at row (b, r), the sum over the first n blocks of
  0 - (the block's sum of q * log (q + eps)) with q = exp ((x - M) - LZ); on finite logits q is the probability
  exp (x - M) / rsum (exp (a - log s) = exp a / s for s > 0), every term is a real number, and the sum of the negated
  block sums is the negated sum over the whole row: the specification's entropy.
-/
import proofs.«419102_j73229192397434_1_alg».proof.Proof.KI.Outs
import proofs.«419102_j73229192397434_1_alg».proof.Proof.Access
import proofs.«419102_j73229192397434_1_alg».proof.Proof.Val.Blocks
import Idealize.ShloMosaic.Lib.ValueIdx
import Idealize.ShloMosaic.Lib.ValueLayout
import Idealize.ShloMosaic.Lib.Pipeline.Value
import Idealize.ShloMosaic.PureOps.Ideal.Laws
import Mathlib.Analysis.SpecialFunctions.Log.Basic
import Mathlib.Algebra.BigOperators.Fin

noncomputable section

namespace Cert.KernelIdeal.Val

open Idealize.ShloMosaic Idealize.ShloMosaic.TcCoe Idealize.ShloMosaic.ValueIdx
open Idealize.SL.Sem
open Cert.Access

open Cert.KernelIdeal Cert.KernelIdeal.Gen Cert.KernelIdeal.Hand

/-! ## The real numbers behind a row of finite logits -/

namespace Ent1

/-- A finite sum of real numbers, read in the extended reals, is the real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The guard inside the logarithm is a positive real number. -/
theorem eps_real : ∃ e : ℝ, 0 < e ∧ eps = (e : EReal) := by
  refine ⟨_, ?_, by simp [eps, Ideal.ofBits, Ideal.ieee]; rfl⟩
  positivity

/-- A row of finite logits: its entries, its maximum and its sum of exponentials are real numbers, the sum positive. -/
theorem row_real (X : Cert.Spec.Logits) (hX : Cert.Spec.Finite X) (b : Fin 4) (r : Fin 256) :
    ∃ (xf : Fin 131072 → ℝ) (M s : ℝ), (∀ v, X b r v = (xf v : EReal)) ∧ Cert.Spec.rmax X b r = (M : EReal)
      ∧ Cert.Spec.rsum X b r = (s : EReal) ∧ 0 < s := by
  choose xf hxf using fun v => hX b r v
  obtain ⟨v₀, -, hv₀⟩ := Finset.exists_mem_eq_sup (Finset.univ : Finset (Fin 131072)) ⟨0, Finset.mem_univ _⟩ (X b r)
  have hM : Cert.Spec.rmax X b r = ((xf v₀ : ℝ) : EReal) := by unfold Cert.Spec.rmax; rw [hv₀, hxf v₀]
  refine ⟨xf, xf v₀, ∑ v, Real.exp (xf v - xf v₀), hxf, hM, ?_, ?_⟩
  · unfold Cert.Spec.rsum
    rw [hM, ← coe_sum]
    refine Finset.sum_congr rfl fun v _ => ?_
    rw [hxf v, ← EReal.coe_sub, Ideal.exp_coe]
  · exact Finset.sum_pos (fun v _ => Real.exp_pos _) ⟨0, Finset.mem_univ _⟩

/-- With real entry x, maximum M, positive sum s and positive guard e: the kernel's q = exp ((x - M) - log s) and the
    specification's probability exp (x - M) / s are one real number p, and q * log (q + eps) is p * log (p + e). -/
theorem term_real (x M s e : ℝ) (hs : 0 < s) (he : 0 < e) :
    Ideal.exp (((x : EReal) - (M : EReal)) - Ideal.log (s : EReal)) = ((Real.exp (x - M) / s : ℝ) : EReal)
    ∧ Ideal.div (Ideal.exp ((x : EReal) - (M : EReal))) (s : EReal) = ((Real.exp (x - M) / s : ℝ) : EReal)
    ∧ ((Real.exp (x - M) / s : ℝ) : EReal) * Ideal.log (((Real.exp (x - M) / s : ℝ) : EReal) + (e : EReal))
        = ((Real.exp (x - M) / s * Real.log (Real.exp (x - M) / s + e) : ℝ) : EReal) := by
  have hp : 0 < Real.exp (x - M) / s := div_pos (Real.exp_pos _) hs
  refine ⟨?_, ?_, ?_⟩
  · rw [Ideal.log_coe, if_neg (not_le.mpr hs), ← EReal.coe_sub, ← EReal.coe_sub, Ideal.exp_coe, Real.exp_sub, Real.exp_log hs]
  · rw [Ideal.div_coe (ne_of_gt hs), ← EReal.coe_sub, Ideal.exp_coe, ← EReal.coe_mul]
    congr 1; ring
  · rw [← EReal.coe_add, Ideal.log_coe, if_neg (not_le.mpr (add_pos hp he)), ← EReal.coe_mul]

/-- A sum over 1024 (n + 1) naturals is the sum over the first 1024 n and the sum over the next block of 1024. -/
theorem sum_block (f : ℕ → ℝ) (n : ℕ) :
    ∑ v ∈ Finset.range (1024 * (n + 1)), f v = ∑ v ∈ Finset.range (1024 * n), f v + ∑ j : Fin 1024, f (1024 * n + j.val) := by
  rw [show 1024 * (n + 1) = 1024 * n + 1024 by ring, Finset.sum_range_add, Fin.sum_univ_eq_sum_range (fun j => f (1024 * n + j)) 1024]

/-! ## One block's step at a row -/

/-- A row statistic spread over the columns of a block: the column form [4,256] to [4,256,1] to [4,256,1024]
    read at an index is the statistic of the row. -/
theorem spread_apply (v : FVec Ideal S4x256 .f32) (b : Fin 4) (r : Fin 256) (j : Fin 1024) :
    broadcastTo S4x256x1024 (shapeCast S4x256x1 (shapeCast S4x256 v shapeCasts_S4x256_S4x256) shapeCasts_S4x256_S4x256x1)
      broadcasts_S4x256x1_S4x256x1024 (ix3 b r j) = v (ix2 b r) := by
  refine (broadcastTo_apply _ _ (ix3 b r j) (ix3 b r (0 : Fin 1)) ?_).trans ?_
  · intro a
    match a with
    | ⟨0, _⟩ => rfl
    | ⟨1, _⟩ => rfl
    | ⟨2, _⟩ => rfl
  refine (shapeCast_apply _ _ (ix3 b r (0 : Fin 1)) (ix2 b r) ?_).trans ?_
  · rw [Shape.rowMajor_val_two, Shape.rowMajor_val_three]
    show b.val * 256 + r.val = (b.val * 256 + r.val) * 1 + 0
    omega
  rw [shapeCast_self]

/-- The lane sum of a block, read at a row, is the sum over the block's 1024 columns. -/
theorem lanesum_apply (y : FVec Ideal S4x256x1024 .f32) (hacc : (0x00000000#32 : BitVec 32) = 0x00000000#32) (b : Fin 4) (r : Fin 256) :
    multiReduction .add [2] S4x256 y 0x00000000#32 reduces_S4x256x1024_S4x256 (.inl rfl) hacc (ix2 b r)
      = ∑ j : Fin 1024, y (ix3 b r j) := by
  refine (Ideal.multiReduction_add_single y 0x00000000#32 reduces_S4x256x1024_S4x256 (.inl rfl) hacc (ix2 b r)).trans ?_
  refine Finset.sum_congr rfl fun j _ => congrArg y ?_
  funext a
  apply Fin.ext
  match a with
  | ⟨0, _⟩ => rfl
  | ⟨1, _⟩ => rfl
  | ⟨2, _⟩ => rfl

/-- One block's step of the entropy accumulator at a row: the old value plus zero minus the block's sum of
    q * log (q + eps), q the exponential of the entry less the row's maximum less the row's log-sum. -/
theorem qarg_apply (x : FVec Ideal S4x256x1024 .f32) (mm lz : FVec Ideal S4x256 .f32) (b : Fin 4) (r : Fin 256) (j : Fin 1024) :
    subf (subf x (broadcastTo S4x256x1024 (shapeCast S4x256x1 (shapeCast S4x256 mm shapeCasts_S4x256_S4x256) shapeCasts_S4x256_S4x256x1) broadcasts_S4x256x1_S4x256x1024))
      (broadcastTo S4x256x1024 (shapeCast S4x256x1 (shapeCast S4x256 lz shapeCasts_S4x256_S4x256) shapeCasts_S4x256_S4x256x1) broadcasts_S4x256x1_S4x256x1024) (ix3 b r j)
      = (x (ix3 b r j) - mm (ix2 b r)) - lz (ix2 b r) :=
  (subf_apply _ _ _).trans (congrArg₂ (· - ·) ((subf_apply _ _ _).trans (congrArg₂ (· - ·) rfl (spread_apply mm b r j))) (spread_apply lz b r j))

theorem pay2_apply (x : FVec Ideal S4x256x1024 .f32) (mm lz acc : FVec Ideal S4x256 .f32) (b : Fin 4) (r : Fin 256) :
    k1_pay2 (F := Ideal) x mm lz acc (ix2 b r)
      = acc (ix2 b r) + (0 - ∑ j : Fin 1024,
          Ideal.exp ((x (ix3 b r j) - mm (ix2 b r)) - lz (ix2 b r))
            * Ideal.log (Ideal.exp ((x (ix3 b r j) - mm (ix2 b r)) - lz (ix2 b r)) + eps)) := by
  unfold k1_pay2
  dsimp only
  refine (addf_apply _ _ _).trans ?_
  refine congrArg₂ (· + ·) (congrFun (shapeCast_self acc _) _) ?_
  refine (subf_apply _ _ _).trans ?_
  refine congrArg₂ (· - ·) Ideal.ofBits_zero_f32 ?_
  refine (lanesum_apply _ rfl b r).trans ?_
  refine Finset.sum_congr rfl fun j _ => ?_
  show Ideal.exp _ * Ideal.log (Ideal.exp _ + Ideal.ofBits .f32 0x3089705F#32) = _
  rw [qarg_apply x mm lz b r j]
  rfl

end Ent1

open Ent1

/-! ## The accumulator after every block -/

variable (m : (ℓ : Loc nD τ sig) → Buf (Elt Ideal) ℓ) (c : Dev nD)
  (hfin : Cert.Spec.Finite (Xof (m ((c : Thread nD τ).loc main_arg0))))
  (hmax : ∀ (b : Fin 4) (r : Fin 256),
    (fin0 (F := Ideal) (V1 m) c).2.1 (ix2 b r) = Cert.Spec.rmax (Xof (m ((c : Thread nD τ).loc main_arg0))) b r)
  (hlse : ∀ (b : Fin 4) (r : Fin 256),
    (fin0 (F := Ideal) (V1 m) c).2.2 (ix2 b r) = Ideal.log (Cert.Spec.rsum (Xof (m ((c : Thread nD τ).loc main_arg0))) b r))

include hfin hmax hlse in
/-- The accumulated entropy is the specification's. -/
theorem entK_eq (b : Fin 4) (r : Fin 256) :
    entK (F := Ideal) m c (ix2 b r) = Cert.Spec.ent (Xof (m ((c : Thread nD τ).loc main_arg0))) eps b r := by
  obtain ⟨xf, M, s, hx, hM, hs, hspos⟩ := row_real (Xof (m ((c : Thread nD τ).loc main_arg0))) hfin b r
  obtain ⟨e, he, heps⟩ := eps_real
  -- each column's term as a real number: p log (p + e) with p the probability, and past the row's end nothing
  let τn : ℕ → ℝ := fun v => if h : v < 131072
    then Real.exp (xf ⟨v, h⟩ - M) / s * Real.log (Real.exp (xf ⟨v, h⟩ - M) / s + e) else 0
  -- after n blocks the accumulator at the row is the negated sum of the terms of the first 1024 n columns
  have hacc : ∀ (n : ℕ) (h : n ≤ cfg1.N),
      ent1 (F := Ideal) (V2 m) c n h (ix2 b r) = ((-(∑ v ∈ Finset.range (1024 * n), τn v) : ℝ) : EReal) := by
    intro n
    induction n with
    | zero =>
      intro h
      rw [ent1_zero]
      show Ideal.ofBits .f32 0x00000000#32 = _
      rw [Ideal.ofBits_zero_f32]
      simp
    | succ n ih =>
      intro h
      have hn : n < 128 := lt_of_lt_of_eq h N_1
      rw [ent1_succ]
      refine (pay2_apply _ _ _ _ b r).trans ?_
      rw [ih (Nat.le_of_succ_le h), sum_block, mm1_eq m c n h, lz1_eq m c n h, hmax b r, hlse b r, hM, hs, heps]
      have hblk : (∑ j : Fin 1024,
          Ideal.exp ((xin1 (F := Ideal) (V2 m) c n h (ix3 b r j) - (M : EReal)) - Ideal.log (s : EReal))
            * Ideal.log (Ideal.exp ((xin1 (F := Ideal) (V2 m) c n h (ix3 b r j) - (M : EReal)) - Ideal.log (s : EReal)) + (e : EReal)))
          = ((∑ j : Fin 1024, τn (1024 * n + j.val) : ℝ) : EReal) := by
        rw [← coe_sum]
        refine Finset.sum_congr rfl fun j _ => ?_
        have hv : 1024 * n + j.val < 131072 := by have := j.isLt; omega
        rw [xin1_apply m c n h b r j, hx]
        obtain ⟨t1, -, t3⟩ := term_real (xf (col n (lt_of_lt_of_eq h N_1) j)) M s e hspos he
        rw [t1, t3]
        show _ = ((τn (1024 * n + j.val) : ℝ) : EReal)
        simp only [τn, dif_pos hv]
        rfl
      rw [hblk, ← EReal.coe_zero, ← EReal.coe_sub, ← EReal.coe_add]
      generalize (∑ v ∈ Finset.range (1024 * n), τn v) = A
      generalize (∑ j : Fin 1024, τn (1024 * n + j.val)) = B
      exact congrArg (fun x : ℝ => (x : EReal)) (by ring)
  -- the specification's sum, term by term the same real numbers
  have hspec : (∑ v : Fin 131072, Cert.Spec.prob (Xof (m ((c : Thread nD τ).loc main_arg0))) b r v
        * Ideal.log (Cert.Spec.prob (Xof (m ((c : Thread nD τ).loc main_arg0))) b r v + eps))
      = ((∑ v : Fin 131072, τn v.val : ℝ) : EReal) := by
    rw [← coe_sum]
    refine Finset.sum_congr rfl fun v _ => ?_
    unfold Cert.Spec.prob
    rw [hx v, hM, hs, heps]
    obtain ⟨-, t2, t3⟩ := term_real (xf v) M s e hspos he
    rw [t2, t3]
    simp only [τn, dif_pos v.isLt]
  unfold entK Cert.Spec.ent
  rw [hacc cfg1.N (Nat.le_refl _), hspec, ← EReal.coe_neg, show 1024 * cfg1.N = 131072 from by rw [show cfg1.N = 128 from N_1],
    Fin.sum_univ_eq_sum_range τn 131072]

end Cert.KernelIdeal.Val

end
-- ==== Proof.Val.R.lean ====
/-
  The reference's log-probability array at the ideal instance, index by index: its log-softmax, gather and division
  by 1 are the specification's log-probability when the gathered id is a token of the vocabulary.

  Reading order, outermost operation first, at the position (b, r):
    the quotient by the broadcast constant 1 and the reshape that drops the unit axis read the selected array at (b, r, 0);
    the selection's condition is the conjunction, over one entry, of the two range tests of the wrapped index; for an id
      w with 0 <= w < 131072 the word is not negative as a signed number, so the wrap (w + 131072) is not taken, and
      both tests (w >= 0, w <= 131071, signed) hold: the selection keeps the gathered value, not the NaN filler;
    the gather, batched over (sample, position) and indexing the vocabulary axis, reads the log-softmax at
      (b, r, clamp of w into [0, 131071]), and the clamp leaves such a w alone: the column is the id;
    the log-softmax at (b, r, v) is (Y - M) - log S, with Y the logits' first 256 rows, M the maximum of -inf and the
      row's reduction by maximum from -inf (the row's supremum), and S the row's sum from 0 of exp (Y - M).
  A reduction with maximum from -inf is the supremum of the row; a reduction with + from 0 is the row's sum; row r of
  the sliced logits is row r of the array, and column r of the sliced ids is column r + 1 of the array.
-/
import proofs.«419102_j73229192397434_1_alg».proof.Proof.Ref.Run
import proofs.«419102_j73229192397434_1_alg».proof.Proof.Access
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import Idealize.ShloMosaic.Lib.Affine

noncomputable section

namespace Cert.ReferenceIdeal.Val

open Idealize.ShloMosaic Idealize.ShloMosaic.TcCoe Idealize.ShloMosaic.ValueIdx
open Idealize.SL.Sem
open Cert.Access

open Cert.ReferenceIdeal Cert.ReferenceIdeal.Gen Cert.ReferenceIdeal.Hand

namespace LogP

/-! ## The layout operations read at explicit coordinates

Each broadcast's axis map is written over literal index types, the form the reference's own terms have. -/

section Reads
variable {α : Type}

/-- The logits' slice keeps rows 0 to 255: row r of the slice is row r of the array. -/
theorem sliceX_apply (X : S4x257x131072.Idx → α) (b : Fin 4) (r : Fin 256) (v : Fin 131072) :
    extractStridedSlice S4x256x131072 ![0, 0, 0] X slices_S4x257x131072_S4x256x131072_0_0_0 (ix3 b r v)
      = X (ix3 b (Fin.castSucc r) v) :=
  slice3_axis1_apply 0 X _ b r v (Fin.castSucc r) (by simp)

/-- The ids' slice drops column 0: column r of the slice is column r + 1 of the array. -/
theorem sliceI_apply (ids : S4x257.Idx → α) (b : Fin 4) (r : Fin 256) :
    extractStridedSlice S4x256 ![0, 1] ids slices_S4x257_S4x256_0_1 (ix2 b r) = ids (ix2 b r.succ) :=
  slice2_axis1_apply 1 ids _ b r r.succ (by simp [Nat.add_comm])

/-- A scalar broadcast to (sample, position). -/
theorem bc02_apply (x : S_.Idx → α) (j : S4x256.Idx) :
    broadcastInDim S4x256 (![] : Fin 0 → Fin 2) bcast_S_S4x256 x j = x ix0 :=
  broadcastInDim_scalar_apply _ x j

/-- A scalar broadcast to (sample, position, 1). -/
theorem bc03_apply (x : S_.Idx → α) (j : S4x256x1.Idx) :
    broadcastInDim S4x256x1 (![] : Fin 0 → Fin 3) bcast_S_S4x256x1 x j = x ix0 :=
  broadcastInDim_scalar_apply _ x j

/-- A scalar broadcast to (sample, position, 1, 1). -/
theorem bc04_apply (x : S_.Idx → α) (j : S4x256x1x1.Idx) :
    broadcastInDim S4x256x1x1 (![] : Fin 0 → Fin 4) bcast_S_S4x256x1x1 x j = x ix0 :=
  broadcastInDim_scalar_apply _ x j

/-- A row value broadcast along a new unit axis. -/
theorem bc21_apply (x : S4x256.Idx → α) (b : Fin 4) (r : Fin 256) (z : Fin 1) :
    broadcastInDim S4x256x1 (![0, 1] : Fin 2 → Fin 3) bcast_S4x256_S4x256x1_0_1 x (ix3 b r z) = x (ix2 b r) :=
  broadcastInDim_apply _ _ x _ _ (fun a => by
    match a with
    | ⟨0, _⟩ => rfl
    | ⟨1, _⟩ => rfl)

/-- A row value broadcast along the vocabulary axis. -/
theorem bc32_apply (x : S4x256x1.Idx → α) (b : Fin 4) (r : Fin 256) (v : Fin 131072) :
    broadcastInDim S4x256x131072 (![0, 1, 2] : Fin 3 → Fin 3) bcast_S4x256x1_S4x256x131072_0_1_2 x (ix3 b r v) = x (ix3 b r 0) :=
  broadcastInDim_apply _ _ x _ _ (fun a => by
    match a with
    | ⟨0, _⟩ => rfl
    | ⟨1, _⟩ => rfl
    | ⟨2, _⟩ => rfl)

/-- A one-element vector as a one-element rank-4 array. -/
theorem bc14_apply (x : S1.Idx → α) (j : S1x1x1x1.Idx) :
    broadcastInDim S1x1x1x1 (![3] : Fin 1 → Fin 4) bcast_S1_S1x1x1x1_3 x j = x (ix1 0) :=
  broadcastInDim_apply _ _ x _ _ (fun a => by
    match a with
    | ⟨0, _⟩ => rfl)

/-- A one-element rank-4 array broadcast to (sample, position, 1, 1). -/
theorem bc44_apply (x : S1x1x1x1.Idx → α) (j : S4x256x1x1.Idx) :
    broadcastInDim S4x256x1x1 (![0, 1, 2, 3] : Fin 4 → Fin 4) bcast_S1x1x1x1_S4x256x1x1_0_1_2_3 x j = x (ix4 0 0 0 0) :=
  broadcastInDim_apply _ _ x _ _ (fun a => by
    match a with
    | ⟨0, _⟩ => rfl
    | ⟨1, _⟩ => rfl
    | ⟨2, _⟩ => rfl
    | ⟨3, _⟩ => rfl)

/-- Dropping the trailing unit axis. -/
theorem sc32_apply (x : S4x256x1.Idx → α) (b : Fin 4) (r : Fin 256) :
    shapeCast S4x256 x shapeCasts_S4x256x1_S4x256 (ix2 b r) = x (ix3 b r 0) :=
  shapeCast_apply x _ _ _ (by
    rw [Shape.rowMajor_val_three, Shape.rowMajor_val_two]; simp)

/-- Adding a trailing unit axis. -/
theorem sc34_apply (x : S4x256x1.Idx → α) (b : Fin 4) (r : Fin 256) :
    shapeCast S4x256x1x1 x shapeCasts_S4x256x1_S4x256x1x1 (ix4 b r 0 0) = x (ix3 b r 0) :=
  shapeCast_apply x _ _ _ (by
    rw [Shape.rowMajor_val_three, Shape.rowMajor_val_four]; simp)

end Reads

/-! ## The elementwise host and integer operations at an index (definitional) -/

section HostOps
variable {s : Shape} {φ : FTy} {w : Nat}

theorem hostExp_apply (x : FVec Ideal s φ) (i : s.Idx) : Host.exp (F := Ideal) x i = Ideal.exp (x i) := rfl
theorem hostLog_apply (x : FVec Ideal s φ) (i : s.Idx) : Host.log (F := Ideal) x i = Ideal.log (x i) := rfl
theorem hostNegf_apply (x : FVec Ideal s φ) (i : s.Idx) : Host.negf (F := Ideal) x i = -(x i) := rfl
theorem cmpiV_apply (p : CmpIPredicate) (x y : IVec s w) (i : s.Idx) : cmpi p x y i = IntOp.cmpi p (x i) (y i) := rfl
theorem andiV_apply (x y : IVec s w) (i : s.Idx) : andi x y i = IntOp.andi (x i) (y i) := rfl
theorem addiV_apply (x y : IVec s w) (i : s.Idx) : addi x y i = IntOp.addi (x i) (y i) := rfl

/-- A quotient by 1 changes nothing on the extended reals. -/
theorem div_one' (x : EReal) : Ideal.div x 1 = x := by
  unfold Ideal.div
  rw [if_neg one_ne_zero, inv_one, mul_one]

end HostOps

/-! ## The two reductions over the vocabulary axis -/

section Reduces

/-- The vocabulary axis is reduced away, leaving (sample, position). -/
theorem redVoc : S4x256x131072.Reduces [2] S4x256 := by decide

/-- The index over (b, r) with v on the vocabulary axis is (b, r, v). -/
theorem lift_redVoc (b : Fin 4) (r : Fin 256) (v : Fin 131072) : redVoc.lift (ix2 b r) v = ix3 b r v := by
  funext a
  refine Fin.ext ?_
  match a with
  | ⟨0, _⟩ => rfl
  | ⟨1, _⟩ => rfl
  | ⟨2, _⟩ => rfl

/-- A host sum over the vocabulary axis is the initial value plus the row's sum. -/
theorem rowSum_apply (x : FVec Ideal S4x256x131072 .f32) (init : FVec Ideal S_ .f32) (b : Fin 4) (r : Fin 256) :
    Host.reduceAdd (F := Ideal) x init reducesTo_S4x256x131072_S4x256_d2 h_S_ (ix2 b r)
      = init ix0 + ∑ v : Fin 131072, x (ix3 b r v) := by
  rw [hostReduceAdd_apply, Ideal.hostReduceAdd_single _ redVoc, eq_ix0 (Shape.Idx.first h_S_)]
  exact congrArg _ (Finset.sum_congr rfl fun v _ => congrArg x (lift_redVoc b r v))

/-- The f32 word of -inf is the least extended real. -/
theorem ofBits_neg_inf : Ideal.ofBits .f32 0xFF800000#32 = (⊥ : EReal) := by
  simp [Ideal.ofBits, Ideal.ieee]

/-- A fold of max from the least element is the supremum. -/
theorem fold_max_bot_eq_sup {ι : Type} (s : Finset ι) (f : ι → EReal) : Finset.fold max ⊥ f s = s.sup f := by
  refine eq_of_forall_ge_iff fun c => ?_
  rw [Finset.fold_max_le, Finset.sup_le_iff]
  simp

/-- A host maximum over the vocabulary axis from -inf is the row's supremum. -/
theorem rowMax_apply (x : FVec Ideal S4x256x131072 .f32) (b : Fin 4) (r : Fin 256) :
    Host.reduce (FloatOps.maximumf (F := Ideal)) x (constant (F := Ideal) S_ .f32 0xFF800000#32)
        reducesTo_S4x256x131072_S4x256_d2 h_S_ (ix2 b r)
      = Finset.univ.sup fun v : Fin 131072 => x (ix3 b r v) := by
  rw [Host.reduce_eq_fold_single _ _ _ _ redVoc]
  show Finset.fold max (Ideal.ofBits .f32 0xFF800000#32) (fun v : Fin 131072 => x (redVoc.lift (ix2 b r) v)) Finset.univ = _
  rw [ofBits_neg_inf, fold_max_bot_eq_sup]
  exact congrArg _ (funext fun v => congrArg x (lift_redVoc b r v))

end Reduces

/-! ## The gather along the vocabulary axis

Per operand axis the gathered index is (clamped start) + (batch coordinate) + (offset coordinate). Axes 0 and 1 are
batching axes: start 0, batch coordinate the result's own b and r, no offset. Axis 2 is the collapsed, indexed axis:
its start is the start index at (b, r, 0, 0) read signed and clamped into [0, 131072 - 1], nothing added. -/

section Gather
variable {α : Type}

theorem gd_sim0 : (0 : Fin S4x256x131072.rank) ∉ gather_S4x256x131072_S4x256x1x1_S4x256x1_n_2_01_01_2_3_111.startIndexMap := by decide
theorem gd_sim1 : (1 : Fin S4x256x131072.rank) ∉ gather_S4x256x131072_S4x256x1x1_S4x256x1_n_2_01_01_2_3_111.startIndexMap := by decide
theorem gd_sim2 : (2 : Fin S4x256x131072.rank) ∈ gather_S4x256x131072_S4x256x1x1_S4x256x1_n_2_01_01_2_3_111.startIndexMap := by decide
theorem gd_ob0 : (0 : Fin S4x256x131072.rank) ∈ gather_S4x256x131072_S4x256x1x1_S4x256x1_n_2_01_01_2_3_111.operandBatchingDims := by decide
theorem gd_ob1 : (1 : Fin S4x256x131072.rank) ∈ gather_S4x256x131072_S4x256x1x1_S4x256x1_n_2_01_01_2_3_111.operandBatchingDims := by decide
theorem gd_ob2 : (2 : Fin S4x256x131072.rank) ∉ gather_S4x256x131072_S4x256x1x1_S4x256x1_n_2_01_01_2_3_111.operandBatchingDims := by decide
theorem gd_sk (a : Fin S4x256x131072.rank) : a ∉ gather_S4x256x131072_S4x256x1x1_S4x256x1_n_2_01_01_2_3_111.sKept := by
  revert a; decide

theorem gd_bc0 (b : Fin 4) (r : Fin 256) :
    gather_S4x256x131072_S4x256x1x1_S4x256x1_n_2_01_01_2_3_111.batchCoord (ix3 b r 0) 0 = b.val := by
  unfold GatherDims.batchCoord
  rw [dif_pos gd_ob0]
  rfl

theorem gd_bc1 (b : Fin 4) (r : Fin 256) :
    gather_S4x256x131072_S4x256x1x1_S4x256x1_n_2_01_01_2_3_111.batchCoord (ix3 b r 0) 1 = r.val := by
  unfold GatherDims.batchCoord
  rw [dif_pos gd_ob1]
  rfl

theorem gd_si (b : Fin 4) (r : Fin 256) :
    gather_S4x256x131072_S4x256x1x1_S4x256x1_n_2_01_01_2_3_111.siIdx (ix3 b r 0)
      ⟨List.idxOf (2 : Fin S4x256x131072.rank) gather_S4x256x131072_S4x256x1x1_S4x256x1_n_2_01_01_2_3_111.startIndexMap,
        List.idxOf_lt_length_iff.2 gd_sim2⟩ = ix4 b r 0 0 := by
  funext c
  refine Fin.ext ?_
  match c with
  | ⟨0, _⟩ => rfl
  | ⟨1, _⟩ => rfl
  | ⟨2, _⟩ => rfl
  | ⟨3, _⟩ => rfl

end Gather

section Gather2
variable {α : Type}

theorem gd_start0 (idx : IVec S4x256x1x1 32) (j : S4x256x1.Idx) :
    gather_S4x256x131072_S4x256x1x1_S4x256x1_n_2_01_01_2_3_111.start j idx 0 = 0 := by
  unfold GatherDims.start
  exact dif_neg gd_sim0

theorem gd_start1 (idx : IVec S4x256x1x1 32) (j : S4x256x1.Idx) :
    gather_S4x256x131072_S4x256x1x1_S4x256x1_n_2_01_01_2_3_111.start j idx 1 = 0 := by
  unfold GatherDims.start
  exact dif_neg gd_sim1

theorem gd_start2 (idx : IVec S4x256x1x1 32) (b : Fin 4) (r : Fin 256) :
    gather_S4x256x131072_S4x256x1x1_S4x256x1_n_2_01_01_2_3_111.start (ix3 b r 0) idx 2
      = min (idx (ix4 b r 0 0)).toInt.toNat 131071 := by
  unfold GatherDims.start
  rw [dif_pos gd_sim2, gd_si b r]
  rfl

/-- The gather along the vocabulary axis, batched over (sample, position): the operand at (b, r) and the start index
    read signed and clamped into the vocabulary. -/
theorem gather_apply (x : S4x256x131072.Idx → α) (idx : IVec S4x256x1x1 32) (b : Fin 4) (r : Fin 256) :
    Host.gather gather_S4x256x131072_S4x256x1x1_S4x256x1_n_2_01_01_2_3_111 x idx (ix3 b r 0)
      = x (ix3 b r ⟨min (idx (ix4 b r 0 0)).toInt.toNat 131071, by omega⟩) := by
  unfold Host.gather
  refine congrArg x (funext fun a => Fin.ext ?_)
  show gather_S4x256x131072_S4x256x1x1_S4x256x1_n_2_01_01_2_3_111.start (ix3 b r 0) idx a
      + gather_S4x256x131072_S4x256x1x1_S4x256x1_n_2_01_01_2_3_111.batchCoord (ix3 b r 0) a
      + gather_S4x256x131072_S4x256x1x1_S4x256x1_n_2_01_01_2_3_111.offCoord (ix3 b r 0) a = _
  rw [GatherDims.offCoord_eq_zero _ _ _ (gd_sk a), Nat.add_zero]
  match a with
  | ⟨0, _⟩ => exact (congrArg₂ (· + ·) (gd_start0 idx _) (gd_bc0 b r)).trans (Nat.zero_add _)
  | ⟨1, _⟩ => exact (congrArg₂ (· + ·) (gd_start1 idx _) (gd_bc1 b r)).trans (Nat.zero_add _)
  | ⟨2, _⟩ =>
    exact (congrArg₂ (· + ·) (gd_start2 idx b r) (GatherDims.batchCoord_eq_zero _ _ _ gd_ob2)).trans (Nat.add_zero _)

end Gather2

section Gather3
variable {α : Type}

/-- The same with the gathered token named by the caller. -/
theorem gather_apply' (x : S4x256x131072.Idx → α) (idx : IVec S4x256x1x1 32) (b : Fin 4) (r : Fin 256) {k : Fin 131072}
    (hk : k.val = min (idx (ix4 b r 0 0)).toInt.toNat 131071) :
    Host.gather gather_S4x256x131072_S4x256x1x1_S4x256x1_n_2_01_01_2_3_111 x idx (ix3 b r 0) = x (ix3 b r k) := by
  rw [gather_apply]
  exact congrArg (fun q => x (ix3 b r q)) (Fin.ext hk.symm)

end Gather3

/-! ## Words below the vocabulary size, and the conjunction over the unit axis -/

section Words

/-- A word below the vocabulary size reads the same signed and unsigned. -/
theorem toInt_of_lt (w : BitVec 32) (hw : w.toNat < 131072) : w.toInt = (w.toNat : Int) :=
  BitVec.toInt_eq_toNat_of_lt (by omega)

/-- Such a word is not negative, so the wrap of a negative index is not taken. -/
theorem slt_zero (w : BitVec 32) (hw : w.toNat < 131072) : IntOp.cmpi .slt w 0#32 = 0#1 :=
  eq_zero_of_ne_one fun h => by
    rw [IntOp.cmpi_slt, toInt_of_lt w hw, show (0#32 : BitVec 32).toInt = 0 by decide] at h
    omega

/-- Such a word passes the lower range test. -/
theorem sge_zero (w : BitVec 32) (hw : w.toNat < 131072) : IntOp.cmpi .sge w 0#32 = 1#1 :=
  IntOp.cmpi_sge.2 (by rw [toInt_of_lt w hw, show (0#32 : BitVec 32).toInt = 0 by decide]; omega)

/-- Such a word passes the upper range test. -/
theorem sle_max (w : BitVec 32) (hw : w.toNat < 131072) : IntOp.cmpi .sle w 131071#32 = 1#1 :=
  IntOp.cmpi_sle.2 (by rw [toInt_of_lt w hw, show (131071#32 : BitVec 32).toInt = 131071 by decide]; omega)

/-- The clamp into the vocabulary does nothing to such a word. -/
theorem clamp_of_lt (w : BitVec 32) (hw : w.toNat < 131072) : min w.toInt.toNat 131071 = w.toNat := by
  rw [toInt_of_lt w hw, Int.toNat_natCast]
  omega

end Words

section ReduceLast

/-- The trailing unit axis is reduced away. -/
theorem redLast : S4x256x1x1.Reduces [3] S4x256x1 := by decide

theorem lift_redLast (b : Fin 4) (r : Fin 256) (z : Fin 1) : redLast.lift (ix3 b r 0) z = ix4 b r 0 0 := by
  funext a
  refine Fin.ext ?_
  match a with
  | ⟨0, _⟩ => rfl
  | ⟨1, _⟩ => rfl
  | ⟨2, _⟩ => rfl
  | ⟨3, _⟩ => exact Nat.lt_one_iff.1 z.isLt

/-- A conjunction over the trailing unit axis from 1 is the one entry. -/
theorem allLast_apply (x : IVec S4x256x1x1 1) (b : Fin 4) (r : Fin 256) :
    Host.reduce IntOp.andi x (constantI S_ 1 1#1) reducesTo_S4x256x1x1_S4x256x1_d3 h_S_ (ix3 b r 0) = x (ix4 b r 0 0) := by
  rw [Host.reduce_eq_fold_single _ _ _ _ redLast]
  show Finset.fold IntOp.andi 1#1 (fun z : Fin 1 => x (redLast.lift (ix3 b r 0) z)) Finset.univ = _
  rw [Finset.univ_unique, Finset.fold_singleton, lift_redLast]
  generalize x (ix4 b r 0 0) = c
  revert c; decide

end ReduceLast

/-! ## The stages of the log-softmax -/

section Stages

/-- The row maximum as the reference computes it: the maximum of -inf and the reduction from -inf. -/
theorem smax_apply (Y : FVec Ideal S4x256x131072 .f32) (b : Fin 4) (r : Fin 256) :
    maximumf (broadcastInDim S4x256 (![] : Fin 0 → Fin 2) bcast_S_S4x256 (constant (F := Ideal) S_ .f32 0xFF800000#32))
        (Host.reduce (FloatOps.maximumf (F := Ideal)) Y (constant (F := Ideal) S_ .f32 0xFF800000#32)
          reducesTo_S4x256x131072_S4x256_d2 h_S_) (ix2 b r)
      = Finset.univ.sup fun v : Fin 131072 => Y (ix3 b r v) := by
  rw [maximumf_apply, bc02_apply, constant_apply, rowMax_apply, ofBits_neg_inf]
  exact max_bot_left _

/-- The exponential of a row shifted by a per-row value. -/
theorem expShift_apply (Y : FVec Ideal S4x256x131072 .f32) (M : FVec Ideal S4x256 .f32) (b : Fin 4) (r : Fin 256)
    (v : Fin 131072) :
    Host.exp (F := Ideal) (subf Y (broadcastInDim S4x256x131072 (![0, 1, 2] : Fin 3 → Fin 3) bcast_S4x256x1_S4x256x131072_0_1_2
        (broadcastInDim S4x256x1 (![0, 1] : Fin 2 → Fin 3) bcast_S4x256_S4x256x1_0_1 M))) (ix3 b r v)
      = Ideal.exp (Y (ix3 b r v) - M (ix2 b r)) := by
  rw [hostExp_apply, subf_apply, bc32_apply, bc21_apply]

/-- The row sum of those exponentials, from 0. -/
theorem sumExpShift_apply (Y : FVec Ideal S4x256x131072 .f32) (M : FVec Ideal S4x256 .f32) (b : Fin 4) (r : Fin 256) :
    Host.reduceAdd (F := Ideal)
        (Host.exp (F := Ideal) (subf Y (broadcastInDim S4x256x131072 (![0, 1, 2] : Fin 3 → Fin 3) bcast_S4x256x1_S4x256x131072_0_1_2
          (broadcastInDim S4x256x1 (![0, 1] : Fin 2 → Fin 3) bcast_S4x256_S4x256x1_0_1 M))))
        (constant (F := Ideal) S_ .f32 0x00000000#32) reducesTo_S4x256x131072_S4x256_d2 h_S_ (ix2 b r)
      = ∑ v : Fin 131072, Ideal.exp (Y (ix3 b r v) - M (ix2 b r)) := by
  rw [rowSum_apply, constant_apply, Ideal.ofBits_zero_f32, zero_add]
  exact Finset.sum_congr rfl fun v _ => expShift_apply Y M b r v

/-- Two rows equal entry by entry have the same log-softmax at every entry. -/
theorem lsm_congr (f g : Fin 131072 → EReal) (h : ∀ v, f v = g v) (k : Fin 131072) :
    f k - Finset.univ.sup f - Ideal.log (∑ v, Ideal.exp (f v - Finset.univ.sup f))
      = g k - Finset.univ.sup g - Ideal.log (∑ v, Ideal.exp (g v - Finset.univ.sup g)) := by
  obtain rfl : f = g := funext h
  rfl

end Stages

end LogP

open LogP

/-- The reference's log-probability is the specification's, for ids inside the vocabulary. -/
theorem logpR_eq (X : Vec Ideal S4x257x131072 .f32) (ids : IVec S4x257 32) (hin : InRange ids) (b : Fin 4) (r : Fin 256) :
    logpR (F := Ideal) X ids (ix2 b r) = Cert.Spec.logp (Xof X) (idOf ids) b r := by
  have hw : (ids (ix2 b r.succ)).toNat < 131072 := hin b r
  unfold logpR
  dsimp only
  -- the quotient, the reshape, the selection, its condition, and the gather at the id
  rw [hostDivf_apply, sc32_apply, select_apply, allLast_apply, andiV_apply, cmpiV_apply, cmpiV_apply,
    gather_apply' (k := idOf ids b r)]
  case hk =>
    -- the start index at (b, r, 0, 0) is the id itself, and the clamp leaves it alone
    rw [sc34_apply, select_apply, cmpiV_apply, bc21_apply, sliceI_apply, bc03_apply, constantI_apply,
      slt_zero _ hw, select_zero, clamp_of_lt _ hw, idOf_val ids hin]
  -- the wrapped index is the id: the wrap is not taken
  rw [sc34_apply, select_apply, cmpiV_apply, bc21_apply, sliceI_apply, bc03_apply, constantI_apply,
      slt_zero _ hw, select_zero]
  -- both range tests pass, so the selection keeps the gathered value
  rw [bc04_apply, constantI_apply, bc44_apply, bc14_apply, constantI_apply, sge_zero _ hw, sle_max _ hw]
  rw [show IntOp.andi 1#1 1#1 = 1#1 from by decide, select_one]
  -- the log-softmax at (b, r, id), and the divisor 1
  rw [subf_apply, subf_apply, bc32_apply, bc32_apply, hostLog_apply, bc21_apply, bc21_apply, sumExpShift_apply,
    smax_apply, bc02_apply, constant_apply, Ideal.ofBits_one_f32]
  unfold Cert.Spec.logp Cert.Spec.rsum Cert.Spec.rmax
  refine congrArg (Ideal.div · 1) ?_
  exact lsm_congr
    (fun v => extractStridedSlice S4x256x131072 ![0, 0, 0] X slices_S4x257x131072_S4x256x131072_0_0_0 (ix3 b r v))
    (Xof X b r) (sliceX_apply X b r) (idOf ids b r)

end Cert.ReferenceIdeal.Val

end
-- ==== Proof.Val.REnt.lean ====
/-
  The reference's entropy array at the ideal instance is the specification's entropy, index by index: a quotient by
  the constant 1 changes nothing on the extended reals, the maximum-reduction from -inf is the supremum of the row,
  the sum-reduction from 0 is the row's sum.
-/
import proofs.«419102_j73229192397434_1_alg».proof.Proof.Ref.Run
import proofs.«419102_j73229192397434_1_alg».proof.Proof.Access
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.ValEnt

open Idealize.ShloMosaic Idealize.ShloMosaic.TcCoe Idealize.ShloMosaic.ValueIdx
open Idealize.SL.Sem
open Cert.Access

open Cert.ReferenceIdeal Cert.ReferenceIdeal.Gen Cert.ReferenceIdeal.Hand

/-! ## The stages of the reference's entropy, named -/

/-- The first 256 rows' logits divided by the temperature 1. -/
def scaled (X : FVec Ideal S4x257x131072 .f32) : FVec Ideal S4x256x131072 .f32 :=
  Host.divf (extractStridedSlice S4x256x131072 ![0, 0, 0] X slices_S4x257x131072_S4x256x131072_0_0_0)
    (broadcastInDim S4x256x131072 ![] bcast_S_S4x256x131072 (constant (F := Ideal) S_ .f32 0x3F800000#32))
/-- The rows' maxima. -/
def rowMax (X : FVec Ideal S4x257x131072 .f32) : FVec Ideal S4x256 .f32 :=
  maximumf (broadcastInDim S4x256 ![] bcast_S_S4x256 (constant (F := Ideal) S_ .f32 0xFF800000#32))
    (Host.reduce FloatOps.maximumf (scaled X) (constant (F := Ideal) S_ .f32 0xFF800000#32) reducesTo_S4x256x131072_S4x256_d2 h_S_)
/-- A row statistic spread over the vocabulary axis. -/
def spread (w : FVec Ideal S4x256 .f32) : FVec Ideal S4x256x131072 .f32 :=
  broadcastInDim S4x256x131072 ![0, 1, 2] bcast_S4x256x1_S4x256x131072_0_1_2 (broadcastInDim S4x256x1 ![0, 1] bcast_S4x256_S4x256x1_0_1 w)
/-- The exponentials relative to the row maximum. -/
def expo (X : FVec Ideal S4x257x131072 .f32) : FVec Ideal S4x256x131072 .f32 :=
  Host.exp (subf (scaled X) (spread (rowMax X)))
/-- The rows' sums of exponentials. -/
def rowSum (X : FVec Ideal S4x257x131072 .f32) : FVec Ideal S4x256 .f32 :=
  Host.reduceAdd (expo X) (constant (F := Ideal) S_ .f32 0x00000000#32) reducesTo_S4x256x131072_S4x256_d2 h_S_
/-- The probabilities. -/
def probs (X : FVec Ideal S4x257x131072 .f32) : FVec Ideal S4x256x131072 .f32 :=
  Host.divf (expo X) (spread (rowSum X))

/-- The reference's entropy is these stages composed. -/
theorem entR_stages (X : FVec Ideal S4x257x131072 .f32) :
    entR (F := Ideal) X = Host.negf (Host.reduceAdd
      (mulf (probs X) (Host.log (addf (probs X)
        (broadcastInDim S4x256x131072 ![] bcast_S_S4x256x131072 (constant (F := Ideal) S_ .f32 0x3089705F#32)))))
      (constant (F := Ideal) S_ .f32 0x00000000#32) reducesTo_S4x256x131072_S4x256_d2 h_S_) := rfl

/-! ## Each stage at an index -/

/-- The vocabulary axis dropped and put back. -/
theorem hRed : S4x256x131072.Reduces [2] S4x256 := by decide

theorem lift_eq (b : Fin 4) (r : Fin 256) (v : Fin 131072) : hRed.lift (ix2 b r) v = ix3 b r v := by
  funext a
  apply Fin.ext
  match a with
  | ⟨0, _⟩ => rfl
  | ⟨1, _⟩ => rfl
  | ⟨2, _⟩ => rfl

/-- A quotient by 1 is the dividend, whatever extended real it is. -/
theorem div_one' (x : EReal) : Ideal.div x 1 = x := by
  rw [← EReal.coe_one, Ideal.div_coe one_ne_zero]
  simp

/-- The word of -inf. -/
theorem ofBits_neg_inf : Ideal.ofBits .f32 0xFF800000#32 = (⊥ : EReal) := by
  simp [Ideal.ofBits, Ideal.ieee]

theorem scaled_apply (X : FVec Ideal S4x257x131072 .f32) (b : Fin 4) (r : Fin 256) (v : Fin 131072) :
    scaled X (ix3 b r v) = Xof X b r v := by
  unfold scaled
  refine (hostDivf_apply _ _ _).trans ?_
  rw [broadcastInDim_scalar_apply, constant_apply, Ideal.ofBits_one_f32, div_one']
  refine extractStridedSlice_apply _ X _ (ix3 b r v) (ix3 b (Fin.castSucc r) v) fun a => ?_
  match a with
  | ⟨0, _⟩ => exact (Nat.zero_add _).symm
  | ⟨1, _⟩ => exact (Nat.zero_add _).symm
  | ⟨2, _⟩ => exact (Nat.zero_add _).symm

theorem spread_apply (w : FVec Ideal S4x256 .f32) (b : Fin 4) (r : Fin 256) (v : Fin 131072) :
    spread w (ix3 b r v) = w (ix2 b r) := by
  unfold spread
  refine (broadcastInDim_apply _ _ _ (ix3 b r v) (ix3 b r (0 : Fin 1)) fun a => ?_).trans ?_
  · match a with
    | ⟨0, _⟩ => rfl
    | ⟨1, _⟩ => rfl
    | ⟨2, _⟩ => rfl
  refine broadcastInDim_apply _ _ w (ix3 b r (0 : Fin 1)) (ix2 b r) fun a => ?_
  match a with
  | ⟨0, _⟩ => rfl
  | ⟨1, _⟩ => rfl

theorem rowMax_apply (X : FVec Ideal S4x257x131072 .f32) (b : Fin 4) (r : Fin 256) :
    rowMax X (ix2 b r) = Cert.Spec.rmax (Xof X) b r := by
  unfold rowMax
  refine (maximumf_apply _ _ _).trans ?_
  rw [broadcastInDim_scalar_apply, constant_apply, ofBits_neg_inf, max_eq_right bot_le,
    Host.reduce_eq_fold_single FloatOps.maximumf (scaled X) _ reducesTo_S4x256x131072_S4x256_d2 hRed h_S_ (ix2 b r),
    constant_apply, ofBits_neg_inf]
  unfold Cert.Spec.rmax
  have hfun : (scaled X ∘ hRed.lift (ix2 b r)) = Xof X b r :=
    funext fun v => (congrArg (scaled X) (lift_eq b r v)).trans (scaled_apply X b r v)
  rw [hfun]
  refine le_antisymm ?_ ?_
  · refine (Finset.fold_max_le _).mpr ⟨bot_le, fun v _ => Finset.le_sup (f := Xof X b r) (Finset.mem_univ v)⟩
  · refine Finset.sup_le fun v _ => ?_
    exact (Finset.le_fold_max _).mpr (Or.inr ⟨v, Finset.mem_univ v, le_refl _⟩)

theorem expo_apply (X : FVec Ideal S4x257x131072 .f32) (b : Fin 4) (r : Fin 256) (v : Fin 131072) :
    expo X (ix3 b r v) = Ideal.exp (Xof X b r v - Cert.Spec.rmax (Xof X) b r) := by
  unfold expo
  show Ideal.exp (subf (scaled X) (spread (rowMax X)) (ix3 b r v)) = _
  rw [subf_apply, scaled_apply, spread_apply, rowMax_apply]

theorem rowSum_apply (X : FVec Ideal S4x257x131072 .f32) (b : Fin 4) (r : Fin 256) :
    rowSum X (ix2 b r) = Cert.Spec.rsum (Xof X) b r := by
  unfold rowSum
  refine (hostReduceAdd_apply _ _ _ _ _).trans ?_
  rw [Ideal.hostReduceAdd_single reducesTo_S4x256x131072_S4x256_d2 hRed, constant_apply, Ideal.ofBits_zero_f32, zero_add]
  unfold Cert.Spec.rsum
  exact Finset.sum_congr rfl fun v _ => (congrArg (expo X) (lift_eq b r v)).trans (expo_apply X b r v)

theorem probs_apply (X : FVec Ideal S4x257x131072 .f32) (b : Fin 4) (r : Fin 256) (v : Fin 131072) :
    probs X (ix3 b r v) = Cert.Spec.prob (Xof X) b r v := by
  unfold probs
  refine (hostDivf_apply _ _ _).trans ?_
  rw [expo_apply, spread_apply, rowSum_apply]
  rfl

/-- The host's negation at an index. -/
theorem hostNegf_apply {s : Shape} (a : FVec Ideal s .f32) (i : s.Idx) : Host.negf a i = -(a i) := rfl

/-- One entry's term p * log (p + eps) of an array p of probabilities. -/
theorem term_apply (p : FVec Ideal S4x256x131072 .f32) (i : S4x256x131072.Idx) :
    mulf p (Host.log (addf p (broadcastInDim S4x256x131072 ![] bcast_S_S4x256x131072 (constant (F := Ideal) S_ .f32 0x3089705F#32)))) i
      = p i * Ideal.log (p i + eps) := by
  refine (mulf_apply _ _ _).trans ?_
  refine congrArg (p i * ·) ?_
  refine congrArg Ideal.log ?_
  refine (addf_apply _ _ _).trans ?_
  rw [broadcastInDim_scalar_apply, constant_apply]
  rfl

/-- The reference's entropy is the specification's. -/
theorem entR_eq (X : Vec Ideal S4x257x131072 .f32) (b : Fin 4) (r : Fin 256) :
    entR (F := Ideal) X (ix2 b r) = Cert.Spec.ent (Xof X) eps b r := by
  rw [entR_stages X]
  refine (hostNegf_apply _ _).trans ?_
  unfold Cert.Spec.ent
  refine congrArg Neg.neg ?_
  refine (hostReduceAdd_apply _ _ _ _ _).trans ?_
  rw [Ideal.hostReduceAdd_single reducesTo_S4x256x131072_S4x256_d2 hRed, constant_apply, Ideal.ofBits_zero_f32, zero_add]
  refine Finset.sum_congr rfl fun v _ => ?_
  refine (congrArg _ (lift_eq b r v)).trans ?_
  refine (term_apply (probs X) (ix3 b r v)).trans ?_
  rw [probs_apply X b r v]

end Cert.ReferenceIdeal.ValEnt

end
-- ==== Proof.PreDecode.lean ====
/-
  The precondition, decoded: where the printed predicate is all ones, every logit is a real number (its absolute
  value is below +inf) and every token id from column 1 on lies in [0, 131072) (a signed comparison with 0 and with
  the vocabulary size, so its word read as a natural number is below the vocabulary size).
-/
import proofs.«419102_j73229192397434_1_alg».proof.Pre_finite_inputs
import proofs.«419102_j73229192397434_1_alg».proof.Proof.Gen.Pre_finite_inputs
import proofs.«419102_j73229192397434_1_alg».proof.Proof.Access
import Idealize.ShloMosaic.Lib.ReduceAll
import Idealize.ShloMosaic.Lib.StableHlo.Predicate
import Idealize.ShloMosaic.Lib.ValueIdx

noncomputable section

namespace Cert.PreDecode

open Idealize.ShloMosaic Idealize.ShloMosaic.ValueIdx
open Cert.Pre_finite_inputs

/-- The rank-zero shape has one index. -/
private instance : Subsingleton S_.Idx := ⟨fun a b => funext fun d => d.elim0⟩

/-- The f32 word 0x7F800000 denotes +inf. -/
private theorem inf_word : Ideal.ofBits .f32 0x7F800000#32 = (⊤ : EReal) := by
  simp [Ideal.ofBits, Ideal.ieee]

/-- An extended real whose absolute value max x (-x) is below +inf is a real number:
    at -inf the absolute value is +inf, and so it is at +inf. -/
private theorem real_of_abs_lt_top (x : EReal) (h : max x (-x) < ⊤) : ∃ r : ℝ, x = (r : EReal) := by
  induction x using EReal.rec with
  | bot => simp at h
  | coe r => exact ⟨r, rfl⟩
  | top => simp at h

/-- The slice [0:4, 1:257] of the ids at (b, r) is the id at (b, r + 1). -/
private theorem slice_at (a2 : IVec S4x257 32) (hs : S4x257.Slices ![0, 1] S4x256) (b : Fin 4) (r : Fin 256) :
    extractStridedSlice S4x256 ![0, 1] a2 hs (ix2 b r) = a2 (ix2 b r.succ) := by
  unfold extractStridedSlice
  congr 1
  funext a
  apply Fin.ext
  fin_cases a
  · show 0 + b.val = b.val
    omega
  · show 1 + r.val = r.succ.val
    rw [Fin.val_succ]; omega

/-- A 32-bit word that is at least 0 and below 131072 as a signed number is below 131072 as a natural number:
    a nonnegative signed word has its top bit clear, so both readings agree. -/
private theorem toNat_lt_of_signed (w : BitVec 32) (h0 : IntOp.cmpi .sge w 0#32 = 1#1)
    (h1 : IntOp.cmpi .slt w 131072#32 = 1#1) : w.toNat < 131072 := by
  have hw : w.toNat < 2 ^ 31 := by
    unfold IntOp.cmpi at h0
    rw [StableHlo.Predicate.ofBool_eq_one_iff] at h0
    have hz : (0#32 : BitVec 32).toInt = 0 := by decide
    have h0' : 0 ≤ w.toInt := by
      have hle : (0#32 : BitVec 32).toInt ≤ w.toInt := by simpa [BitVec.sle] using h0
      rwa [hz] at hle
    have hc := BitVec.toInt_eq_toNat_cond w
    have hlt := w.isLt
    split at hc <;> omega
  have h := (StableHlo.Predicate.slt_iff_toNat hw (by decide)).1 h1
  simpa using h

theorem decode [Cert.Pre_finite_inputs.Facts]
    (a0 : FVec Ideal S4x257x131072 .f32) (a1 : FVec Ideal S4 .f32) (a2 : IVec S4x257 32) (a3 : IVec S4x257 32)
    (h : Cert.Pre_finite_inputs.fn (F := Ideal) a0 a1 a2 a3 = fun _ => 1#1) :
    Cert.Spec.Finite (Cert.Access.Xof a0) ∧ Cert.Access.InRange a2 := by
  have e := congrFun h ValueIdx.ix0
  unfold Cert.Pre_finite_inputs.fn Cert.Pre_finite_inputs.fn_part1 at e
  dsimp only at e
  unfold andi at e
  rw [IntOp.andi_eq_one, IntOp.andi_eq_one, IntOp.andi_eq_one] at e
  obtain ⟨⟨⟨h3, -⟩, h12⟩, h17⟩ := e
  refine ⟨fun b r v => ?_, fun b r => ?_⟩
  · have hx := Host.reduce_andi_all _ _ _ _ _ h3 (ix3 b r.castSucc v)
    have hx' : Ideal.cmp .olt (max (a0 (ix3 b r.castSucc v)) (-(a0 (ix3 b r.castSucc v))))
        (Ideal.ofBits .f32 0x7F800000#32) = 1#1 := hx
    rw [inf_word] at hx'
    unfold Ideal.cmp at hx'
    rw [StableHlo.Predicate.ofBool_eq_one_iff] at hx'
    exact real_of_abs_lt_top (a0 (ix3 b r.castSucc v)) (by simpa using hx')
  · have h0 := Host.reduce_andi_all _ _ _ _ _ h12 (ix2 b r)
    have h1 := Host.reduce_andi_all _ _ _ _ _ h17 (ix2 b r)
    have h0' : IntOp.cmpi .sge (a2 (ix2 b r.succ)) 0#32 = 1#1 := by
      rw [← slice_at a2 Facts.slices_S4x257_S4x256_0_1 b r]; exact h0
    have h1' : IntOp.cmpi .slt (a2 (ix2 b r.succ)) 131072#32 = 1#1 := by
      rw [← slice_at a2 Facts.slices_S4x257_S4x256_0_1 b r]; exact h1
    exact toNat_lt_of_signed _ h0' h1'

end Cert.PreDecode

end
-- ==== Proof.lean ====
/-
  The certificate's claim, assembled.

  Both programs compute, for logits X[b, r, v] and the next tokens id[b, r], the chosen tokens' log-probabilities
  (X - max - log sum exp (X - max)) at id, divided by the temperature 1, and the rows' entropies
  -sum p log (p + eps) with p the softmax, and then apply the same closing operations (the clipped-ratio loss, the
  masked entropy average, the entropy average over the valid positions ranked 4 to 100) to those two arrays, the
  advantages and the mask. The kernel reaches the two arrays by two streaming passes over 128 column blocks (a running
  maximum with a rescaled running sum and a one-hot pick of the chosen logit; then the entropy against the fixed
  maximum and log-sum); the reference in one pass each. On finite logits and token ids inside the vocabulary the two
  arrays are the same functions of the arguments index by index (Val/K0, Val/K1 against Val/R, through Spec), so all
  four results agree. The three frames: the kernel's run at either instance (the launch over its two regions), and
  the reference's run with its results dropped. The ideal pass rewrote nothing, so preserves has nothing to state.
-/
import proofs.«419102_j73229192397434_1_alg».proof.Defs
import proofs.«419102_j73229192397434_1_alg».proof.Proof.Gen.Kernel
import proofs.«419102_j73229192397434_1_alg».proof.Proof.Gen.KernelIdeal
import proofs.«419102_j73229192397434_1_alg».proof.Proof.Gen.ReferenceIdeal
import proofs.«419102_j73229192397434_1_alg».proof.Proof.Gen.Pre_finite_inputs
import proofs.«419102_j73229192397434_1_alg».proof.Proof.K.Launch
import proofs.«419102_j73229192397434_1_alg».proof.Proof.K.Oblig0
import proofs.«419102_j73229192397434_1_alg».proof.Proof.K.Oblig1
import proofs.«419102_j73229192397434_1_alg».proof.Proof.KI.Launch
import proofs.«419102_j73229192397434_1_alg».proof.Proof.KI.Oblig0
import proofs.«419102_j73229192397434_1_alg».proof.Proof.KI.Oblig1
import proofs.«419102_j73229192397434_1_alg».proof.Proof.KI.Outs
import proofs.«419102_j73229192397434_1_alg».proof.Proof.Ref.Run
import proofs.«419102_j73229192397434_1_alg».proof.Proof.Val.K0
import proofs.«419102_j73229192397434_1_alg».proof.Proof.Val.K1
import proofs.«419102_j73229192397434_1_alg».proof.Proof.Val.R
import proofs.«419102_j73229192397434_1_alg».proof.Proof.Val.REnt
import proofs.«419102_j73229192397434_1_alg».proof.Proof.PreDecode
import Idealize.ShloMosaic.Adequacy
import Idealize.ShloMosaic.Init

noncomputable section

namespace Cert.Proof

open Idealize.ShloMosaic Idealize.ShloMosaic.TcCoe Idealize.ShloMosaic.ValueIdx Idealize.SL.Sem

/-- The two regions' obligations of the word-level program, and of the idealized one. -/
theorem obligsK : Cert.Kernel.Hand.Obligs Bits :=
  ⟨Cert.Kernel.Hand.body_obligation0, Cert.Kernel.Hand.hin0, Cert.Kernel.Hand.hout0, Cert.Kernel.Hand.body_obligation1⟩
theorem obligsKI : Cert.KernelIdeal.Hand.Obligs Ideal :=
  ⟨Cert.KernelIdeal.Hand.body_obligation0, Cert.KernelIdeal.Hand.hin0, Cert.KernelIdeal.Hand.hout0, Cert.KernelIdeal.Hand.body_obligation1⟩

theorem frame_p : Cert.frame_Kernel := fun m ρ _ => Cert.Kernel.Hand.frame obligsK m ρ
theorem frame_pi : Cert.frame_KernelIdeal := fun m ρ _ => Cert.KernelIdeal.Hand.frame obligsKI m ρ
theorem frame_ri : Cert.frame_ReferenceIdeal := fun m ρ _ =>
  (θ_run Cert.ReferenceIdeal.defs _ _).mono (fun _ h c => (h c).2.2.2.2)
    (Cert.ReferenceIdeal.Hand.run (F := Ideal) m ρ)

/-- The closing operations are the same functions in the two programs. -/
theorem tLoss_eq (L : Vec Ideal Cert.KernelIdeal.S4x256 .f32) (adv : Vec Ideal Cert.KernelIdeal.S4 .f32) (mk : IVec Cert.KernelIdeal.S4x256 32) :
    Cert.KernelIdeal.Hand.tLoss (F := Ideal) L adv mk = Cert.ReferenceIdeal.Hand.tLossR (F := Ideal) L adv mk := by
  unfold Cert.KernelIdeal.Hand.tLoss Cert.ReferenceIdeal.Hand.tLossR
  rfl
theorem tAvg_eq (E : Vec Ideal Cert.KernelIdeal.S4x256 .f32) (mk : IVec Cert.KernelIdeal.S4x256 32) :
    Cert.KernelIdeal.Hand.tAvg (F := Ideal) E mk = Cert.ReferenceIdeal.Hand.tAvgR (F := Ideal) E mk := by
  unfold Cert.KernelIdeal.Hand.tAvg Cert.ReferenceIdeal.Hand.tAvgR
  rfl
theorem tTrunc_eq (E : Vec Ideal Cert.KernelIdeal.S4x256 .f32) (mk : IVec Cert.KernelIdeal.S4x256 32) :
    Cert.KernelIdeal.Hand.tTrunc (F := Ideal) E mk = Cert.ReferenceIdeal.Hand.tTruncR (F := Ideal) E mk := by
  unfold Cert.KernelIdeal.Hand.tTrunc Cert.ReferenceIdeal.Hand.tTruncR
  rfl

/-- The kernel's four argument arrays on core c. -/
abbrev a0 (m : (ℓ : Loc Cert.KernelIdeal.nD Cert.KernelIdeal.τ Cert.KernelIdeal.sig) → Buf (Elt Ideal) ℓ) (c : Dev Cert.KernelIdeal.nD) :=
  m ((c.tc : Thread Cert.KernelIdeal.nD Cert.KernelIdeal.τ).loc Cert.KernelIdeal.main_arg0)
abbrev a1 (m : (ℓ : Loc Cert.KernelIdeal.nD Cert.KernelIdeal.τ Cert.KernelIdeal.sig) → Buf (Elt Ideal) ℓ) (c : Dev Cert.KernelIdeal.nD) :=
  m ((c.tc : Thread Cert.KernelIdeal.nD Cert.KernelIdeal.τ).loc Cert.KernelIdeal.main_arg1)
abbrev a2 (m : (ℓ : Loc Cert.KernelIdeal.nD Cert.KernelIdeal.τ Cert.KernelIdeal.sig) → Buf (Elt Ideal) ℓ) (c : Dev Cert.KernelIdeal.nD) :=
  m ((c.tc : Thread Cert.KernelIdeal.nD Cert.KernelIdeal.τ).loc Cert.KernelIdeal.main_arg2)
abbrev a3 (m : (ℓ : Loc Cert.KernelIdeal.nD Cert.KernelIdeal.τ Cert.KernelIdeal.sig) → Buf (Elt Ideal) ℓ) (c : Dev Cert.KernelIdeal.nD) :=
  m ((c.tc : Thread Cert.KernelIdeal.nD Cert.KernelIdeal.τ).loc Cert.KernelIdeal.main_arg3)

theorem algebraic : Cert.algebraic_KernelIdeal_ReferenceIdeal := by
  intro m ρ m' ρ' hpre hagree
  refine ⟨fun c => Cert.ReferenceIdeal.Hand.tLossR (F := Ideal) (Cert.ReferenceIdeal.Hand.logpR (F := Ideal) (a0 m c) (a2 m c)) (a1 m c) (Cert.ReferenceIdeal.Hand.maskR (a3 m c)),
    fun c => Cert.ReferenceIdeal.Hand.logpR (F := Ideal) (a0 m c) (a2 m c),
    fun c => Cert.ReferenceIdeal.Hand.tAvgR (F := Ideal) (Cert.ReferenceIdeal.Hand.entR (F := Ideal) (a0 m c)) (Cert.ReferenceIdeal.Hand.maskR (a3 m c)),
    fun c => Cert.ReferenceIdeal.Hand.tTruncR (F := Ideal) (Cert.ReferenceIdeal.Hand.entR (F := Ideal) (a0 m c)) (Cert.ReferenceIdeal.Hand.maskR (a3 m c)),
    (θ_run Cert.KernelIdeal.defs _ _).mono (fun r h c => ?_) (Cert.KernelIdeal.Hand.run_all obligsKI m ρ),
    (θ_run Cert.ReferenceIdeal.defs _ _).mono (fun r h c => ?_) (Cert.ReferenceIdeal.Hand.run (F := Ideal) m' ρ')⟩
  · -- the kernel's results, named by the reference's terms of the kernel's arguments
    obtain ⟨hfin, hin⟩ := Cert.PreDecode.decode _ _ _ _ (hpre c)
    have hmax := Cert.KernelIdeal.Val.fin0_max m c hfin
    have hlse := Cert.KernelIdeal.Val.fin0_lse m c hfin
    have hL : Cert.KernelIdeal.Hand.logpK (F := Ideal) m c
        = Cert.ReferenceIdeal.Hand.logpR (F := Ideal) (m ((c.tc : Thread Cert.KernelIdeal.nD Cert.KernelIdeal.τ).loc Cert.KernelIdeal.main_arg0))
            (m ((c.tc : Thread Cert.KernelIdeal.nD Cert.KernelIdeal.τ).loc Cert.KernelIdeal.main_arg2)) := by
      funext j
      obtain ⟨b, q, rfl⟩ : ∃ (b : Fin 4) (q : Fin 256), j = ix2 b q := ⟨j 0, j 1, eq_ix2 j⟩
      exact (Cert.KernelIdeal.Val.fin0_logp m c hfin hin b q).trans (Cert.ReferenceIdeal.Val.logpR_eq _ _ hin b q).symm
    have hE : Cert.KernelIdeal.Hand.entK (F := Ideal) m c
        = Cert.ReferenceIdeal.Hand.entR (F := Ideal) (m ((c.tc : Thread Cert.KernelIdeal.nD Cert.KernelIdeal.τ).loc Cert.KernelIdeal.main_arg0)) := by
      funext j
      obtain ⟨b, q, rfl⟩ : ∃ (b : Fin 4) (q : Fin 256), j = ix2 b q := ⟨j 0, j 1, eq_ix2 j⟩
      exact (Cert.KernelIdeal.Val.entK_eq m c hfin hmax hlse b q).trans (Cert.ReferenceIdeal.ValEnt.entR_eq _ b q).symm
    refine ⟨?_, ?_, ?_, ?_, ?_, ?_, ?_, ?_⟩
    · exact ((h c _ (Cert.KernelIdeal.Hand.mem_uc Cert.KernelIdeal.main_v36 (by decide))).trans (Cert.KernelIdeal.Hand.W8_loss m c)).trans
        ((tLoss_eq _ _ _).trans (by rw [hL]; rfl))
    · exact ((h c _ (Cert.KernelIdeal.Hand.mem_uc Cert.KernelIdeal.main_v2_0 (by decide))).trans (Cert.KernelIdeal.Hand.W8_logp m c)).trans hL
    · exact ((h c _ (Cert.KernelIdeal.Hand.mem_uc Cert.KernelIdeal.main_v18 (by decide))).trans (Cert.KernelIdeal.Hand.W8_avg m c)).trans
        ((tAvg_eq _ _).trans (by rw [hE]; rfl))
    · exact ((h c _ (Cert.KernelIdeal.Hand.mem_uc Cert.KernelIdeal.main_v32 (by decide))).trans (Cert.KernelIdeal.Hand.W8_trunc m c)).trans
        ((tTrunc_eq _ _).trans (by rw [hE]; rfl))
    · exact (h c _ (Cert.KernelIdeal.Hand.mem_uc Cert.KernelIdeal.main_arg0 (by decide))).trans (Cert.KernelIdeal.Hand.W8_main_arg0 m c)
    · exact (h c _ (Cert.KernelIdeal.Hand.mem_uc Cert.KernelIdeal.main_arg1 (by decide))).trans (Cert.KernelIdeal.Hand.W8_main_arg1 m c)
    · exact (h c _ (Cert.KernelIdeal.Hand.mem_uc Cert.KernelIdeal.main_arg2 (by decide))).trans (Cert.KernelIdeal.Hand.W8_main_arg2 m c)
    · exact (h c _ (Cert.KernelIdeal.Hand.mem_uc Cert.KernelIdeal.main_arg3 (by decide))).trans (Cert.KernelIdeal.Hand.W8_main_arg3 m c)
  · -- the reference's results: the same terms, its arguments being the kernel's
    obtain ⟨h0, h1, h2, h3, b0, b1, b2, b3⟩ := h c
    have e0 := (hagree c).1
    have e1 := (hagree c).2.1
    have e2 := (hagree c).2.2.1
    have e3 := (hagree c).2.2.2
    refine ⟨?_, ?_, ?_, ?_, b0, b1, b2, b3⟩
    · rw [h0, e0, e1, e2, e3]
    · rw [h1, e0, e2]
    · rw [h2, e0, e3]
    · rw [h3, e0, e3]

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
